-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : IVec S4096 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 4294963200#32
  let main_v19 : IVec S4096 32 := broadcastInDim S4096 ![] bcast_S_S4096 main_c_6
  let main_v20 : IVec S4096 1 := cmpi .sge main_arg5 main_v19
  let main_c_7 : IVec S_ 32 := constantI S_ 32 4096#32
  let main_v21 : IVec S4096 32 := broadcastInDim S4096 ![] bcast_S_S4096 main_c_7
  let main_v22 : IVec S4096 1 := cmpi .slt main_arg5 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S4x2048x4096 .f32) (main_arg1 : IVec S4096x2048 32) (main_arg2 : FVec F S4096x32 .f32) (main_arg3 : FVec F S4096x32 .f32) (main_arg4 : FVec F S4096 .f32) (main_arg5 : IVec S4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4096 : Shape := ⟨2, ![4096, 4096]⟩
abbrev S256x2048 : Shape := ⟨2, ![256, 2048]⟩
abbrev S256x32 : Shape := ⟨2, ![256, 32]⟩
abbrev S256x4096 : Shape := ⟨2, ![256, 4096]⟩
abbrev S256x32x128 : Shape := ⟨3, ![256, 32, 128]⟩
abbrev S256x32x1 : Shape := ⟨3, ![256, 32, 1]⟩
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 33
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4x2048x4096, .f32⟩
  | .hbm, ⟨25, _⟩ => ⟨S4x2048x4096, .i1⟩
  | .hbm, ⟨26, _⟩ => ⟨S_, .f32⟩
  | .hbm, ⟨27, _⟩ => ⟨S4x2048x4096, .f32⟩
  | .hbm, ⟨28, _⟩ => ⟨S4x2048x4096, .f32⟩
  | .hbm, ⟨29, _⟩ => ⟨S4096x4096, .bf16⟩
  | .hbm, ⟨30, _⟩ => ⟨S8192x4096, .f32⟩
  | .hbm, ⟨31, _⟩ => ⟨S8192x4096, .f32⟩
  | .hbm, ⟨32, _⟩ => ⟨S4x2048x4096, .f32⟩
  | .local _ .vmem, ⟨0, _⟩ => ⟨S256x2048, .i32⟩
  | .local _ .vmem, ⟨1, _⟩ => ⟨S256x2048, .i32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x4096, .bf16⟩
  | .local _ .vmem, ⟨7, _⟩ => ⟨S256x4096, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4x2048x4096_2 : S4096.BroadcastsInDim S4x2048x4096 (![2] : Fin 1 → Fin S4x2048x4096.rank)
  bcast_S_S4x2048x4096 : S_.BroadcastsInDim S4x2048x4096 (![] : Fin 0 → Fin S4x2048x4096.rank)
  inb_S256x2048_S256x2048_0_0 : ∀ a, (![0, 0] : Fin 2 → Nat) a + S256x2048.size a ≤ S256x2048.size a
  h_S256x2048 : 0 < S256x2048.numel
  concatenates_S256x2048_S256x2048_S256x4096_d1 : Shape.Concatenates [S256x2048, S256x2048] S256x4096 1
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  gather_S4x2048x4096_S4096x1_S4x2048x4096_01_2_n_n_2_1_420481_wf : GatherDims.WF S4x2048x4096 S4096x1 S4x2048x4096 [0, 1] [2] [] [2] [] 1 ![4, 2048, 1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def gather_S4x2048x4096_S4096x1_S4x2048x4096_01_2_n_n_2_1_420481 : GatherDims S4x2048x4096 S4096x1 S4x2048x4096 where
  offsetDims := [0, 1]
  collapsedSliceDims := [2]
  operandBatchingDims := []
  startIndicesBatchingDims := []
  startIndexMap := [2]
  indexVectorDim := 1
  sliceSizes := ![4, 2048, 1]
  wf := gather_S4x2048x4096_S4096x1_S4x2048x4096_01_2_n_n_2_1_420481_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S_ : Shape := ⟨0, ![]⟩
abbrev S4096x4096 : Shape := ⟨2, ![4096, 4096]⟩
abbrev S4096x32x128 : Shape := ⟨3, ![4096, 32, 128]⟩
abbrev S4096x32x1 : Shape := ⟨3, ![4096, 32, 1]⟩
abbrev S4096x1 : Shape := ⟨2, ![4096, 1]⟩
abbrev S1x1x4096 : Shape := ⟨3, ![1, 1, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i1⟩
  | .hbm, ⟨14, _⟩ => ⟨S4096x2048, .i32⟩
  | .hbm, ⟨15, _⟩ => ⟨S4096x2048, .i32⟩
  | .hbm, ⟨16, _⟩ => ⟨S_, .i32⟩
  | .hbm, ⟨17, _⟩ => ⟨S4096x2048, .i32⟩
  | .hbm, ⟨18, _⟩ => ⟨S4096x2048, .i1⟩
  | .hbm, ⟨19, _⟩ => ⟨S4096x2048, .i1⟩
  | .hbm, ⟨20, _⟩ => ⟨S_, .i32⟩
  | .hbm, ⟨21, _⟩ => ⟨S4096x2048, .i32⟩
  | .hbm, ⟨22, _⟩ => ⟨S4096x2048, .i32⟩
  | .hbm, ⟨23, _⟩ => ⟨S4096x2048, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096x2048, .i32⟩
  | .hbm, ⟨31, _⟩ => ⟨S4096x2048, .i32⟩
  | .hbm, ⟨32, _⟩ => ⟨S_, .i32⟩
  | .hbm, ⟨33, _⟩ => ⟨S4096x2048, .i32⟩
  | .hbm, ⟨34, _⟩ => ⟨S4096x2048, .i1⟩
  | .hbm, ⟨35, _⟩ => ⟨S_, .i32⟩
  | .hbm, ⟨36, _⟩ => ⟨S4096x2048, .i32⟩
  | .hbm, ⟨37, _⟩ => ⟨S4096x2048, .i1⟩
  | .hbm, ⟨38, _⟩ => ⟨S_, .i32⟩
  | .hbm, ⟨39, _⟩ => ⟨S_, .i1⟩
  | .hbm, ⟨40, _⟩ => ⟨S4096x2048, .i1⟩
  | .hbm, ⟨41, _⟩ => ⟨S4096x2048, .i1⟩
  | .hbm, ⟨42, _⟩ => ⟨S4096x2048, .i1⟩
  | .hbm, ⟨43, _⟩ => ⟨S4096x2048, .i32⟩
  | .hbm, ⟨44, _⟩ => ⟨S4096x2048, .i32⟩
  | .hbm, ⟨45, _⟩ => ⟨S4096x2048, .i32⟩
  | .hbm, ⟨46, _⟩ => ⟨S4096x4096, .i32⟩
  | .hbm, ⟨47, _⟩ => ⟨S4096x4096, .f32⟩
  | .hbm, ⟨48, _⟩ => ⟨S4096x32x128, .f32⟩
  | .hbm, ⟨49, _⟩ => ⟨S4096x32x1, .f32⟩
  | .hbm, ⟨50, _⟩ => ⟨S4096x32x1, .f32⟩
  | .hbm, ⟨51, _⟩ => ⟨S4096x32x128, .f32⟩
  | .hbm, ⟨52, _⟩ => ⟨S4096x32x128, .f32⟩
  | .hbm, ⟨53, _⟩ => ⟨S4096x32x128, .f32⟩
  | .hbm, ⟨54, _⟩ => ⟨S4096x32x128, .f32⟩
  | .hbm, ⟨55, _⟩ => ⟨S4096x4096, .f32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4x2048x4096, .f32⟩
  | .hbm, ⟨65, _⟩ => ⟨S4x2048x4096, .f32⟩
  | .hbm, ⟨66, _⟩ => ⟨S1x1x4096, .f32⟩
  | .hbm, ⟨67, _⟩ => ⟨S4x2048x4096, .f32⟩
  | .hbm, ⟨68, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_c_1 : Ref sig .tc := ⟨.hbm, 56, rfl⟩
abbrev main_v12 : Ref sig .tc := ⟨.hbm, 57, rfl⟩
abbrev main_v13 : Ref sig .tc := ⟨.hbm, 58, rfl⟩
abbrev main_c_2 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  concatenates_S4096x2048_S4096x2048_S4096x4096_d1 : Shape.Concatenates [S4096x2048, S4096x2048] S4096x4096 1
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4x2048x4096_S4096x1_S4x2048x4096_01_2_n_n_2_1_420481_wf : GatherDims.WF S4x2048x4096 S4096x1 S4x2048x4096 [0, 1] [2] [] [2] [] 1 ![4, 2048, 1]
  dot_S4x2048x4096_S4096x4096_S4x2048x4096_2_1_01_0_n_n_wf : DotDims.WF S4x2048x4096 S4096x4096 S4x2048x4096 [2] [1] [0, 1] [0] [] []

variable [Facts₀]

def gather_S4x2048x4096_S4096x1_S4x2048x4096_01_2_n_n_2_1_420481 : GatherDims S4x2048x4096 S4096x1 S4x2048x4096 where
  offsetDims := [0, 1]
  collapsedSliceDims := [2]
  operandBatchingDims := []
  startIndicesBatchingDims := []
  startIndexMap := [2]
  indexVectorDim := 1
  sliceSizes := ![4, 2048, 1]
  wf := gather_S4x2048x4096_S4096x1_S4x2048x4096_01_2_n_n_2_1_420481_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KI.Reg0.lean ====
/-
  The dequantization call, point by point: at grid point t the body reads block t of the packed words (256 rows of 2048 words),
  of the scales and of the zero points (256 rows of 32), and leaves in the output window's buffer the 256 x 4096 block
  scale * (nibble - zero) of those three blocks.  Nothing else is kept between points.
-/
import proofs.«409815_j9423158247731_1_alg».proof.Proof.Gen.KernelIdeal.Launch
import proofs.«409815_j9423158247731_1_alg».proof.Proof.Gen.KernelIdeal.Skeleton
import proofs.«409815_j9423158247731_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words, the scales and the zero points of point t, at their literal types. -/
abbrev qblk (c : Dev nD) (t : Fin cfg0.N) : Vec F S256x2048 .i32 := iblk0 V c 0 t
abbrev sblk (c : Dev nD) (t : Fin cfg0.N) : Vec F S256x32 .f32 := iblk0 V c 1 t
abbrev zblk (c : Dev nD) (t : Fin cfg0.N) : Vec F S256x32 .f32 := iblk0 V c 2 t

/-- What point t leaves in the output window's buffer: the dequantized block. -/
def deqBlk (c : Dev nD) (t : Fin cfg0.N) : Vec F S256x4096 .bf16 :=
  k0_pay1 (qblk V c t) (sblk V c t) (zblk V c t)

/-- The call's proof data: arrays as found; inputs' buffers at their blocks, the output's at the dequantized block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => deqBlk V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = deqBlk V c t := by dsimp only [dat0]

/-! ## Whole-buffer accesses

Every access of this body is through the rectangle that starts at the origin and has the buffer's own extents. -/

/-- Both offsets of such a rectangle are zero. -/
theorem origin2_0 : (![0, 0] : Fin 2 → ℕ) = fun _ => 0 := funext fun a => by fin_cases a <;> rfl

section Access
variable {κ : Kind} {sp : Space}

/-- Loading all of a packed-word buffer reads its contents. -/
theorem load_all_q0 (v : View sig κ sp S256x2048 .i32) (f : v.ty.Contents (Elt F)) :
    v.readAt (Elt F) (Rect.unit (s := S256x2048) ![0, 0] S256x2048.size Gen.inb_S256x2048_S256x2048_0_0).toLoadRect f
      = v.read (Elt F) f :=
  View.ld_unit_zero (S := S256x2048) origin2_0 Gen.inb_S256x2048_S256x2048_0_0 (v.read (Elt F) f)

/-- Loading all of a scale (or zero-point) buffer reads its contents. -/
theorem load_all_g0 (v : View sig κ sp S256x32 .f32) (f : v.ty.Contents (Elt F)) :
    v.readAt (Elt F) (Rect.unit (s := S256x32) ![0, 0] S256x32.size Gen.inb_S256x32_S256x32_0_0).toLoadRect f
      = v.read (Elt F) f :=
  View.ld_unit_zero (S := S256x32) origin2_0 Gen.inb_S256x32_S256x32_0_0 (v.read (Elt F) f)

/-- One store through the origin rectangle of a buffer's own extents leaves exactly the stored block, whatever was
    there: the rectangle holds every index, and under the last store the contents are its payload. This is so for
    every shape. -/
theorem read_store_all0 {S : Shape} {e : EltTy} (v : View sig κ sp S e) (f : v.ty.Contents (Elt F))
    {off : Fin S.rank → ℕ} (h : off = fun _ => 0) (inb : ∀ a, off a + S.size a ≤ S.size a)
    (w : (Rect.unit off S.size inb).shape.Idx → Elt F e) :
    v.read (Elt F) (v.writes (Elt F) f [(⟨Rect.unit off S.size inb, w⟩ : View.Piece (Elt F) S e)]) = w :=
  (View.read_writes_eq_canon v f _ fun y =>
      ⟨_, List.mem_singleton_self _, View.mem_set_unit_zero h inb y⟩).trans
    (View.canon_unit_zero h inb w)

end Access

/-! ## The body on four whole buffers -/

set_option maxHeartbeats 1000000 in
/-- Run on whole buffers that read `q0`, `s0`, `z0` and anything, the body ends with the first three as they were
    and the fourth reading the dequantized block of `q0`, `s0`, `z0`: three loads that read the contents, a load
    whose value is dropped, one store that overwrites all of the fourth. -/
theorem deq_triple0 (c : Dev nD) (E : Set ℕ) (i : grid0.Coords)
    (a1 : Memref sig .tc .vmem S256x2048 .i32) (h1 : a1.IsWhole)
    (a2 : Memref sig .tc .vmem S256x32 .f32) (h2 : a2.IsWhole)
    (a3 : Memref sig .tc .vmem S256x32 .f32) (h3 : a3.IsWhole)
    (a4 : Memref sig .tc .vmem S256x4096 .bf16) (h4 : a4.IsWhole)
    (q0 : Vec F S256x2048 .i32) (s0 z0 : Vec F S256x32 .f32) (K : PUnit → sProp 𝕄) :
    iprop(owns (c : Thread nD τ) a1 fullShare q0 ∗ owns (c : Thread nD τ) a2 fullShare s0
        ∗ owns (c : Thread nD τ) a3 fullShare z0 ∗ (∃ d, owns (c : Thread nD τ) a4 fullShare d)
        ∗ (iprop(owns (c : Thread nD τ) a1 fullShare q0 ∗ owns (c : Thread nD τ) a2 fullShare s0
            ∗ owns (c : Thread nD τ) a3 fullShare z0
            ∗ owns (c : Thread nD τ) a4 fullShare (k0_pay1 q0 s0 z0)) -∗ K ⟨⟩))
      ⊢ wp frame (wpE (defs₀ (F := F)) Variants.none c none) E (cc0__dequant_kernel i a1 h1 a2 h2 a3 h3 a4 h4) K := by
  simp only [cc0__dequant_kernel_eq_skeleton]; unfold cc0__dequant_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_store_all0 (S := S256x4096) _ _ origin2_0, load_all_q0, load_all_g0, load_all_g0]

/-! ## The input windows' buffers at a point -/

/-- The packed words' current buffer holds block t when the body runs there: the window is fetched whenever its block
    index moves, its blocks tile its array, and the body never writes it. -/
theorem before0_q (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same for the scales, -/
theorem before0_s (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- and for the zero points. -/
theorem before0_z (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The obligation at a point -/

/-- What the body is handed at point t, the four windows one by one, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers hold the point's blocks, so the triple applies at those blocks and leaves the
    dequantized block in the output buffer; the invariant and what the core owes are not touched. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_q, before0_s, before0_z]
  rw [show (dat0 V c).Φ t.succ = (dat0 V c).Φ t.castSucc from rfl,
    show (dat0 V c).owesAt () t.succ = (dat0 V c).owesAt () t.castSucc from rfl,
    after0_0, after0_1, after0_2, after0_3]
  unfold deqBlk
  iintro ⟨HΦ, Ho, ⟨%d0, H0⟩, ⟨%d1, H1⟩, ⟨%d2, H2⟩, ⟨%d3, H3⟩⟩
  iapply (deq_triple0 c Set.univ _ _ _ _ _ _ _ _ _ (qblk V c t) (sblk V c t) (zblk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body at every point meets the pipeline's obligation for these proof data. -/
theorem body_obligation0 (c : Dev nD) : BodyObligation (dat0 (F := F) V c) (defs₀ (F := F)) Variants.none () Set.univ := fun t => by
  rw [bigSep_W0, bigSep_W0]
  exact body_at0 V c t

end Cert.KernelIdeal.Hand

end
-- ==== Proof.KI.Reg1.lean ====
/-
  The matrix-product call, point by point.  The grid is 8 x 4 x 4 with the reduction index k fastest, so point t has k = t mod 4.
  The accumulator (a 1024 x 1024 scratch kept between points) is reset at k = 0, receives x-block times transposed w-block at
  every point, and at k = 3 the output window's buffer takes accumulator plus the bias row.
-/
import proofs.«409815_j9423158247731_1_alg».proof.Proof.Gen.KernelIdeal.Launch
import proofs.«409815_j9423158247731_1_alg».proof.Proof.Gen.KernelIdeal.Skeleton
import proofs.«409815_j9423158247731_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x block, the w block and the bias block of point t, at their literal types. -/
abbrev xblk (c : Dev nD) (t : Fin cfg1.N) : Vec F S1024x1024 .f32 := iblk1 V c 0 t
abbrev wblk (c : Dev nD) (t : Fin cfg1.N) : Vec F S1024x1024 .bf16 := iblk1 V c 1 t
abbrev bblk (c : Dev nD) (t : Fin cfg1.N) : Vec F S1024 .f32 := iblk1 V c 2 t

/-- THE ACCUMULATOR after point n: started from zero where n mod 4 = 0, else continued from point n - 1. -/
def accAt (c : Dev nD) : (n : ℕ) → n < cfg1.N → Vec F S1024x1024 .f32
  | 0, hn => k1_pay2 (xblk V c ⟨0, hn⟩) (wblk V c ⟨0, hn⟩) (k1_pay1 (F := F))
  | n + 1, hn =>
    if (n + 1) % 4 = 0 then k1_pay2 (xblk V c ⟨n + 1, hn⟩) (wblk V c ⟨n + 1, hn⟩) (k1_pay1 (F := F))
    else k1_pay2 (xblk V c ⟨n + 1, hn⟩) (wblk V c ⟨n + 1, hn⟩) (accAt c n (Nat.lt_of_succ_lt hn))

theorem accAt_reset (c : Dev nD) (t : Fin cfg1.N) (h : t.val % 4 = 0) :
    accAt V c t.val t.isLt = k1_pay2 (xblk V c t) (wblk V c t) (k1_pay1 (F := F)) := by
  obtain ⟨n, hn⟩ := t
  cases n with
  | zero => rfl
  | succ n => exact if_pos h

theorem accAt_step (c : Dev nD) (t : Fin cfg1.N) (h : ¬ t.val % 4 = 0) :
    accAt V c t.val t.isLt = k1_pay2 (xblk V c t) (wblk V c t) (accAt V c (t.val - 1) (Nat.lt_of_le_of_lt (Nat.sub_le _ _) t.isLt)) := by
  obtain ⟨n, hn⟩ := t
  cases n with
  | zero => exact absurd (Nat.zero_mod _) h
  | succ n => exact if_neg h

/-- What point t leaves in the output window's buffer where it stores (k = 3): accumulator plus bias. -/
def outBlk (c : Dev nD) (t : Fin cfg1.N) : Vec F S1024x1024 .f32 :=
  k1_pay3 (bblk V c t) (accAt V c t.val t.isLt)

/-- The TensorCore's other scoped buffers (the dequantization call's eight staging buffers), each at some contents:
    the matrix-product call never touches them and hands them on as it got them. -/
def othersRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- Between points the call holds its scratch: anything before the first point, the accumulator of the point before afterwards;
    and with it, untouched, the other scoped buffers and the generator register. -/
def PhiAcc (c : Dev nD) : (n : ℕ) → n ≤ cfg1.N → sProp 𝕄
  | 0, _ => Pipeline.ΦA spec1 c
  | n + 1, hn => iprop(owns (c : Thread nD τ) (Memref.whole cc1_scratch0 : Memref sig .tc .vmem S1024x1024 .f32) fullShare (accAt V c n hn) ∗ othersRest (F := F) c ∗ (∃ r, prngReg c r))

/-- The call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk V c t
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outBlk V c t := by dsimp only [dat1]

/-! ## The point's control in closed form -/

/-- The accumulator is reset exactly at the points with k = 0. -/
theorem resetAt_iff : ∀ t : Fin cfg1.N,
    Scalar.cmpi .ne (Scalar.extui (Scalar.cmpi .eq (BitVec.ofNat 32 ((grid1.coords t) 2).val) 0#32)) 0#32 = 1#1 ↔ t.val % 4 = 0 :=
  (by decide +kernel : ∀ t : Fin grid1.N,
    Scalar.cmpi .ne (Scalar.extui (Scalar.cmpi .eq (BitVec.ofNat 32 ((grid1.coords t) 2).val) 0#32)) 0#32 = 1#1 ↔ t.val % 4 = 0)

/-- The output is stored exactly at the points with k = 3. -/
theorem storeAt_iff : ∀ t : Fin cfg1.N, k1_cond2 (grid1.coords t) = 1#1 ↔ t.val % 4 = 3 :=
  (by decide +kernel : ∀ t : Fin grid1.N, k1_cond2 (grid1.coords t) = 1#1 ↔ t.val % 4 = 3)

/-- Away from k = 3 the output window is idle and its block is not written back; at k = 3 it is live. -/
theorem outIdle : ∀ t : Fin cfg1.N, ¬ t.val % 4 = 3 → cfg1.idle 3 (grid1.coords t) = true :=
  (by decide +kernel : ∀ t : Fin grid1.N, ¬ t.val % 4 = 3 → cfg1.idle 3 (grid1.coords t) = true)
theorem outLive : ∀ t : Fin cfg1.N, t.val % 4 = 3 → cfg1.idle 3 (grid1.coords t) = false :=
  (by decide +kernel : ∀ t : Fin grid1.N, t.val % 4 = 3 → cfg1.idle 3 (grid1.coords t) = false)
theorem outNoFlush (t : Fin cfg1.N) (h : ¬ t.val % 4 = 3) : (cfg1.win 3).flush t = false := by
  cases hf : (cfg1.win 3).flush t with
  | false => rfl
  | true => exact absurd ((flush1_3 t).mp hf) h

/-! ## Whole-buffer accesses

Every load and store of this body goes through the rectangle at the origin with the buffer's own extents. -/

/-- The offsets of such a rectangle, as the body spells them, are zero. -/
theorem zeroOff2 : (![0, 0] : Fin S1024x1024.rank → ℕ) = fun _ => 0 := by
  funext a; match a with | ⟨0, _⟩ => rfl | ⟨1, _⟩ => rfl
theorem zeroOff1 : (![0] : Fin S1024.rank → ℕ) = fun _ => 0 := by
  funext a; match a with | ⟨0, _⟩ => rfl

section Access
variable {κ : Kind} {sp : Space}

/-- Loading all of a 1024 x 1024 buffer reads its contents. -/
theorem load_all2 {e : EltTy} (v : View sig κ sp S1024x1024 e) (f : v.ty.Contents (Elt F)) :
    v.readAt (Elt F) (Rect.unit (s := S1024x1024) ![0, 0] S1024x1024.size Gen.inb_S1024x1024_S1024x1024_0_0).toLoadRect f
      = v.read (Elt F) f :=
  View.ld_unit_zero (S := S1024x1024) zeroOff2 Gen.inb_S1024x1024_S1024x1024_0_0 (v.read (Elt F) f)

/-- Loading all of a 1024 buffer reads its contents. -/
theorem load_all1 {e : EltTy} (v : View sig κ sp S1024 e) (f : v.ty.Contents (Elt F)) :
    v.readAt (Elt F) (Rect.unit (s := S1024) ![0] S1024.size Gen.inb_S1024_S1024_0).toLoadRect f
      = v.read (Elt F) f :=
  View.ld_unit_zero (S := S1024) zeroOff1 Gen.inb_S1024_S1024_0 (v.read (Elt F) f)

/-- Loading all of a 1024 x 1024 buffer right after one store over all of it reads what was stored. -/
theorem reload_all2 {e : EltTy} (v : View sig κ sp S1024x1024 e) (X : S1024x1024.Idx → Elt F e) :
    v.readCov [(⟨Rect.unit ![0, 0] S1024x1024.size Gen.inb_S1024x1024_S1024x1024_0_0, X⟩ : View.Piece (Elt F) S1024x1024 e)]
      (Rect.unit ![0, 0] S1024x1024.size Gen.inb_S1024x1024_S1024x1024_0_0).toLoadRect = X :=
  View.readCov_unit_zero (S := S1024x1024) v zeroOff2 Gen.inb_S1024x1024_S1024x1024_0_0 X

/-- After a list of stores whose LAST one is over the whole buffer, the buffer reads as that store's payload: the
    rectangle holds every index, and the last store wins wherever it writes. -/
theorem read_last_store {S : Shape} {e : EltTy} (v : View sig κ sp S e) (f : v.ty.Contents (Elt F))
    {off : Fin S.rank → ℕ} (h : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w :=
  (View.read_writes_eq_canon v f _ fun y =>
      ⟨⟨Rect.unit off S.size inb, w⟩, List.mem_cons_self, View.mem_set_unit_zero h inb y⟩).trans
    (View.canon_cons_unit_zero h inb w L)

end Access

/-! ## The body, case by case, on any five whole buffers -/

set_option maxHeartbeats 2000000 in
/-- k = 0 (and no output store): whatever the scratch held, it is overwritten with zero and then with zero plus the product of
    the two blocks; the three input buffers and the output buffer come back as they were. -/
theorem reset_triple1 (c : Dev nD) (E : Set ℕ) (i : grid1.Coords)
    (a3 : Memref sig .tc .vmem S1024x1024 .f32) (h3 : a3.IsWhole) (a4 : Memref sig .tc .vmem S1024x1024 .bf16) (h4 : a4.IsWhole)
    (a5 : Memref sig .tc .vmem S1024 .f32) (h5 : a5.IsWhole) (a6 : Memref sig .tc .vmem S1024x1024 .f32) (h6 : a6.IsWhole)
    (a7 : Memref sig .tc .vmem S1024x1024 .f32) (h7 : a7.IsWhole)
    (hc0 : Scalar.cmpi .ne (Scalar.extui (Scalar.cmpi .eq (BitVec.ofNat 32 (i 2).val) 0#32)) 0#32 = 1#1) (hc1 : ¬ k1_cond2 i = 1#1)
    (x0 : Vec F S1024x1024 .f32) (w0 : Vec F S1024x1024 .bf16) (b0 : Vec F S1024 .f32) (o0 : Vec F S1024x1024 .f32)
    (K : PUnit → sProp 𝕄) :
    iprop(owns (c : Thread nD τ) a3 fullShare x0 ∗ owns (c : Thread nD τ) a4 fullShare w0 ∗ owns (c : Thread nD τ) a5 fullShare b0
        ∗ owns (c : Thread nD τ) a6 fullShare o0 ∗ (∃ d, owns (c : Thread nD τ) a7 fullShare d)
        ∗ (iprop(owns (c : Thread nD τ) a3 fullShare x0 ∗ owns (c : Thread nD τ) a4 fullShare w0 ∗ owns (c : Thread nD τ) a5 fullShare b0
            ∗ owns (c : Thread nD τ) a6 fullShare o0 ∗ owns (c : Thread nD τ) a7 fullShare (k1_pay2 x0 w0 (k1_pay1 (F := F)))) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %e3, H3⟩, ⟨%f4, %e4, H4⟩, ⟨%f5, %e5, H5⟩, ⟨%f6, %e6, H6⟩, ⟨%d7, %f7, -, H7⟩, Hk⟩
  subst e3 e4 e5 e6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [read_last_store (S := S1024x1024) _ _ zeroOff2]
  sl_unfold_words
  rw [load_all2, load_all2, reload_all2]

set_option maxHeartbeats 2000000 in
/-- k = 1 or 2: the scratch, which held a0, is overwritten with a0 plus the product of the two blocks; the three input buffers
    and the output buffer come back as they were. -/
theorem step_triple1 (c : Dev nD) (E : Set ℕ) (i : grid1.Coords)
    (a3 : Memref sig .tc .vmem S1024x1024 .f32) (h3 : a3.IsWhole) (a4 : Memref sig .tc .vmem S1024x1024 .bf16) (h4 : a4.IsWhole)
    (a5 : Memref sig .tc .vmem S1024 .f32) (h5 : a5.IsWhole) (a6 : Memref sig .tc .vmem S1024x1024 .f32) (h6 : a6.IsWhole)
    (a7 : Memref sig .tc .vmem S1024x1024 .f32) (h7 : a7.IsWhole)
    (hc0 : ¬ Scalar.cmpi .ne (Scalar.extui (Scalar.cmpi .eq (BitVec.ofNat 32 (i 2).val) 0#32)) 0#32 = 1#1) (hc1 : ¬ k1_cond2 i = 1#1)
    (x0 : Vec F S1024x1024 .f32) (w0 : Vec F S1024x1024 .bf16) (b0 : Vec F S1024 .f32) (o0 : Vec F S1024x1024 .f32)
    (a0 : Vec F S1024x1024 .f32) (K : PUnit → sProp 𝕄) :
    iprop(owns (c : Thread nD τ) a3 fullShare x0 ∗ owns (c : Thread nD τ) a4 fullShare w0 ∗ owns (c : Thread nD τ) a5 fullShare b0
        ∗ owns (c : Thread nD τ) a6 fullShare o0 ∗ owns (c : Thread nD τ) a7 fullShare a0
        ∗ (iprop(owns (c : Thread nD τ) a3 fullShare x0 ∗ owns (c : Thread nD τ) a4 fullShare w0 ∗ owns (c : Thread nD τ) a5 fullShare b0
            ∗ owns (c : Thread nD τ) a6 fullShare o0 ∗ owns (c : Thread nD τ) a7 fullShare (k1_pay2 x0 w0 a0)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %e3, H3⟩, ⟨%f4, %e4, H4⟩, ⟨%f5, %e5, H5⟩, ⟨%f6, %e6, H6⟩, ⟨%f7, %e7, H7⟩, Hk⟩
  subst e3 e4 e5 e6 e7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [read_last_store (S := S1024x1024) _ _ zeroOff2]
  sl_unfold_words
  rw [load_all2, load_all2, load_all2]

set_option maxHeartbeats 2000000 in
/-- k = 3: the scratch, which held a0, is overwritten with a0 plus the product of the two blocks, and the output buffer, whatever
    it held, with that sum plus the bias row; the three input buffers come back as they were. -/
theorem store_triple1 (c : Dev nD) (E : Set ℕ) (i : grid1.Coords)
    (a3 : Memref sig .tc .vmem S1024x1024 .f32) (h3 : a3.IsWhole) (a4 : Memref sig .tc .vmem S1024x1024 .bf16) (h4 : a4.IsWhole)
    (a5 : Memref sig .tc .vmem S1024 .f32) (h5 : a5.IsWhole) (a6 : Memref sig .tc .vmem S1024x1024 .f32) (h6 : a6.IsWhole)
    (a7 : Memref sig .tc .vmem S1024x1024 .f32) (h7 : a7.IsWhole)
    (hc0 : ¬ Scalar.cmpi .ne (Scalar.extui (Scalar.cmpi .eq (BitVec.ofNat 32 (i 2).val) 0#32)) 0#32 = 1#1) (hc1 : k1_cond2 i = 1#1)
    (x0 : Vec F S1024x1024 .f32) (w0 : Vec F S1024x1024 .bf16) (b0 : Vec F S1024 .f32)
    (a0 : Vec F S1024x1024 .f32) (K : PUnit → sProp 𝕄) :
    iprop(owns (c : Thread nD τ) a3 fullShare x0 ∗ owns (c : Thread nD τ) a4 fullShare w0 ∗ owns (c : Thread nD τ) a5 fullShare b0
        ∗ (∃ d, owns (c : Thread nD τ) a6 fullShare d) ∗ owns (c : Thread nD τ) a7 fullShare a0
        ∗ (iprop(owns (c : Thread nD τ) a3 fullShare x0 ∗ owns (c : Thread nD τ) a4 fullShare w0 ∗ owns (c : Thread nD τ) a5 fullShare b0
            ∗ owns (c : Thread nD τ) a6 fullShare (k1_pay3 b0 (k1_pay2 x0 w0 a0)) ∗ owns (c : Thread nD τ) a7 fullShare (k1_pay2 x0 w0 a0)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %e3, H3⟩, ⟨%f4, %e4, H4⟩, ⟨%f5, %e5, H5⟩, ⟨%d6, %f6, -, H6⟩, ⟨%f7, %e7, H7⟩, Hk⟩
  subst e3 e4 e5 e7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [read_last_store (S := S1024x1024) _ _ zeroOff2, load_all1, reload_all2, load_all2, load_all2, load_all2]
  iexists _; isplitr
  swap; · iexact H7
  ipureintro
  sl_unfold_words
  rw [read_last_store (S := S1024x1024) _ _ zeroOff2, load_all2, load_all2, load_all2]

/-! ## The invariant between points -/

/-- What the launch hands the call (the scoped buffers that are none of its staging buffers, and the generator register)
    holds the scratch at some contents beside the other eight; -/
theorem launchRest_open (c : Dev nD) :
    (Pipeline.ΦA spec1 c : sProp 𝕄)
      ⊢ iprop((∃ d, owns (c : Thread nD τ) (Memref.whole cc1_scratch0 : Memref sig .tc .vmem S1024x1024 .f32) fullShare d)
          ∗ othersRest (F := F) c ∗ (∃ r, prngReg c r)) := by
  unfold Pipeline.ΦA othersRest; rw [scopedRest1_eq]; simp only [owns_whole]
  iintro ⟨⟨A0, A1, A2, A3, A4, A5, A6, A7, HS⟩, Hg⟩
  isplitl [HS]; · iexact HS
  isplitr [Hg]; swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

/-- and is given back by them. -/
theorem launchRest_close (c : Dev nD) :
    iprop((∃ d, owns (c : Thread nD τ) (Memref.whole cc1_scratch0 : Memref sig .tc .vmem S1024x1024 .f32) fullShare d)
        ∗ othersRest (F := F) c ∗ (∃ r, prngReg c r))
      ⊢ (Pipeline.ΦA spec1 c : sProp 𝕄) := by
  unfold Pipeline.ΦA othersRest; rw [scopedRest1_eq]; simp only [owns_whole]
  iintro ⟨HS, ⟨A0, A1, A2, A3, A4, A5, A6, A7⟩, Hg⟩
  isplitr [Hg]; swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  iexact HS

theorem PhiAcc_zero (c : Dev nD) (n : ℕ) (h : n ≤ cfg1.N) (hz : n = 0) : PhiAcc V c n h = Pipeline.ΦA spec1 c := by
  subst hz; rfl

/-- After point n the scratch holds that point's accumulator. -/
theorem PhiAcc_succ (c : Dev nD) (n : ℕ) (hn : n < cfg1.N) :
    PhiAcc V c (n + 1) hn = iprop(owns (c : Thread nD τ) (Memref.whole cc1_scratch0 : Memref sig .tc .vmem S1024x1024 .f32) fullShare (accAt V c n hn)
      ∗ othersRest (F := F) c ∗ (∃ r, prngReg c r)) := rfl

/-- Before a point that is not the first the scratch holds the accumulator of the point before. -/
theorem PhiAcc_pos (c : Dev nD) (n : ℕ) (h : n ≤ cfg1.N) (hz : n ≠ 0) :
    PhiAcc V c n h = iprop(owns (c : Thread nD τ) (Memref.whole cc1_scratch0 : Memref sig .tc .vmem S1024x1024 .f32) fullShare (accAt V c (n - 1) (by omega))
      ∗ othersRest (F := F) c ∗ (∃ r, prngReg c r)) := by
  cases n with
  | zero => exact absurd rfl hz
  | succ n => rfl

/-- Whatever the point, the invariant holds the scratch at SOME contents beside the others. -/
theorem PhiAcc_forget (c : Dev nD) (n : ℕ) (h : n ≤ cfg1.N) :
    PhiAcc V c n h ⊢ iprop((∃ d, owns (c : Thread nD τ) (Memref.whole cc1_scratch0 : Memref sig .tc .vmem S1024x1024 .f32) fullShare d)
      ∗ othersRest (F := F) c ∗ (∃ r, prngReg c r)) := by
  cases n with
  | zero => exact launchRest_open c
  | succ n =>
    rw [PhiAcc_succ]
    iintro ⟨HS, Ho, Hg⟩
    isplitl [HS]; · iexists _; iexact HS
    isplitl [Ho]; · iexact Ho
    iexact Hg

/-- The invariant at a point's start, restated at the point's number. -/
theorem Phi_castSucc1 (c : Dev nD) (t : Fin cfg1.N) :
    (dat1 V c).Φ t.castSucc = PhiAcc V c t.val (Nat.le_of_lt t.isLt) := by
  dsimp only [dat1]; simp only [Fin.coe_castSucc]

/-! ## The input windows' buffers at a point -/

/-- The x window's current buffer holds block t when the body runs there: the window is fetched whenever its block index
    moves, its blocks tile its array, and the body never writes it. -/
theorem before1_x (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The same for the w window, -/
theorem before1_w (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- and for the bias window, which is fetched only where k = 0 and keeps its block through the other three points. -/
theorem before1_b (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- An input window is never idle: after the body its buffer holds its block. -/
theorem leaves1_x (c : Dev nD) (t : Fin cfg1.N) :
    (dat1 V c).leavesExact 0 t = owns (c : Thread nD τ) (st1_0 t) fullShare (iblk1 V c 0 t) := by
  unfold Dat.leavesExact; rw [show cfg1.idle 0 (grid1.coords t) = false from rfl, after1_0]
theorem leaves1_w (c : Dev nD) (t : Fin cfg1.N) :
    (dat1 V c).leavesExact 1 t = owns (c : Thread nD τ) (st1_1 t) fullShare (iblk1 V c 1 t) := by
  unfold Dat.leavesExact; rw [show cfg1.idle 1 (grid1.coords t) = false from rfl, after1_1]
theorem leaves1_b (c : Dev nD) (t : Fin cfg1.N) :
    (dat1 V c).leavesExact 2 t = owns (c : Thread nD τ) (st1_2 t) fullShare (iblk1 V c 2 t) := by
  unfold Dat.leavesExact; rw [show cfg1.idle 2 (grid1.coords t) = false from rfl, after1_2]
/-- Where k = 3 the output window is live: after the body its buffer holds accumulator plus bias. -/
theorem leaves1_o (c : Dev nD) (t : Fin cfg1.N) (h : t.val % 4 = 3) :
    (dat1 V c).leavesExact 3 t = owns (c : Thread nD τ) (st1_3 t) fullShare (outBlk V c t) := by
  unfold Dat.leavesExact; rw [outLive t h, after1_3]

/-! ## The obligation at a point -/

/-- What the body is handed at point t, the four windows one by one, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def returned1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- At any point the three input buffers hold the point's blocks. By k = t mod 4: at k = 0 the reset triple applies whatever
    the scratch holds and leaves the accumulator started from zero; at k = 1, 2 the scratch holds the accumulator of the point
    before and the accumulate triple continues it; at k = 3 the store triple does the same and fills the output buffer. Where
    k is not 3 the output buffer goes back as it came. The other scoped buffers, the register and what the core owes ride along. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_x, before1_w, before1_b]
  rw [show (dat1 V c).owesAt () t.succ = (dat1 V c).owesAt () t.castSucc from rfl]
  rw [show (dat1 V c).Φ t.succ = PhiAcc V c (t.val + 1) t.isLt from rfl, PhiAcc_succ]
  rw [leaves1_x, leaves1_w, leaves1_b, Phi_castSucc1]
  have hN : t.val < 128 := lt_of_lt_of_eq t.isLt N_1
  by_cases h0 : t.val % 4 = 0
  · have h3 : ¬ t.val % 4 = 3 := by omega
    rw [Dat.leavesExact_idle (dat1 V c) 3 t (outIdle t h3) (outNoFlush t h3), accAt_reset V c t h0]
    iintro ⟨HΦ, Ho, ⟨%d0, H0⟩, ⟨%d1, H1⟩, ⟨%d2, H2⟩, ⟨%d3, H3⟩⟩
    ihave HΦ' := (PhiAcc_forget V c t.val (Nat.le_of_lt t.isLt)) $$ HΦ
    icases HΦ' with ⟨HS, Hr, Hg⟩
    iapply (reset_triple1 c Set.univ (grid1.coords t) _ _ _ _ _ _ _ _ _ _ ((resetAt_iff t).mpr h0) (fun h => h3 ((storeAt_iff t).mp h))
      (xblk V c t) (wblk V c t) (bblk V c t) ((dat1 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiAcc_pos V c _ _ hz, accAt_step V c t h0]
    by_cases h3 : t.val % 4 = 3
    · rw [leaves1_o V c t h3]; unfold outBlk; rw [accAt_step V c t h0]
      iintro ⟨⟨HS, Hr, Hg⟩, Ho, ⟨%d0, H0⟩, ⟨%d1, H1⟩, ⟨%d2, H2⟩, ⟨%d3, H3⟩⟩
      iapply (store_triple1 c Set.univ (grid1.coords t) _ _ _ _ _ _ _ _ _ _ (fun h => h0 ((resetAt_iff t).mp h)) ((storeAt_iff t).mpr h3)
        (xblk V c t) (wblk V c t) (bblk V c t) (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat1 V c) 3 t (outIdle t h3) (outNoFlush t h3)]
      iintro ⟨⟨HS, Hr, Hg⟩, Ho, ⟨%d0, H0⟩, ⟨%d1, H1⟩, ⟨%d2, H2⟩, ⟨%d3, H3⟩⟩
      iapply (step_triple1 c Set.univ (grid1.coords t) _ _ _ _ _ _ _ _ _ _ (fun h => h0 ((resetAt_iff t).mp h)) (fun h => h3 ((storeAt_iff t).mp h))
        (xblk V c t) (wblk V c t) (bblk V c t) ((dat1 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The body at every point meets the pipeline's obligation for these proof data. -/
theorem body_obligation1 (c : Dev nD) : BodyObligation (dat1 (F := F) V c) (defs₀ (F := F)) Variants.none () Set.univ := fun t => by
  rw [bigSep_W1, bigSep_W1]
  exact body_at1 V c t

/-- What the launch hands the call is the invariant before the first point. -/
theorem hin1 (c : Dev nD) : Pipeline.ΦA spec1 c ⊢ (dat1 V c).Φ 0 := by
  rw [show (dat1 V c).Φ 0 = PhiAcc V c 0 (Nat.zero_le _) from rfl, PhiAcc_zero V c 0 _ rfl]

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl]
  exact (PhiAcc_forget V c _ _).trans (launchRest_close c)

end Cert.KernelIdeal.Hand

end
-- ==== Proof.KI.Run.lean ====
/-
  The whole program's run.  Between its five stretches (host operations, the dequantization call, one reshape, the matrix-product
  call, one reshape) the unscoped buffers hold: the launch memory; after the host stretch what its operations compose; after a
  call, that call's arrays at what its write-backs leave and every other buffer as before.  Every weakly fair execution ends with
  every unscoped buffer at the last of these contents; in particular the six arguments end as launched.
-/
import proofs.«409815_j9423158247731_1_alg».proof.Proof.KI.Reg0
import proofs.«409815_j9423158247731_1_alg».proof.Proof.KI.Reg1
import proofs.«409815_j9423158247731_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the host stretch before the first call. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the dequantization call. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the reshape of the gathered activations. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the matrix-product call. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the last reshape: the end. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## What each stretch leaves alone -/

/-- The host stretch before the first call keeps every buffer it does not write. -/
theorem W1_keeps (c : Dev nD) (r : Ref sig .tc) (h : r ∉ hostOps0_W) :
    W1 m c (Proc.devRef .tc r) = W0 m c (Proc.devRef .tc r) :=
  StableHlo.after_of_writes_sub hostOps0 _ hostOps0_writes h
/-- The reshape of the activations writes its result only. -/
theorem W3_keeps (c : Dev nD) (r : Ref sig .tc) (h : r ∉ hostOps1_W) :
    W3 m c (Proc.devRef .tc r) = W2 m c (Proc.devRef .tc r) :=
  StableHlo.after_of_writes_sub hostOps1 _ hostOps1_writes h
/-- The last reshape writes its result only. -/
theorem W5_keeps (c : Dev nD) (r : Ref sig .tc) (h : r ∉ hostOps2_W) :
    W5 m c (Proc.devRef .tc r) = W4 m c (Proc.devRef .tc r) :=
  StableHlo.after_of_writes_sub hostOps2 _ hostOps2_writes h
/-- The dequantization call keeps the array of a window it only reads. -/
theorem W2_reads (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
/-- The matrix-product call keeps the array of a window it only reads. -/
theorem W4_reads (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-! ## The stretches as segments of the run -/

/-- Both calls' proof data: the dequantization's at the contents the first host stretch leaves, the matrix product's at the
    contents after the activations' reshape. -/
def runDats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No core waits on another: no level anywhere. -/
abbrev runL : GSem nD τ sig → Finset Unit := fun _ => ∅
abbrev runLv : GSem nD τ sig → Unit → ℕ := fun _ _ => 0

/-- What a core carries beside its unscoped buffers from one stretch to the next: its generator register at some state, and
    that it owes nothing. -/
abbrev carried (c : Dev nD) : sProp 𝕄 :=
  iprop((∃ r, prngReg c r) ∗ ∃ W, owes (c : Thread nD τ) (0 : CellTallies nD τ sig Unit) W)

/-- Between two stretches: every unscoped buffer at the contents `B c`, and what is carried. -/
abbrev between (B : Dev nD → Valuation τ sig (Elt F)) (c : Dev nD) : sProp 𝕄 :=
  iprop(StableHlo.held (c : Thread nD τ) (Pipeline.ucRefs τ sig) (B c) ∗ carried c)

/-- A stretch of host operations run from the contents `B`: it leaves `StableHlo.after ops (B c)`. -/
abbrev hostStretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B carried

/-- Neither call has a prefetched table. -/
theorem noTables (p : Fin 2) (c : Dev nD) :
    (Pipeline.prefHeld (pcfgs (F := F) p).pre c (fun _ => fullShare) (adm (F := F) p).1 : sProp 𝕄) = BI.emp := by
  unfold Pipeline.prefHeld; rw [show (Finset.univ : Finset (Fin 0)) = ∅ from rfl, BI.bigSep_empty]

/-- A core owing nothing is within the tallies of proof data that owe nothing and bound nothing at a point. -/
theorem owes_in {cfg : Cfg sig Λ₀} {c : Dev nD} (d : Dat τ (Elt F) Unit ℕ (UR sig nD τ) ℕ cfg c) (t : Fin (cfg.N + 1))
    (h0 : d.owed t = 0) (hall : d.recorded t = Set.univ) :
    (iprop(∃ W, owes (c : Thread nD τ) (0 : CellTallies nD τ sig Unit) W) : sProp 𝕄) ⊢ d.owesAt () t := by
  unfold Pipeline.Dat.owesAt Pipeline.owesWithin Pipeline.Dat.bound
  rw [h0, hall]
  iintro ⟨%W, HO⟩
  iexists W
  isplitr; · ipureintro; exact fun _ _ => Or.inl trivial
  iexact HO
/-- And back, the bound forgotten. -/
theorem owes_out {cfg : Cfg sig Λ₀} {c : Dev nD} (d : Dat τ (Elt F) Unit ℕ (UR sig nD τ) ℕ cfg c) (t : Fin (cfg.N + 1))
    (h0 : d.owed t = 0) :
    d.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-- At the dequantization call's exit its arrays hold what its write-backs leave, every other buffer what it held at entry. -/
theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at the matrix-product call's exit. -/
theorem exit1_arr (c : Dev nD) (w : Fin cfg1.W) : (dat1 (V3 m) c).arrAt w cfg1.N = V4 m c (Pipeline.arrRef spec1 w) :=
  (W4_arr m c w).symm
theorem exit1_rest (c : Dev nD) : ∀ b, b ∉ Finset.univ.image (Pipeline.arrRef spec1) → V4 m c b = V3 m c b :=
  fun b hb => W4_of_ne m c b fun w e => hb (Finset.mem_image.mpr ⟨w, Finset.mem_univ _, e⟩)

set_option backward.isDefEq.respectTransparency.types false in
/-- THE DEQUANTIZATION CALL between the contents W1 and W2.  At entry its four arrays (packed words, scales, zero points, the
    dequantized weights' buffer) are taken out of the unscoped buffers, the others wait beside the call; the generator
    register goes into the call's invariant with the scoped buffers and comes back; at exit the arrays, now at what the
    write-backs left, rejoin the others. -/
def callDeq : Pipeline.RegionSeg (pcfgs (F := F)) adm (runDats m) () defs₀ Variants.none runL runLv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ runL runLv 0 fun _ _ => rfl
  pre := between (W1 m)
  post := between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have htake := Pipeline.arrays_of_unscopedBufs (p := 0) (pcfgs (F := F)) adm (runDats m) launch0.win launch0.arr_whole c
      ((runDats m 0 c).share_full fun _ => rfl) (V1 m c) fun _ => rfl
    rw [Pipeline.unscopedBufs_held] at htake
    rw [noTables]
    iintro ⟨⟨Hbufs, Hgen, Howe⟩, -, -⟩
    ihave Hparts := htake $$ Hbufs
    icases Hparts with ⟨Harr, Hothers⟩
    imodintro
    isplitl [Harr]; · iexact Harr
    isplitr; · iempintro
    isplitl [Howe]; · iapply (owes_in (runDats m 0 c) 0 rfl rfl); iexact Howe
    isplitl [Hgen]; · iexact Hgen
    iexact Hothers
  hin c := by
    rw [noTables, show (runDats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (runDats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hput := Pipeline.unscopedBufs_of_arrays (p := 0) (pcfgs (F := F)) adm (Ix := Unit) (Name := ℕ) (U := UR sig nD τ) (Lvl := ℕ)
      launch0.win launch0.arr_whole c (runDats m) ((runDats m 0 c).share_full fun _ => rfl)
      (V1 m c) (V2 m c) ((runDats m 0 c).arrAt · cfg0.N) (exit0_arr m c) (exit0_rest m c)
    rw [Pipeline.unscopedBufs_held] at hput
    iintro ⟨Harr, Howe, Hgen, Hothers⟩
    imodintro
    isplitl [Harr Hothers]
    · iapply hput; isplitl [Harr] <;> iassumption
    isplitl [Hgen]; · iexact Hgen
    iapply (owes_out (runDats m 0 c) (Fin.last _) rfl); iexact Howe

set_option backward.isDefEq.respectTransparency.types false in
/-- THE MATRIX-PRODUCT CALL between the contents W3 and W4.  Its arrays are the reshaped activations, the dequantized weights
    the first call left, the bias and the product's buffer.  What the launch hands the call (scoped buffers, generator register)
    becomes the accumulator invariant before the first point, and the invariant after the last point gives the same back,
    the accumulator's contents forgotten. -/
def callMm : Pipeline.RegionSeg (pcfgs (F := F)) adm (runDats m) () defs₀ Variants.none runL runLv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ runL runLv 1 fun _ _ => rfl
  pre := between (W3 m)
  post := between (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have htake := Pipeline.arrays_of_unscopedBufs (p := 1) (pcfgs (F := F)) adm (runDats m) launch1.win launch1.arr_whole c
      ((runDats m 1 c).share_full fun _ => rfl) (V3 m c) fun _ => rfl
    rw [Pipeline.unscopedBufs_held] at htake
    rw [noTables]
    iintro ⟨⟨Hbufs, Hgen, Howe⟩, -, -⟩
    ihave Hparts := htake $$ Hbufs
    icases Hparts with ⟨Harr, Hothers⟩
    imodintro
    isplitl [Harr]; · iexact Harr
    isplitr; · iempintro
    isplitl [Howe]; · iapply (owes_in (runDats m 1 c) 0 rfl rfl); iexact Howe
    isplitl [Hgen]; · iexact Hgen
    iexact Hothers
  hin c := by
    rw [noTables]
    refine BIBase.Entails.trans ?_ (hin1 (V3 m) c)
    unfold Pipeline.ΦA
    iintro ⟨Hgen, -, Hscoped⟩
    isplitl [Hscoped]; · iexact Hscoped
    iexact Hgen
  hout c := by
    rw [Pipeline.ownSems0_none]
    refine BIBase.Entails.trans (hout1 (V3 m) c) ?_
    unfold Pipeline.ΦA
    iintro ⟨Hscoped, Hgen⟩
    isplitl [Hgen]; · iexact Hgen
    isplitr; · iempintro
    iexact Hscoped
  hexit c := by
    have hput := Pipeline.unscopedBufs_of_arrays (p := 1) (pcfgs (F := F)) adm (Ix := Unit) (Name := ℕ) (U := UR sig nD τ) (Lvl := ℕ)
      launch1.win launch1.arr_whole c (runDats m) ((runDats m 1 c).share_full fun _ => rfl)
      (V3 m c) (V4 m c) ((runDats m 1 c).arrAt · cfg1.N) (exit1_arr m c) (exit1_rest m c)
    rw [Pipeline.unscopedBufs_held] at hput
    iintro ⟨Harr, Howe, Hgen, Hothers⟩
    imodintro
    isplitl [Harr Hothers]
    · iapply hput; isplitl [Harr] <;> iassumption
    isplitl [Hgen]; · iexact Hgen
    iapply (owes_out (runDats m 1 c) (Fin.last _) rfl); iexact Howe

/-- The program's five stretches in order, each entered from the contents the one before it leaves. -/
abbrev stretches : List (Pipeline.Seg (pcfgs (F := F)) adm (runDats m) () defs₀ Variants.none runL runLv) :=
  [ .host (hostStretch hostOps0 hostOps0_sub hostOps0_fresh (W0 m)),
    .region (callDeq m),
    .host (hostStretch hostOps1 hostOps1_sub hostOps1_fresh (W2 m)),
    .region (callMm m),
    .host (hostStretch hostOps2 hostOps2_sub hostOps2_fresh (W4 m)) ]

/-- The program is the run of its stretches. -/
theorem main_stretches (c : Dev nD) : main (F := F) c = Pipeline.Seg.run (stretches m) :=
  main_segs adm (runDats m) () Variants.none runL runLv _ _ _ (callDeq m) (callMm m) rfl rfl rfl c

/-- After the last reshape: the buffers and the generator register on one side, owing nothing on the other. -/
theorem at_end (c : Dev nD) :
    between (W5 m) c ⊢ (iprop((StableHlo.held (c : Thread nD τ) (Pipeline.ucRefs τ sig) (W5 m c) ∗ ∃ r, prngReg c r)
      ∗ ∃ W, owes (c : Thread nD τ) (0 : CellTallies nD τ sig Unit) W) : sProp 𝕄) := by
  iintro ⟨Hbufs, Hgen, Howe⟩
  isplitl [Hbufs Hgen]
  · isplitl [Hbufs] <;> iassumption
  iexact Howe

/-! ## The run -/

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (runDats m) () cellOf_inj emb₁ defs₀ Variants.none runL runLv m ρ main (stretches m)
    (fun c Q => by rw [main_stretches m c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => at_end m c⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = W5 m c b)
    (hfin := fun c s' => by
      iintro ⟨⟨Hbufs, -⟩, HSI⟩
      unfold StableHlo.held
      imodintro
      iapply (pointsTo_read_all (Pipeline.ucRefs τ sig) (fun b => (((c : Thread nD τ)).1, b)) (W5 m c) s')
      isplitl [Hbufs] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## No stretch writes an argument -/

-- the activations: read by the host stretch, no window of either call
theorem W5_main_arg0 (c : Dev nD) : W5 m c (Proc.devRef .tc main_arg0) = m ((c : Thread nD τ).loc main_arg0) :=
  (W5_keeps m c main_arg0 (by decide)).trans <| (W4_of_ne m c main_arg0 (by decide)).trans <|
    (W3_keeps m c main_arg0 (by decide)).trans <| (W2_of_ne m c main_arg0 (by decide)).trans <|
    (W1_keeps m c main_arg0 (by decide)).trans rfl
-- the packed words: the first call's window 0, read only
theorem W5_main_arg1 (c : Dev nD) : W5 m c (Proc.devRef .tc main_arg1) = m ((c : Thread nD τ).loc main_arg1) :=
  (W5_keeps m c main_arg1 (by decide)).trans <| (W4_of_ne m c main_arg1 (by decide)).trans <|
    (W3_keeps m c main_arg1 (by decide)).trans <| (W2_reads m c 0 rfl).trans <|
    (W1_keeps m c main_arg1 (by decide)).trans rfl
-- the scales: the first call's window 1, read only
theorem W5_main_arg2 (c : Dev nD) : W5 m c (Proc.devRef .tc main_arg2) = m ((c : Thread nD τ).loc main_arg2) :=
  (W5_keeps m c main_arg2 (by decide)).trans <| (W4_of_ne m c main_arg2 (by decide)).trans <|
    (W3_keeps m c main_arg2 (by decide)).trans <| (W2_reads m c 1 rfl).trans <|
    (W1_keeps m c main_arg2 (by decide)).trans rfl
-- the zero points: the first call's window 2, read only
theorem W5_main_arg3 (c : Dev nD) : W5 m c (Proc.devRef .tc main_arg3) = m ((c : Thread nD τ).loc main_arg3) :=
  (W5_keeps m c main_arg3 (by decide)).trans <| (W4_of_ne m c main_arg3 (by decide)).trans <|
    (W3_keeps m c main_arg3 (by decide)).trans <| (W2_reads m c 2 rfl).trans <|
    (W1_keeps m c main_arg3 (by decide)).trans rfl
-- the bias: the second call's window 2, read only
theorem W5_main_arg4 (c : Dev nD) : W5 m c (Proc.devRef .tc main_arg4) = m ((c : Thread nD τ).loc main_arg4) :=
  (W5_keeps m c main_arg4 (by decide)).trans <| (W4_reads m c 2 rfl).trans <|
    (W3_keeps m c main_arg4 (by decide)).trans <| (W2_of_ne m c main_arg4 (by decide)).trans <|
    (W1_keeps m c main_arg4 (by decide)).trans rfl
-- the permutation: read by the host stretch, no window of either call
theorem W5_main_arg5 (c : Dev nD) : W5 m c (Proc.devRef .tc main_arg5) = m ((c : Thread nD τ).loc main_arg5) :=
  (W5_keeps m c main_arg5 (by decide)).trans <| (W4_of_ne m c main_arg5 (by decide)).trans <|
    (W3_keeps m c main_arg5 (by decide)).trans <| (W2_of_ne m c main_arg5 (by decide)).trans <|
    (W1_keeps m c main_arg5 (by decide)).trans rfl

/-- The run with the result buffer named and the arguments as launched. -/
theorem run_result : θ_run defs (onTc (τ := τ) (main (F := F))) ⟨m, fun _ => 0, ρ⟩ (fun r => ∀ c : Dev nD,
      r.2.mem ((c.tc : Thread nD τ).loc main_v4) = W5 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v4 (by decide)),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c)⟩) (run_all m ρ)

end Cert.KernelIdeal.Hand

end
-- ==== Proof.Spec.lean ====
/-
  The function both programs compute, index by index, on the extended reals.

  A packed word holds two signed nibbles: column i < 2048 of the nibble matrix is the arithmetic shift right by four of word i,
  column i ≥ 2048 is the low four bits of word i - 2048.  Column i belongs to group i / 128, and the weight is
  scale · (nibble − zero) of its group.  The permutation index is read numpy-style (a negative index counts from the end), then
  clamped into the axis as a gather does.  The result at (b, s, o) is the sum over i of x[b, s, perm i] · w[o, i], plus bias[o].
-/
import Idealize.ShloMosaic.PureOps.Ideal
import Idealize.ShloMosaic.Lib.ValueIdx

noncomputable section

open scoped BigOperators

namespace Cert.Hand.Spec

open Idealize.ShloMosaic Idealize.ShloMosaic.ValueIdx

abbrev SX : Shape := ⟨3, ![4, 2048, 4096]⟩
abbrev SQ : Shape := ⟨2, ![4096, 2048]⟩
abbrev SG : Shape := ⟨2, ![4096, 32]⟩
abbrev SB : Shape := ⟨1, ![4096]⟩
abbrev SW : Shape := ⟨2, ![4096, 4096]⟩
abbrev SM : Shape := ⟨2, ![8192, 4096]⟩

/-- Nibble (o, i) of the packed words, as a 32-bit word. -/
def nib (q : SQ.Idx → BitVec 32) (o i : Fin 4096) : BitVec 32 :=
  if h : i.val < 2048 then (q (ix2 o ⟨i.val, h⟩)).sshiftRight 4
  else q (ix2 o ⟨i.val - 2048, by have := i.isLt; omega⟩) &&& 15#32

/-- The group of column i. -/
def grp (i : Fin 4096) : Fin 32 := ⟨i.val / 128, by have := i.isLt; omega⟩

/-- The dequantized weight (o, i): scale · (nibble − zero) of the column's group. -/
def wq (q : SQ.Idx → BitVec 32) (scale zero : SG.Idx → EReal) (o i : Fin 4096) : EReal :=
  scale (ix2 o (grp i)) * (FloatOps.sitofp (F := Ideal) .f32 (nib q o i) - zero (ix2 o (grp i)))

/-- Column read by position i: the index numpy-style (negative counts from the end), then clamped into [0, 4095]. -/
def col (p : SB.Idx → BitVec 32) (i : Fin 4096) : Fin 4096 :=
  let v : BitVec 32 := p (ix1 i)
  let v' : BitVec 32 := if v.toInt < 0 then v + 4096#32 else v
  ⟨min v'.toInt.toNat 4095, by omega⟩

/-- The result at (b, s, o). -/
def out (x : SX.Idx → EReal) (q : SQ.Idx → BitVec 32) (scale zero : SG.Idx → EReal) (bias : SB.Idx → EReal)
    (p : SB.Idx → BitVec 32) (b : Fin 4) (s : Fin 2048) (o : Fin 4096) : EReal :=
  (∑ i : Fin 4096, x (ix3 b s (col p i)) * wq q scale zero o i) + bias (ix1 o)

/-- The result array. -/
def outArr (x : SX.Idx → EReal) (q : SQ.Idx → BitVec 32) (scale zero : SG.Idx → EReal) (bias : SB.Idx → EReal)
    (p : SB.Idx → BitVec 32) : SX.Idx → EReal :=
  fun j => out x q scale zero bias p (j 0) (j 1) (j 2)

end Cert.Hand.Spec

end
-- ==== Proof.KI.Val0.lean ====
/-
  What the dequantization call leaves in the weight array, on the extended reals: entry (o, i) is scale · (nibble − zero) of
  column i's group, the sixteen row blocks of 256 rows tiling the array.

  First the body's result at one entry of a block: the two nibble planes side by side (columns below 2048 the words shifted right
  by four, the others the words' low four bits), read as [256,32,128] so that column i sits at (i / 128, i % 128), the group's
  zero taken off and its scale multiplied on, and the columns merged again.  Then each block of an input is the input's rows
  256 t … 256 t + 255, so what point t writes back is block t of one array, and the sixteen blocks cover every row.
-/
import proofs.«409815_j9423158247731_1_alg».proof.Proof.KI.Reg0
import proofs.«409815_j9423158247731_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts

section Layout
variable {α : Type}

/-- Column i of the concatenated nibble block, i below 2048, is column i of the first piece. -/
theorem cat_lo (a b : S256x2048.Idx → α) (hc : Shape.Concatenates [S256x2048, S256x2048] S256x4096 1)
    (r : Fin 256) (i : Fin 4096) (h : i.val < 2048) :
    concatenate S256x4096 1 [⟨S256x2048, a⟩, ⟨S256x2048, b⟩] hc (ix2 r i) = a (ix2 r ⟨i.val, h⟩) := by
  refine concatenate_pair_apply_left (1 : Fin S256x4096.rank) a b hc (ix2 r i) rfl (ix2 r ⟨i.val, h⟩) fun b => ?_
  match b with
  | ⟨0, _⟩ => rfl
  | ⟨1, _⟩ => rfl

/-- Column i of the concatenated nibble block, i from 2048 on, is column i − 2048 of the second piece. -/
theorem cat_hi (a b : S256x2048.Idx → α) (hc : Shape.Concatenates [S256x2048, S256x2048] S256x4096 1)
    (r : Fin 256) (i : Fin 4096) (h : ¬ i.val < 2048) :
    concatenate S256x4096 1 [⟨S256x2048, a⟩, ⟨S256x2048, b⟩] hc (ix2 r i)
      = b (ix2 r ⟨i.val - 2048, by have := i.isLt; omega⟩) := by
  refine concatenate_pair_apply_right (1 : Fin S256x4096.rank) a b hc (ix2 r i) rfl rfl (ix2 r ⟨i.val - 2048, by have := i.isLt; omega⟩) (fun b hb => ?_) ?_
  · match b with
    | ⟨0, _⟩ => rfl
    | ⟨1, _⟩ => exact absurd rfl hb
  · show i.val - 2048 + 2048 = i.val
    omega

/-- The [256,4096] block seen as [256,32,128]: entry (r, g, l) is column 128 g + l. -/
theorem split_cols (x : S256x4096.Idx → α) (hs : S256x4096.ShapeCasts S256x32x128) (r : Fin 256) (g : Fin 32) (l : Fin 128)
    (k : Fin 4096) (hk : k.val = 128 * g.val + l.val) :
    shapeCast S256x32x128 x hs (ix3 r g l) = x (ix2 r k) := by
  refine shapeCast_apply x hs (ix3 r g l) (ix2 r k) ?_
  rw [Shape.rowMajor_val_two, Shape.rowMajor_val_three]
  show r.val * 4096 + k.val = (r.val * 32 + g.val) * 128 + l.val
  omega

/-- The [256,32,128] block seen as [256,4096] again: column i is (i / 128, i % 128). -/
theorem merge_cols (y : S256x32x128.Idx → α) (hs : S256x32x128.ShapeCasts S256x4096) (r : Fin 256) (i : Fin 4096) :
    shapeCast S256x4096 y hs (ix2 r i)
      = y (ix3 r ⟨i.val / 128, by have := i.isLt; omega⟩ ⟨i.val % 128, Nat.mod_lt _ (by decide)⟩) := by
  refine shapeCast_apply y hs (ix2 r i) _ ?_
  rw [Shape.rowMajor_val_two, Shape.rowMajor_val_three]
  show (r.val * 32 + i.val / 128) * 128 + i.val % 128 = r.val * 4096 + i.val
  omega

/-- A per-group column [256,32] spread along the 128 columns of its group. -/
theorem spread_group (s : S256x32.Idx → α) (h1 : S256x32.ShapeCasts S256x32x1) (h2 : S256x32x1.Broadcasts S256x32x128)
    (r : Fin 256) (g : Fin 32) (l : Fin 128) :
    broadcastTo S256x32x128 (shapeCast S256x32x1 s h1) h2 (ix3 r g l) = s (ix2 r g) := by
  refine (broadcastTo_apply (shapeCast S256x32x1 s h1) h2 (ix3 r g l) (ix3 r g (⟨0, Nat.one_pos⟩ : Fin 1)) fun a => ?_).trans ?_
  · match a with
    | ⟨0, _⟩ => rfl
    | ⟨1, _⟩ => rfl
    | ⟨2, _⟩ => rfl
  · refine shapeCast_apply s h1 (ix3 r g (⟨0, Nat.one_pos⟩ : Fin 1)) (ix2 r g) ?_
    rw [Shape.rowMajor_val_two, Shape.rowMajor_val_three]
    show r.val * 32 + g.val = (r.val * 32 + g.val) * 1 + 0
    omega

end Layout

/-- The arithmetic shift right by four, as the vector unit computes it. -/
theorem shrsi_four (x : BitVec 32) : IntOp.shrsi .vector x 4#32 = x.sshiftRight 4 := by
  unfold IntOp.shrsi
  rw [if_pos (by decide)]
  rfl

/-- Nibble (r, i) of a block of packed words: the high nibble of word i for i below 2048, the low four bits of word i − 2048 after. -/
def nibBlk (q0 : S256x2048.Idx → BitVec 32) (r : Fin 256) (i : Fin 4096) : BitVec 32 :=
  if h : i.val < 2048 then (q0 (ix2 r ⟨i.val, h⟩)).sshiftRight 4
  else q0 (ix2 r ⟨i.val - 2048, by have := i.isLt; omega⟩) &&& 15#32

/-- The body's result at (r, i), on the extended reals: scale · (nibble − zero) of column i's group. -/
theorem deq_pay_apply (q0 : Vec Ideal S256x2048 .i32) (s0 z0 : Vec Ideal S256x32 .f32) (r : Fin 256) (i : Fin 4096) :
    k0_pay1 (F := Ideal) q0 s0 z0 (ix2 r i)
      = s0 (ix2 r ⟨i.val / 128, by have := i.isLt; omega⟩)
          * (FloatOps.sitofp (F := Ideal) .f32 (nibBlk q0 r i) - z0 (ix2 r ⟨i.val / 128, by have := i.isLt; omega⟩)) := by
  unfold k0_pay1
  refine (truncf_apply (φ := .f32) (ψ := .bf16) _ Gen.bitsLt_bf16_f32 (ix2 r i)).trans ?_
  refine (merge_cols _ _ r i).trans ?_
  refine (mulf_apply _ _ _).trans ?_
  refine congrArg₂ (· * ·) (spread_group s0 _ _ r _ _) ?_
  refine (subf_apply _ _ _).trans ?_
  refine congrArg₂ (· - ·) ?_ (spread_group z0 _ _ r _ _)
  refine (split_cols _ _ r _ _ i (by show i.val = 128 * (i.val / 128) + i.val % 128; omega)).trans ?_
  refine (sitofp_apply _ _).trans ?_
  refine congrArg (FloatOps.sitofp (F := Ideal) .f32) ?_
  unfold nibBlk
  by_cases h : i.val < 2048
  · rw [dif_pos h]
    refine (cat_lo _ _ _ r i h).trans ?_
    exact shrsi_four _
  · rw [dif_neg h]
    exact cat_hi _ _ _ r i h

variable (V : (c : Dev nD) → (b : Ref sig .tc) → Buf (Elt Ideal) ((c : Thread nD τ).loc b))

/-- The four windows all move down the rows with the point: block (t, 0) at point t. -/
theorem blk_index0 : ∀ t : Fin cfg0.N,
    win0_0.index t (0 : Fin 2) = t.val ∧ win0_0.index t (1 : Fin 2) = 0
      ∧ win0_1.index t (0 : Fin 2) = t.val ∧ win0_1.index t (1 : Fin 2) = 0
      ∧ win0_2.index t (0 : Fin 2) = t.val ∧ win0_2.index t (1 : Fin 2) = 0
      ∧ win0_3.index t (0 : Fin 2) = t.val ∧ win0_3.index t (1 : Fin 2) = 0 :=
  (by decide +kernel : ∀ t : Fin grid0.N, _)

/-- Word (r, k) of point t's block of packed words is word (256 t + r, k) of the array. -/
theorem qblk_apply (c : Dev nD) (t : Fin cfg0.N) (r : Fin 256) (k : Fin 2048) (o : Fin 4096) (ho : o.val = 256 * t.val + r.val) :
    qblk V c t (ix2 r k) = (V c main_arg1 : S4096x2048.Idx → BitVec 32) (ix2 o k) := by
  obtain ⟨e0, e1, -⟩ := blk_index0 t
  show V c main_arg1 (((cfg0.win 0).blk t).view.emb (ix2 r k)) = V c main_arg1 (ix2 o k)
  congr 1
  funext a; apply Fin.ext
  match a with
  | ⟨0, _⟩ => show win0_0.index t (0 : Fin 2) * 256 + 1 * r.val = o.val; omega
  | ⟨1, _⟩ => show win0_0.index t (1 : Fin 2) * 2048 + 1 * k.val = k.val; omega

/-- Scale (r, g) of point t's block is scale (256 t + r, g) of the array. -/
theorem sblk_apply (c : Dev nD) (t : Fin cfg0.N) (r : Fin 256) (g : Fin 32) (o : Fin 4096) (ho : o.val = 256 * t.val + r.val) :
    sblk V c t (ix2 r g) = (V c main_arg2 : S4096x32.Idx → EReal) (ix2 o g) := by
  obtain ⟨-, -, e0, e1, -⟩ := blk_index0 t
  show V c main_arg2 (((cfg0.win 1).blk t).view.emb (ix2 r g)) = V c main_arg2 (ix2 o g)
  congr 1
  funext a; apply Fin.ext
  match a with
  | ⟨0, _⟩ => show win0_1.index t (0 : Fin 2) * 256 + 1 * r.val = o.val; omega
  | ⟨1, _⟩ => show win0_1.index t (1 : Fin 2) * 32 + 1 * g.val = g.val; omega

/-- Zero point (r, g) of point t's block is zero point (256 t + r, g) of the array. -/
theorem zblk_apply (c : Dev nD) (t : Fin cfg0.N) (r : Fin 256) (g : Fin 32) (o : Fin 4096) (ho : o.val = 256 * t.val + r.val) :
    zblk V c t (ix2 r g) = (V c main_arg3 : S4096x32.Idx → EReal) (ix2 o g) := by
  obtain ⟨-, -, -, -, e0, e1, -⟩ := blk_index0 t
  show V c main_arg3 (((cfg0.win 2).blk t).view.emb (ix2 r g)) = V c main_arg3 (ix2 o g)
  congr 1
  funext a; apply Fin.ext
  match a with
  | ⟨0, _⟩ => show win0_2.index t (0 : Fin 2) * 256 + 1 * r.val = o.val; omega
  | ⟨1, _⟩ => show win0_2.index t (1 : Fin 2) * 32 + 1 * g.val = g.val; omega

/-- Entry (r, i) of what point t leaves is the dequantized weight (256 t + r, i) of the arrays the call found. -/
theorem deq_entry (c : Dev nD) (t : Fin cfg0.N) (r : Fin 256) (i : Fin 4096) (o : Fin 4096) (ho : o.val = 256 * t.val + r.val) :
    deqBlk V c t (ix2 r i) = Cert.Hand.Spec.wq (V c main_arg1) (V c main_arg2) (V c main_arg3) o i := by
  unfold deqBlk
  refine (deq_pay_apply (qblk V c t) (sblk V c t) (zblk V c t) r i).trans ?_
  unfold Cert.Hand.Spec.wq Cert.Hand.Spec.grp
  refine congrArg₂ (· * ·) (sblk_apply V c t r _ o ho) ?_
  refine congrArg₂ (· - ·) (congrArg (FloatOps.sitofp (F := Ideal) .f32) ?_) (zblk_apply V c t r _ o ho)
  unfold nibBlk Cert.Hand.Spec.nib
  by_cases h : i.val < 2048
  · rw [dif_pos h, dif_pos h]
    exact congrArg (fun x : BitVec 32 => x.sshiftRight 4) (qblk_apply V c t r _ o ho)
  · rw [dif_neg h, dif_neg h]
    exact congrArg (fun x : BitVec 32 => x &&& 15#32) (qblk_apply V c t r _ o ho)

/-- The weight array the call ends with, as one function of the arrays it found. -/
abbrev deqArr (c : Dev nD) : S4096x4096.Idx → EReal :=
  fun j => Cert.Hand.Spec.wq (V c main_arg1) (V c main_arg2) (V c main_arg3) (j 0) (j 1)

/-- What point t writes back is block t of that array. -/
theorem flushed_eq0 (c : Dev nD) (t : Fin cfg0.N) :
    (dat0 V c).flushed 3 t = ((cfg0.win 3).blk t).view.read (Elt Ideal) (deqArr V c) := by
  show (cfg0.win 3).cut (grid0.coords t) ((dat0 V c).after 3 t) = _
  rw [after0_3]
  obtain ⟨-, -, -, -, -, -, e0, e1⟩ := blk_index0 t
  funext j
  obtain ⟨r, i, rfl⟩ : ∃ (r : Fin 256) (i : Fin 4096), j = ix2 r i := ⟨j 0, j 1, eq_ix2 j⟩
  have h0 : ((((cfg0.win 3).blk t).view.emb (ix2 r i)) 0).val = 256 * t.val + r.val := by
    show win0_3.index t (0 : Fin 2) * 256 + 1 * r.val = _
    omega
  have h1 : i = (((cfg0.win 3).blk t).view.emb (ix2 r i)) 1 := Fin.ext (by
    show i.val = win0_3.index t (1 : Fin 2) * 4096 + 1 * i.val
    omega)
  show deqBlk V c t (ix2 r i) = Cert.Hand.Spec.wq (V c main_arg1) (V c main_arg2) (V c main_arg3)
    ((((cfg0.win 3).blk t).view.emb (ix2 r i)) 0) ((((cfg0.win 3).blk t).view.emb (ix2 r i)) 1)
  refine (deq_entry V c t r i _ h0).trans ?_
  exact congrArg (Cert.Hand.Spec.wq (V c main_arg1) (V c main_arg2) (V c main_arg3) _) h1

/-- An index of the weight array is in point t's block when each coordinate is in the block's range. -/
theorem mem_blk0 (t : Fin cfg0.N) (j : S4096x4096.Idx) :
    j ∈ ((cfg0.win 3).blk t).view.set
      ↔ ∀ a : Fin 2, win0_3.index t a * S256x4096.size a ≤ (j a).val ∧ (j a).val < win0_3.index t a * S256x4096.size a + S256x4096.size a := by
  show j ∈ ((View.whole main_v1).slice (win0_3.rect t)).set ↔ _
  rw [View.set_slice_whole, Rect.mem_set_unit]
  exact Iff.rfl

/-- Row o of the array is written by point o / 256: the sixteen blocks tile the rows. -/
theorem rows_covered0 (j : S4096x4096.Idx) :
    ∃ t : Fin cfg0.N, (cfg0.win 3).flush t = true ∧ j ∈ ((cfg0.win 3).blk t).view.set := by
  have hj0 : (j 0).val < 4096 := (j 0).isLt
  have hj1 : (j 1).val < 4096 := (j 1).isLt
  have hN : cfg0.N = 16 := N_0
  have ht : (j 0).val / 256 < cfg0.N := by rw [hN]; omega
  obtain ⟨-, -, -, -, -, -, e0, e1⟩ := blk_index0 ⟨(j 0).val / 256, ht⟩
  refine ⟨⟨(j 0).val / 256, ht⟩, flush0_3 _, ?_⟩
  rw [mem_blk0]
  intro a
  match a with
  | ⟨0, _⟩ =>
    show win0_3.index ⟨(j 0).val / 256, ht⟩ (0 : Fin 2) * 256 ≤ (j 0).val
      ∧ (j 0).val < win0_3.index ⟨(j 0).val / 256, ht⟩ (0 : Fin 2) * 256 + 256
    rw [e0]
    show (j 0).val / 256 * 256 ≤ (j 0).val ∧ (j 0).val < (j 0).val / 256 * 256 + 256
    omega
  | ⟨1, _⟩ =>
    show win0_3.index ⟨(j 0).val / 256, ht⟩ (1 : Fin 2) * 4096 ≤ (j 1).val
      ∧ (j 1).val < win0_3.index ⟨(j 0).val / 256, ht⟩ (1 : Fin 2) * 4096 + 4096
    rw [e1]
    omega

/-- After the call's sixteen points the weight array holds the dequantized weights of the arrays the call found. -/
theorem deq_arr (c : Dev nD) :
    (dat0 (F := Ideal) V c).arrAt 3 cfg0.N
      = fun j : S4096x4096.Idx => Cert.Hand.Spec.wq (V c main_arg1) (V c main_arg2) (V c main_arg3) (j 0) (j 1) :=
  (dat0 V c).arrAt_eq_of_cover 3 (deqArr V c) (fun t _ => flushed_eq0 V c t) rows_covered0

end Cert.KernelIdeal.Hand

end
-- ==== Proof.KI.Val1Pay.lean ====
/-
  The matrix-product call's three block values, read at one entry, on the extended reals.  The start value is zero; one
  accumulation step adds, at entry (p, q), the row p of the x block against the row q of the w block over the block's 1024
  columns (the product is with the transposed w block, and neither the change of format nor the reshapes to the same shape
  change an entry); the stored block adds the bias entry q to every row.
-/
import proofs.«409815_j9423158247731_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.KernelIdeal.Facts₀ Cert.KernelIdeal.Facts

/-- The left operand is read at (row of the output entry, contraction position) … -/
theorem mm_lhs_0 (j : S1024x1024.Idx) (k : dot_S1024x1024_S1024x1024_S1024x1024_1_0_0_1_n_n.contr.Idx) :
    ((dot_S1024x1024_S1024x1024_S1024x1024_1_0_0_1_n_n.lhsIdx j k) 0).val = (j 0).val := by
  simp [DotDims.lhsIdx, dot_S1024x1024_S1024x1024_S1024x1024_1_0_0_1_n_n]; rfl

theorem mm_lhs_1 (j : S1024x1024.Idx) (k : dot_S1024x1024_S1024x1024_S1024x1024_1_0_0_1_n_n.contr.Idx) :
    ((dot_S1024x1024_S1024x1024_S1024x1024_1_0_0_1_n_n.lhsIdx j k) 1).val = (k ⟨0, by decide⟩).val :=
  dot_S1024x1024_S1024x1024_S1024x1024_1_0_0_1_n_n.lhsIdx_val_of_single rfl j k

/-- … and the right operand at (contraction position, column of the output entry). -/
theorem mm_rhs_0 (j : S1024x1024.Idx) (k : dot_S1024x1024_S1024x1024_S1024x1024_1_0_0_1_n_n.contr.Idx) :
    ((dot_S1024x1024_S1024x1024_S1024x1024_1_0_0_1_n_n.rhsIdx j k) 0).val = (k ⟨0, by decide⟩).val :=
  dot_S1024x1024_S1024x1024_S1024x1024_1_0_0_1_n_n.rhsIdx_val_of_single rfl j k

theorem mm_rhs_1 (j : S1024x1024.Idx) (k : dot_S1024x1024_S1024x1024_S1024x1024_1_0_0_1_n_n.contr.Idx) :
    ((dot_S1024x1024_S1024x1024_S1024x1024_1_0_0_1_n_n.rhsIdx j k) 1).val = (j 1).val := by
  simp [DotDims.rhsIdx, dot_S1024x1024_S1024x1024_S1024x1024_1_0_0_1_n_n]; rfl

/-- The accumulator's start: zero at every entry. -/
theorem k1_pay1_at (p q : Fin 1024) : k1_pay1 (F := Ideal) (ix2 p q) = 0 := by
  unfold k1_pay1
  simp only [shapeCast_self]
  exact Ideal.ofBits_zero_f32

/-- The stored block at (p, q): the accumulator there plus the bias entry q. -/
theorem k1_pay3_at (b : Vec Ideal S1024 .f32) (acc : Vec Ideal S1024x1024 .f32) (p q : Fin 1024) :
    k1_pay3 b acc (ix2 p q) = acc (ix2 p q) + b (ix1 q) := by
  unfold k1_pay3
  refine congrArg (acc (ix2 p q) + ·) ?_
  refine (broadcastTo_apply (shapeCast S1x1024 b Gen.shapeCasts_S1024_S1x1024) Gen.broadcasts_S1x1024_S1024x1024 (ix2 p q)
    (ix2 (0 : Fin 1) q) (fun a => by match a with | ⟨0, _⟩ => rfl | ⟨1, _⟩ => rfl)).trans ?_
  refine shapeCast_apply b Gen.shapeCasts_S1024_S1x1024 (ix2 (0 : Fin 1) q) (ix1 q) ?_
  rw [Shape.rowMajor_val_one, Shape.rowMajor_val_two]
  show q.val = (0 : Fin 1).val * 1024 + q.val
  simp

/-- One accumulation step at (p, q): the accumulator there plus Σ_{i < 1024} x(p, i) · w(q, i). -/
theorem k1_pay2_at (x : Vec Ideal S1024x1024 .f32) (w : Vec Ideal S1024x1024 .bf16) (acc : Vec Ideal S1024x1024 .f32) (p q : Fin 1024) :
    k1_pay2 x w acc (ix2 p q) = acc (ix2 p q) + ∑ i : Fin 1024, x (ix2 p i) * w (ix2 q i) := by
  unfold k1_pay2
  simp only [shapeCast_self]
  refine congrArg (acc (ix2 p q) + ·) ?_
  refine (Ideal.matmul_constant_zero_apply dot_S1024x1024_S1024x1024_S1024x1024_1_0_0_1_n_n none
    (truncf .bf16 x Gen.bitsLt_bf16_f32) (transpose S1024x1024 [1, 0] w Gen.transposes_S1024x1024_p1_0_S1024x1024) (ix2 p q)).trans ?_
  refine (Equiv.sum_comp (contrEquiv1 dot_S1024x1024_S1024x1024_S1024x1024_1_0_0_1_n_n 1024 rfl rfl).symm _).symm.trans ?_
  refine Finset.sum_congr rfl fun i _ => ?_
  have hi : (((contrEquiv1 dot_S1024x1024_S1024x1024_S1024x1024_1_0_0_1_n_n 1024 rfl rfl).symm i) ⟨0, by decide⟩ : ℕ) = i.val :=
    contrEquiv1_symm_val dot_S1024x1024_S1024x1024_S1024x1024_1_0_0_1_n_n 1024 rfl rfl i
  have el : dot_S1024x1024_S1024x1024_S1024x1024_1_0_0_1_n_n.lhsIdx (ix2 p q)
      ((contrEquiv1 dot_S1024x1024_S1024x1024_S1024x1024_1_0_0_1_n_n 1024 rfl rfl).symm i) = ix2 p i :=
    Shape.idx_ext₂ (mm_lhs_0 _ _) ((mm_lhs_1 _ _).trans hi)
  have er : transpose S1024x1024 [1, 0] w Gen.transposes_S1024x1024_p1_0_S1024x1024
      (dot_S1024x1024_S1024x1024_S1024x1024_1_0_0_1_n_n.rhsIdx (ix2 p q)
        ((contrEquiv1 dot_S1024x1024_S1024x1024_S1024x1024_1_0_0_1_n_n 1024 rfl rfl).symm i)) = w (ix2 q i) :=
    transpose_apply [1, 0] w Gen.transposes_S1024x1024_p1_0_S1024x1024 _ (ix2 q i) (fun b => by
      match b with
      | ⟨0, _⟩ => show i.val = _; exact ((mm_rhs_0 (ix2 p q) _).trans hi).symm
      | ⟨1, _⟩ => show q.val = _; exact (mm_rhs_1 (ix2 p q) _).symm)
  rw [er]
  exact congrArg (· * w (ix2 q i)) (congrArg x el)

end Cert.KernelIdeal.Hand

end
-- ==== Proof.KI.Val1Sum.lean ====
/-
  The algebra of the blocked product, on the extended reals as in any commutative monoid: the sum over the first n columns of
  x[r, i] · w[o, i]; it starts at zero, a further block of 1024 columns adds that block's sum, and at n = 4096 it is the whole
  entry of the product.
-/
import proofs.«409815_j9423158247731_1_alg».proof.KernelIdeal
import Idealize.ShloMosaic.Lib.ValueIdx
import Idealize.ShloMosaic.PureOps.Ideal.Laws
import Mathlib.Algebra.BigOperators.Fin
import Mathlib.Algebra.BigOperators.Group.Finset.Basic

set_option maxRecDepth 16384

noncomputable section

open scoped BigOperators

namespace Cert.KernelIdeal.Hand

open Cert.KernelIdeal
open Idealize.ShloMosaic Idealize.ShloMosaic.ValueIdx

variable (X : FVec Ideal S8192x4096 .f32) (W : FVec Ideal S4096x4096 .bf16) (r : Fin 8192) (o : Fin 4096)

/-- Row r of X against row o of W over the columns below n (there are no columns from 4096 on). -/
def mm_rowDot (n : ℕ) : EReal :=
  ∑ i ∈ Finset.range n, if h : i < 4096 then X (ix2 r ⟨i, h⟩) * W (ix2 o ⟨i, h⟩) else 0

theorem mm_rowDot_zero : mm_rowDot X W r o 0 = 0 := Finset.sum_range_zero _

/-- One more block of 1024 columns. -/
theorem mm_rowDot_add (m : ℕ) (hm : m + 1024 ≤ 4096) :
    mm_rowDot X W r o (m + 1024)
      = mm_rowDot X W r o m + ∑ i : Fin 1024, X (ix2 r ⟨m + i.val, by have := i.isLt; omega⟩) * W (ix2 o ⟨m + i.val, by have := i.isLt; omega⟩) := by
  unfold mm_rowDot
  rw [Finset.sum_range_add, Finset.sum_range (fun x => if h : m + x < 4096 then X (ix2 r ⟨m + x, h⟩) * W (ix2 o ⟨m + x, h⟩) else 0)]
  refine congrArg (_ + ·) (Finset.sum_congr rfl fun i _ => ?_)
  rw [dif_pos (by have := i.isLt; omega)]

/-- All 4096 columns: the whole entry of the product. -/
theorem mm_rowDot_full : mm_rowDot X W r o 4096 = ∑ i : Fin 4096, X (ix2 r i) * W (ix2 o i) := by
  unfold mm_rowDot
  rw [Finset.sum_range (fun x => if h : x < 4096 then X (ix2 r ⟨x, h⟩) * W (ix2 o ⟨x, h⟩) else 0)]
  refine Finset.sum_congr rfl fun i _ => ?_
  rw [dif_pos i.isLt]

/-- Entry (r, o) of the product of X with W transposed, plus the bias entry o. -/
def mm_entry (B : FVec Ideal S4096 .f32) : EReal :=
  (∑ i : Fin 4096, X (ix2 r i) * W (ix2 o i)) + B (ix1 o)

theorem mm_rowDot_full_bias (B : FVec Ideal S4096 .f32) : mm_rowDot X W r o 4096 + B (ix1 o) = mm_entry X W r o B :=
  congrArg (· + B (ix1 o)) (mm_rowDot_full X W r o)

end Cert.KernelIdeal.Hand

end
-- ==== Proof.KI.Val1Blk.lean ====
/-
  Where the matrix-product call's blocks sit.  Point t = 16 a + 4 b + k of the 8 x 4 x 4 grid reads the x block (a, k), the w
  block (b, k) and the bias block b, and its result block is (a, b); a block's entry sits in its array at block index times 1024
  plus the entry's own coordinate.  The 32 result blocks stored at the points with k = 3 tile the result array.
-/
import proofs.«409815_j9423158247731_1_alg».proof.Proof.KI.Reg1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts

variable {F : FTy → Type} [FloatOps F]
variable (V : (c : Dev nD) → (b : Ref sig .tc) → Buf (Elt F) ((c : Thread nD τ).loc b))

/-- Point t = 16 a + 4 b + k: x's block is (a, k), w's block (b, k), the bias block b, the result block (a, b). -/
theorem blk_index1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4 :=
  (by decide +kernel : ∀ t : Fin grid1.N, _)

/-- The x block at point t reads rows 1024 (t / 16) …, columns 1024 (t mod 4) … of x. -/
theorem xblk_at (c : Dev nD) (t : Fin cfg1.N) (p i : Fin 1024) (R : Fin 8192) (C : Fin 4096)
    (hR : R.val = 1024 * (t.val / 16) + p.val) (hC : C.val = 1024 * (t.val % 4) + i.val) :
    xblk V c t (ix2 p i) = (V c main_v2 : Vec F S8192x4096 .f32) (ix2 R C) := by
  obtain ⟨e0, e1, -⟩ := blk_index1 t
  show iblk1 V c 0 t (ix2 p i) = _
  unfold iblk1
  rw [View.read_apply]
  show V c main_v2 _ = V c main_v2 _
  congr 1
  funext a
  apply Fin.ext
  match a with
  | ⟨0, _⟩ => show win1_0.index t 0 * 1024 + 1 * p.val = R.val; rw [e0, hR]; omega
  | ⟨1, _⟩ => show win1_0.index t 1 * 1024 + 1 * i.val = C.val; rw [e1, hC]; omega

/-- The w block at point t reads rows 1024 (t / 4 mod 4) …, columns 1024 (t mod 4) … of w. -/
theorem wblk_at (c : Dev nD) (t : Fin cfg1.N) (q i : Fin 1024) (O C : Fin 4096)
    (hO : O.val = 1024 * (t.val / 4 % 4) + q.val) (hC : C.val = 1024 * (t.val % 4) + i.val) :
    wblk V c t (ix2 q i) = (V c main_v1 : Vec F S4096x4096 .bf16) (ix2 O C) := by
  obtain ⟨-, -, e2, e3, -⟩ := blk_index1 t
  show iblk1 V c 1 t (ix2 q i) = _
  unfold iblk1
  rw [View.read_apply]
  show V c main_v1 _ = V c main_v1 _
  congr 1
  funext a
  apply Fin.ext
  match a with
  | ⟨0, _⟩ => show win1_1.index t 0 * 1024 + 1 * q.val = O.val; rw [e2, hO]; omega
  | ⟨1, _⟩ => show win1_1.index t 1 * 1024 + 1 * i.val = C.val; rw [e3, hC]; omega

/-- The bias block at point t reads entries 1024 (t / 4 mod 4) … of the bias. -/
theorem bblk_at (c : Dev nD) (t : Fin cfg1.N) (q : Fin 1024) (O : Fin 4096)
    (hO : O.val = 1024 * (t.val / 4 % 4) + q.val) :
    bblk V c t (ix1 q) = (V c main_arg4 : Vec F S4096 .f32) (ix1 O) := by
  obtain ⟨-, -, -, -, e4, -⟩ := blk_index1 t
  show iblk1 V c 2 t (ix1 q) = _
  unfold iblk1
  rw [View.read_apply]
  show V c main_arg4 _ = V c main_arg4 _
  congr 1
  funext a
  apply Fin.ext
  match a with
  | ⟨0, _⟩ => show win1_2.index t 0 * 1024 + 1 * q.val = O.val; rw [e4, hO]; omega

/-- An entry of the result array is in point t's block iff each coordinate is in the block's range. -/
theorem mem_outblk1 (t : Fin cfg1.N) (j : S8192x4096.Idx) :
    j ∈ ((cfg1.win 3).blk t).view.set
      ↔ ∀ a : Fin 2, win1_3.index t a * S1024x1024.size a ≤ (j a).val ∧ (j a).val < win1_3.index t a * S1024x1024.size a + S1024x1024.size a := by
  show j ∈ ((View.whole main_v3).slice (win1_3.rect t)).set ↔ _
  rw [View.set_slice_whole, Rect.mem_set_unit]
  exact Iff.rfl

/-- Every entry (r, o) of the result array is in the block stored at point 16 (r / 1024) + 4 (o / 1024) + 3. -/
theorem out_cover1 (j : S8192x4096.Idx) :
    ∃ t : Fin cfg1.N, (cfg1.win 3).flush t = true ∧ j ∈ ((cfg1.win 3).blk t).view.set := by
  have h0 : (j 0).val < 8192 := idx2_lt0 j
  have h1 : (j 1).val < 4096 := idx2_lt1 j
  have hN : cfg1.N = 128 := N_1
  have hlt : 16 * ((j 0).val / 1024) + 4 * ((j 1).val / 1024) + 3 < cfg1.N := by rw [hN]; omega
  obtain ⟨t, ht⟩ : ∃ t : Fin cfg1.N, t.val = 16 * ((j 0).val / 1024) + 4 * ((j 1).val / 1024) + 3 := ⟨⟨_, hlt⟩, rfl⟩
  obtain ⟨-, -, -, -, -, e5, e6⟩ := blk_index1 t
  refine ⟨t, (flush1_3 t).mpr (by omega), ?_⟩
  rw [mem_outblk1]
  intro a
  match a with
  | ⟨0, _⟩ => show win1_3.index t 0 * 1024 ≤ (j 0).val ∧ (j 0).val < win1_3.index t 0 * 1024 + 1024; rw [e5]; omega
  | ⟨1, _⟩ => show win1_3.index t 1 * 1024 ≤ (j 1).val ∧ (j 1).val < win1_3.index t 1 * 1024 + 1024; rw [e6]; omega

end Cert.KernelIdeal.Hand

end
-- ==== Proof.KI.Val1Acc.lean ====
/-
  The accumulator of the matrix-product call, entry by entry, on the extended reals.  After point t, with k = t mod 4, entry
  (p, q) of the accumulator is the sum over the columns below 1024 (k + 1) of x[r, i] · w[o, i], where (r, o) is the entry of
  the result array that (p, q) of the point's result block is: by induction on the point, from zero where k = 0 and from the
  point before otherwise.  At k = 3 all 4096 columns are in, and the stored block adds the bias entry.
-/
import proofs.«409815_j9423158247731_1_alg».proof.Proof.KI.Val1Pay
import proofs.«409815_j9423158247731_1_alg».proof.Proof.KI.Val1Sum
import proofs.«409815_j9423158247731_1_alg».proof.Proof.KI.Val1Blk

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts

variable (V : (c : Dev nD) → (b : Ref sig .tc) → Buf (Elt Ideal) ((c : Thread nD τ).loc b))

/-- One accumulation step at an entry of the block of point t, k = t mod 4: an accumulator holding the row product over the
    columns below 1024 k holds, after the step, the row product over the columns below 1024 k + 1024. -/
theorem mm_step_at (c : Dev nD) (t : Fin cfg1.N) (acc : Vec Ideal S1024x1024 .f32) (p q : Fin 1024) (R : Fin 8192) (O : Fin 4096)
    (hR : R.val = 1024 * (t.val / 16) + p.val) (hO : O.val = 1024 * (t.val / 4 % 4) + q.val)
    (hacc : acc (ix2 p q) = mm_rowDot (V c main_v2) (V c main_v1) R O (1024 * (t.val % 4))) :
    k1_pay2 (xblk V c t) (wblk V c t) acc (ix2 p q) = mm_rowDot (V c main_v2) (V c main_v1) R O (1024 * (t.val % 4) + 1024) := by
  have hk : t.val % 4 < 4 := Nat.mod_lt _ (by decide)
  refine (k1_pay2_at (xblk V c t) (wblk V c t) acc p q).trans ?_
  rw [hacc, mm_rowDot_add (V c main_v2) (V c main_v1) R O (1024 * (t.val % 4)) (by omega)]
  refine congrArg (_ + ·) (Finset.sum_congr rfl fun i _ => ?_)
  rw [xblk_at V c t p i R ⟨1024 * (t.val % 4) + i.val, by have := i.isLt; omega⟩ hR rfl,
    wblk_at V c t q i O ⟨1024 * (t.val % 4) + i.val, by have := i.isLt; omega⟩ hO rfl]

/-- THE ACCUMULATOR after point n, at an entry: the row product over the columns of the reduction blocks 0 … n mod 4. -/
theorem mm_acc_inv (c : Dev nD) : ∀ (n : ℕ) (hn : n < cfg1.N) (p q : Fin 1024) (R : Fin 8192) (O : Fin 4096),
    R.val = 1024 * (n / 16) + p.val → O.val = 1024 * (n / 4 % 4) + q.val →
    accAt V c n hn (ix2 p q) = mm_rowDot (V c main_v2) (V c main_v1) R O (1024 * (n % 4) + 1024) := by
  intro n
  induction n using Nat.strong_induction_on with
  | _ n ih =>
    intro hn p q R O hR hO
    by_cases h : n % 4 = 0
    · refine (congrFun (accAt_reset V c ⟨n, hn⟩ h) (ix2 p q)).trans ?_
      refine mm_step_at V c ⟨n, hn⟩ (k1_pay1 (F := Ideal)) p q R O hR hO ?_
      rw [k1_pay1_at]
      show (0 : EReal) = mm_rowDot (V c main_v2) (V c main_v1) R O (1024 * (n % 4))
      rw [h]
      exact (mm_rowDot_zero (V c main_v2) (V c main_v1) R O).symm
    · refine (congrFun (accAt_step V c ⟨n, hn⟩ h) (ix2 p q)).trans ?_
      refine mm_step_at V c ⟨n, hn⟩ (accAt V c (n - 1) (Nat.lt_of_le_of_lt (Nat.sub_le _ _) hn)) p q R O hR hO ?_
      refine (ih (n - 1) (by omega) (Nat.lt_of_le_of_lt (Nat.sub_le _ _) hn) p q R O (by omega) (by omega)).trans ?_
      exact congrArg (mm_rowDot (V c main_v2) (V c main_v1) R O) (by show 1024 * ((n - 1) % 4) + 1024 = 1024 * (n % 4); omega)

/-- What a storing point (k = 3) leaves for the result's block, at an entry: the full row product plus the bias entry. -/
theorem mm_outBlk_at (c : Dev nD) (t : Fin cfg1.N) (h3 : t.val % 4 = 3) (p q : Fin 1024) (R : Fin 8192) (O : Fin 4096)
    (hR : R.val = 1024 * (t.val / 16) + p.val) (hO : O.val = 1024 * (t.val / 4 % 4) + q.val) :
    outBlk V c t (ix2 p q) = mm_entry (V c main_v2) (V c main_v1) R O (V c main_arg4) := by
  unfold outBlk
  refine (k1_pay3_at (bblk V c t) (accAt V c t.val t.isLt) p q).trans ?_
  rw [mm_acc_inv V c t.val t.isLt p q R O hR hO, bblk_at V c t q O hO, h3]
  exact mm_rowDot_full_bias (V c main_v2) (V c main_v1) R O (V c main_arg4)

end Cert.KernelIdeal.Hand

end
-- ==== Proof.KI.Val1.lean ====
/-
  What the matrix-product call leaves in its result array, on the extended reals: entry (r, o) is the sum over all 4096 columns i
  of x[r, i] · w[o, i], plus bias[o].  The four reduction blocks of 1024 columns are accumulated one point after another from
  zero; a sum over 4096 columns is the sum of its four blocks' sums, in any order, on the extended reals as in any commutative monoid.
  Only the points with k = 3 store, each its block of that array, and those 32 blocks tile it.
-/
import proofs.«409815_j9423158247731_1_alg».proof.Proof.KI.Val1Acc
import proofs.«409815_j9423158247731_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts

variable (V : (c : Dev nD) → (b : Ref sig .tc) → Buf (Elt Ideal) ((c : Thread nD τ).loc b))

/-- The activations, the weights and the bias as the call finds them, at their literal types. -/
abbrev xarr (c : Dev nD) : FVec Ideal S8192x4096 .f32 := V c main_v2
abbrev warr (c : Dev nD) : FVec Ideal S4096x4096 .bf16 := V c main_v1
abbrev barr (c : Dev nD) : FVec Ideal S4096 .f32 := V c main_arg4

/-- What a storing point writes back is its block of the product plus bias. -/
theorem mm_flushed (c : Dev nD) (t : Fin cfg1.N) (hf : (cfg1.win 3).flush t = true) :
    (dat1 (F := Ideal) V c).flushed 3 t
      = ((cfg1.win 3).blk t).view.read (Elt Ideal)
          (fun j : S8192x4096.Idx => (∑ i : Fin 4096, xarr V c (ix2 (j 0) i) * warr V c (ix2 (j 1) i)) + barr V c (ix1 (j 1))) := by
  have h3 : t.val % 4 = 3 := (flush1_3 t).mp hf
  obtain ⟨-, -, -, -, -, e5, e6⟩ := blk_index1 t
  have hN : cfg1.N = 128 := N_1
  have ht : t.val < 128 := hN ▸ t.isLt
  show (cfg1.win 3).cut (grid1.coords t) ((dat1 (F := Ideal) V c).after 3 t) = _
  rw [after1_3]
  funext y
  have hy0 : (y 0).val < 1024 := (y 0).isLt
  have hy1 : (y 1).val < 1024 := (y 1).isLt
  rw [View.read_apply]
  obtain ⟨R, hR⟩ : ∃ R : Fin 8192, R.val = 1024 * (t.val / 16) + (y 0).val := ⟨⟨1024 * (t.val / 16) + (y 0).val, by omega⟩, rfl⟩
  obtain ⟨O, hO⟩ : ∃ O : Fin 4096, O.val = 1024 * (t.val / 4 % 4) + (y 1).val := ⟨⟨1024 * (t.val / 4 % 4) + (y 1).val, by omega⟩, rfl⟩
  have hemb : ((cfg1.win 3).blk t).view.emb y = ix2 R O := by
    funext a
    apply Fin.ext
    match a with
    | ⟨0, _⟩ => show win1_3.index t 0 * 1024 + 1 * (y 0).val = R.val; rw [e5, hR]; omega
    | ⟨1, _⟩ => show win1_3.index t 1 * 1024 + 1 * (y 1).val = O.val; rw [e6, hO]; omega
  rw [hemb]
  refine (congrArg (outBlk V c t) (show (cfg1.win 3).xinj (grid1.coords t) y = ix2 ⟨(y 0).val, hy0⟩ ⟨(y 1).val, hy1⟩ from
    funext fun a => by match a with | ⟨0, _⟩ => rfl | ⟨1, _⟩ => rfl)).trans ?_
  refine (mm_outBlk_at V c t h3 ⟨(y 0).val, hy0⟩ ⟨(y 1).val, hy1⟩ R O hR hO).trans ?_
  rfl

/-- After the call's 128 points the result array holds the full products plus bias, of the arrays the call found. -/
theorem mm_arr (c : Dev nD) :
    (dat1 (F := Ideal) V c).arrAt 3 cfg1.N
      = fun j : S8192x4096.Idx =>
          (∑ i : Fin 4096, xarr V c (ix2 (j 0) i) * warr V c (ix2 (j 1) i)) + barr V c (ix1 (j 1)) :=
  (dat1 (F := Ideal) V c).arrAt_eq_of_cover 3 _ (mm_flushed V c) out_cover1

end Cert.KernelIdeal.Hand

end
-- ==== Proof.PreDecode.lean ====
/-
  The precondition read back, and the take on the host before the first call.

  The precondition is a conjunction of five tests: each of the four float inputs is finite everywhere, and every position
  of the permutation lies in [-4096, 4096) as a signed 32-bit word.  Of it this module keeps the last: `perm_range`.

  Before the first call the program gathers x along its last axis at the permutation, as a take with wrap-around does: a negative
  position has 4096 added (it counts from the end), the wrapped positions are laid out as a 4096 x 1 column (`wrapIdx`), a
  position is tested to lie in [0, 4095] (`inRange`), and the result is the gathered column where the test passes and the
  quiet NaN pattern where it fails (`takeTerm`).  `hostOps0_v0`: that is what the stretch of operations leaves in its result
  array, and it leaves the arguments alone (`hostOps0_keeps`).  A position p in [-4096, 4096) wraps to p mod 4096, which
  lies in [0, 4095] (`wrapWord_toInt`, `wrapWord_range`), so under the precondition every test passes and the take is the
  plain gather at the wrapped positions (`take_eq_gather`).
-/
import proofs.«409815_j9423158247731_1_alg».proof.Pre_finite_inputs
import proofs.«409815_j9423158247731_1_alg».proof.KernelIdeal
import proofs.«409815_j9423158247731_1_alg».proof.Proof.Gen.KernelIdeal.Launch
import proofs.«409815_j9423158247731_1_alg».proof.Proof.Gen.KernelIdeal.Regions
import Idealize.ShloMosaic.Lib.ReduceAll
import Idealize.ShloMosaic.Lib.ValueIdx
import Idealize.ShloMosaic.Lib.StableHlo.Run
import Idealize.ShloMosaic.Lib.WordArith

noncomputable section

namespace Cert.KernelIdeal.Hand

open Cert.KernelIdeal Cert.KernelIdeal.Gen
open Idealize.ShloMosaic Idealize.ShloMosaic.TcCoe

variable {F : FTy → Type} [FloatOps F]

/-! ## The precondition's last conjunct: the positions' range -/

/-- Under the precondition every position of the permutation, read signed, lies in [-4096, 4096). -/
theorem perm_range [Cert.Pre_finite_inputs.Facts]
    (x : FVec F S4x2048x4096 .f32) (q : IVec S4096x2048 32) (scale zero : FVec F S4096x32 .f32) (bias : FVec F S4096 .f32)
    (p : IVec S4096 32)
    (h : Cert.Pre_finite_inputs.fn (F := F) x q scale zero bias p = fun _ => 1#1) :
    ∀ i : S4096.Idx, (-4096 : Int) ≤ (p i).toInt ∧ (p i).toInt < 4096 := by
  intro i
  haveI : Subsingleton Cert.Pre_finite_inputs.S_.Idx := ⟨fun a b => funext fun d => d.elim0⟩
  have e := congrFun h ValueIdx.ix0
  dsimp only [Cert.Pre_finite_inputs.fn, Cert.Pre_finite_inputs.fn_part1] at e
  -- the conjunction's last member is the reduction by `and` of the two comparisons
  have eall := (IntOp.andi_eq_one.1 e).2
  have ei := Host.reduce_andi_all _ _ _ _ _ eall i
  obtain ⟨hge, hlt⟩ := IntOp.andi_eq_one.1 ei
  have g1 : (4294963200#32 : BitVec 32).toInt ≤ (p i).toInt := IntOp.cmpi_sge.1 hge
  have g2 : (p i).toInt < (4096#32 : BitVec 32).toInt := IntOp.cmpi_slt.1 hlt
  have c1 : (4294963200#32 : BitVec 32).toInt = -4096 := by decide
  have c2 : (4096#32 : BitVec 32).toInt = 4096 := by decide
  rw [c1] at g1
  rw [c2] at g2
  exact ⟨g1, g2⟩

/-! ## The take as one term -/

/-- The positions as the take reads them: a negative position counted from the end (4096 added), laid out as a column. -/
def wrapIdx (p : IVec S4096 32) : IVec S4096x1 32 :=
  broadcastInDim S4096x1 ![0] Facts₀.bcast_S4096_S4096x1_0
    (select (cmpi .slt p (broadcastInDim S4096 ![] Facts₀.bcast_S_S4096 (constantI S_ 32 0#32)))
      (addi p (broadcastInDim S4096 ![] Facts₀.bcast_S_S4096 (constantI S_ 32 4096#32)))
      p)

/-- Per position, whether the wrapped position lies in [0, 4095]. -/
def inRange (idx : IVec S4096x1 32) : IVec S4096 1 :=
  Host.reduce IntOp.andi
    (andi (cmpi .sge idx (broadcastInDim S4096x1 ![] Facts₀.bcast_S_S4096x1 (constantI S_ 32 0#32)))
      (cmpi .sle idx (broadcastInDim S4096x1 ![0, 1] Facts₀.bcast_S1x1_S4096x1_0_1
        (broadcastInDim S1x1 ![1] Facts₀.bcast_S1_S1x1_1 (constantI S1 32 4095#32)))))
    (constantI S_ 1 1#1) Facts₀.reducesTo_S4096x1_S4096_d1 Facts₀.h_S_

/-- The take: the gathered columns where the wrapped position is in range, the quiet NaN pattern elsewhere. -/
def takeTerm (x : FVec F S4x2048x4096 .f32) (p : IVec S4096 32) : FVec F S4x2048x4096 .f32 :=
  select (broadcastInDim S4x2048x4096 ![2] Facts₀.bcast_S4096_S4x2048x4096_2 (inRange (wrapIdx p)))
    (Host.gather gather_S4x2048x4096_S4096x1_S4x2048x4096_01_2_n_n_2_1_420481 x (wrapIdx p))
    (broadcastInDim S4x2048x4096 ![] Facts₀.bcast_S_S4x2048x4096 (constant S_ .f32 0x7FC00000#32))

/-- What the stretch leaves in its result array: the take of x at the permutation. -/
theorem hostOps0_v0 (V₀ : Valuation τ sig (Elt F)) :
    (StableHlo.after hostOps0 V₀ (Proc.devRef .tc main_v0) : FVec F S4x2048x4096 .f32)
      = takeTerm (V₀ (Proc.devRef .tc main_arg0)) (V₀ (Proc.devRef .tc main_arg5)) := by
  after_results_simp
  rfl

/-- The stretch writes none of the program's arguments: each reads after it as before it. -/
theorem hostOps0_keeps (V₀ : Valuation τ sig (Elt F)) (r : Ref sig .tc) (h : r ∉ hostOps0_W) :
    StableHlo.after hostOps0 V₀ (Proc.devRef .tc r) = V₀ (Proc.devRef .tc r) :=
  StableHlo.after_of_writes_sub hostOps0 V₀ hostOps0_writes h

theorem hostOps0_arg0 (V₀ : Valuation τ sig (Elt F)) :
    StableHlo.after hostOps0 V₀ (Proc.devRef .tc main_arg0) = V₀ (Proc.devRef .tc main_arg0) := hostOps0_keeps V₀ main_arg0 (by decide)
theorem hostOps0_arg1 (V₀ : Valuation τ sig (Elt F)) :
    StableHlo.after hostOps0 V₀ (Proc.devRef .tc main_arg1) = V₀ (Proc.devRef .tc main_arg1) := hostOps0_keeps V₀ main_arg1 (by decide)
theorem hostOps0_arg2 (V₀ : Valuation τ sig (Elt F)) :
    StableHlo.after hostOps0 V₀ (Proc.devRef .tc main_arg2) = V₀ (Proc.devRef .tc main_arg2) := hostOps0_keeps V₀ main_arg2 (by decide)
theorem hostOps0_arg3 (V₀ : Valuation τ sig (Elt F)) :
    StableHlo.after hostOps0 V₀ (Proc.devRef .tc main_arg3) = V₀ (Proc.devRef .tc main_arg3) := hostOps0_keeps V₀ main_arg3 (by decide)
theorem hostOps0_arg4 (V₀ : Valuation τ sig (Elt F)) :
    StableHlo.after hostOps0 V₀ (Proc.devRef .tc main_arg4) = V₀ (Proc.devRef .tc main_arg4) := hostOps0_keeps V₀ main_arg4 (by decide)
theorem hostOps0_arg5 (V₀ : Valuation τ sig (Elt F)) :
    StableHlo.after hostOps0 V₀ (Proc.devRef .tc main_arg5) = V₀ (Proc.devRef .tc main_arg5) := hostOps0_keeps V₀ main_arg5 (by decide)

/-! ## Words: a position in [-4096, 4096) counted from the end when negative -/

/-- The wrap on one word. -/
def wrapWord (w : BitVec 32) : BitVec 32 := Scalar.select (IntOp.cmpi .slt w 0#32) (IntOp.addi w 4096#32) w

/-- A position in [-4096, 4096), wrapped, reads signed as the position modulo 4096. -/
theorem wrapWord_toInt (w : BitVec 32) (h1 : (-4096 : Int) ≤ w.toInt) (h2 : w.toInt < 4096) :
    (wrapWord w).toInt = if w.toInt < 0 then w.toInt + 4096 else w.toInt := by
  have z0 : (0#32 : BitVec 32).toInt = 0 := by decide
  have z1 : (4096#32 : BitVec 32).toInt = 4096 := by decide
  unfold wrapWord
  by_cases hneg : w.toInt < 0
  · have hc : IntOp.cmpi .slt w 0#32 = 1#1 := IntOp.cmpi_slt.2 (by rw [z0]; exact hneg)
    rw [hc, ValueIdx.select_one, if_pos hneg]
    show (w + 4096#32).toInt = _
    rw [WordArith.toInt_add_of_bounds w 4096#32 (by rw [z1]; omega) (by rw [z1]; omega), z1]
  · have hc : IntOp.cmpi .slt w 0#32 = 0#1 :=
      ValueIdx.eq_zero_of_ne_one (fun e => hneg (by have := IntOp.cmpi_slt.1 e; rwa [z0] at this))
    rw [hc, ValueIdx.select_zero, if_neg hneg]

/-- So it lies in [0, 4095]. -/
theorem wrapWord_range (w : BitVec 32) (h1 : (-4096 : Int) ≤ w.toInt) (h2 : w.toInt < 4096) :
    0 ≤ (wrapWord w).toInt ∧ (wrapWord w).toInt ≤ 4095 := by
  rw [wrapWord_toInt w h1 h2]
  split <;> omega

/-- A left fold by `and` from 1 over words that are all 1 is 1. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` from 1 of an array of ones is 1 everywhere. -/
private theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

/-! ## The take, in range -/

/-- The column of wrapped positions at row k is the wrap of position k. -/
theorem wrapIdx_apply (p : IVec S4096 32) (i : S4096x1.Idx) : wrapIdx p i = wrapWord (p (ValueIdx.ix1 (i 0))) := by
  have e : (fun a : Fin S4096.rank =>
      if h1 : S4096.size a = 1 then (⟨0, by omega⟩ : Fin (S4096.size a))
      else ⟨(i ((![0] : Fin 1 → Fin S4096x1.rank) a)).val, by
        rcases Facts₀.bcast_S4096_S4096x1_0.2 a with h2 | h2
        · exact absurd h2 h1
        · rw [h2]; exact (i _).isLt⟩) = ValueIdx.ix1 (i 0) := by
    funext a
    match a with
    | ⟨0, _⟩ => rfl
  show wrapWord (p _) = _
  exact congrArg (fun k => wrapWord (p k)) e

/-- The wrapped position at row k, read signed: position k modulo 4096. -/
theorem wrapIdx_toInt (p : IVec S4096 32) (hp : ∀ i : S4096.Idx, (-4096 : Int) ≤ (p i).toInt ∧ (p i).toInt < 4096)
    (i : S4096x1.Idx) :
    (wrapIdx p i).toInt
      = if (p (ValueIdx.ix1 (i 0))).toInt < 0 then (p (ValueIdx.ix1 (i 0))).toInt + 4096 else (p (ValueIdx.ix1 (i 0))).toInt := by
  rw [wrapIdx_apply, wrapWord_toInt _ (hp _).1 (hp _).2]

/-- With every position in [-4096, 4096) the range test passes at every position. -/
theorem inRange_wrapIdx (p : IVec S4096 32) (hp : ∀ i : S4096.Idx, (-4096 : Int) ≤ (p i).toInt ∧ (p i).toInt < 4096)
    (k : S4096.Idx) : inRange (wrapIdx p) k = 1#1 := by
  unfold inRange
  refine reduce_andi_of_all _ _ _ _ rfl (fun i => ?_) k
  have hr := wrapWord_range (p (ValueIdx.ix1 (i 0))) (hp _).1 (hp _).2
  rw [← wrapIdx_apply p i] at hr
  have z0 : (0#32 : BitVec 32).toInt = 0 := by decide
  have z1 : (4095#32 : BitVec 32).toInt = 4095 := by decide
  show IntOp.andi (IntOp.cmpi .sge (wrapIdx p i) 0#32) (IntOp.cmpi .sle (wrapIdx p i) 4095#32) = 1#1
  exact IntOp.andi_eq_one.2 ⟨IntOp.cmpi_sge.2 (by rw [z0]; exact hr.1), IntOp.cmpi_sle.2 (by rw [z1]; exact hr.2)⟩

/-- In range the take is the plain gather at the wrapped positions: the fill is never chosen. -/
theorem take_eq_gather (x : FVec F S4x2048x4096 .f32) (p : IVec S4096 32)
    (hp : ∀ i : S4096.Idx, (-4096 : Int) ≤ (p i).toInt ∧ (p i).toInt < 4096) :
    takeTerm x p = Host.gather gather_S4x2048x4096_S4096x1_S4x2048x4096_01_2_n_n_2_1_420481 x (wrapIdx p) := by
  funext j
  unfold takeTerm
  rw [ValueIdx.select_apply]
  have hm : broadcastInDim S4x2048x4096 ![2] Facts₀.bcast_S4096_S4x2048x4096_2 (inRange (wrapIdx p)) j = 1#1 :=
    inRange_wrapIdx p hp _
  rw [hm, ValueIdx.select_one]

end Cert.KernelIdeal.Hand

end
-- ==== Proof.KI.KVal.lean ====
/-
  The kernel program's result as one function of its arguments, on the extended reals: the gathered activations (in range, the
  mask keeps every gathered value), flattened to 8192 rows, times the dequantized weights, plus bias, unflattened.

  Read backwards from the result buffer: it is the unflattening of the product call's result array, whose entry (r, o) is
  the sum over i of xflat[r, i] · w[o, i] plus bias[o], of the arrays that call found; xflat is the flattening of the take of x at the
  permutation, which in range is the plain gather at the wrapped positions, and the gather at (b, s, i) reads x at column
  "wrapped position i, clamped into [0, 4095]", which is the specification's column; w is what the dequantization call left, the
  specification's weights of the arguments as launched; the bias is the argument as launched.
-/
import proofs.«409815_j9423158247731_1_alg».proof.Proof.KI.Run
import proofs.«409815_j9423158247731_1_alg».proof.Proof.KI.Val0
import proofs.«409815_j9423158247731_1_alg».proof.Proof.KI.Val1
import proofs.«409815_j9423158247731_1_alg».proof.Proof.PreDecode
import proofs.«409815_j9423158247731_1_alg».proof.Proof.Spec
import proofs.«409815_j9423158247731_1_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts

/-! ## The gather at an index, and the specification's column -/

/-- The gather along the last axis, read at (b, s, i): axes 0 and 1 are offset axes (the slice is whole there, its start 0), axis 2
    is collapsed (slice size 1) and its start is entry (i, 0) of the index column, read signed and clamped into [0, 4096 − 1]. -/
theorem gather_apply {α : Type} (x : S4x2048x4096.Idx → α) (idx : IVec S4096x1 32) (b : Fin 4) (s : Fin 2048) (i : Fin 4096) :
    Host.gather gather_S4x2048x4096_S4096x1_S4x2048x4096_01_2_n_n_2_1_420481 x idx (ix3 b s i)
      = x (ix3 b s ⟨min (idx (ix2 i (0 : Fin 1))).toInt.toNat 4095, by omega⟩) := by
  unfold Host.gather
  refine congrArg x (funext fun a => Fin.ext ?_)
  show GatherDims.start _ (ix3 b s i) idx a + GatherDims.batchCoord _ (ix3 b s i) a + GatherDims.offCoord _ (ix3 b s i) a = _
  rw [GatherDims.batchCoord_eq_zero _ _ _ List.not_mem_nil, Nat.add_zero]
  have h0 : GatherDims.start gather_S4x2048x4096_S4096x1_S4x2048x4096_01_2_n_n_2_1_420481 (ix3 b s i) idx (0 : Fin 3)
      + GatherDims.offCoord gather_S4x2048x4096_S4096x1_S4x2048x4096_01_2_n_n_2_1_420481 (ix3 b s i) (0 : Fin 3) = b.val := by
    unfold GatherDims.start GatherDims.offCoord
    rw [dif_neg (by decide), dif_pos (by decide), Nat.zero_add]
    rfl
  have h1 : GatherDims.start gather_S4x2048x4096_S4096x1_S4x2048x4096_01_2_n_n_2_1_420481 (ix3 b s i) idx (1 : Fin 3)
      + GatherDims.offCoord gather_S4x2048x4096_S4096x1_S4x2048x4096_01_2_n_n_2_1_420481 (ix3 b s i) (1 : Fin 3) = s.val := by
    unfold GatherDims.start GatherDims.offCoord
    rw [dif_neg (by decide), dif_pos (by decide), Nat.zero_add]
    rfl
  have h2 : GatherDims.start gather_S4x2048x4096_S4096x1_S4x2048x4096_01_2_n_n_2_1_420481 (ix3 b s i) idx (2 : Fin 3)
      + GatherDims.offCoord gather_S4x2048x4096_S4096x1_S4x2048x4096_01_2_n_n_2_1_420481 (ix3 b s i) (2 : Fin 3)
      = min (idx (ix2 i (0 : Fin 1))).toInt.toNat 4095 := by
    unfold GatherDims.start GatherDims.offCoord
    rw [dif_pos (by decide), dif_neg (by decide)]
    have hsi : GatherDims.siIdx gather_S4x2048x4096_S4096x1_S4x2048x4096_01_2_n_n_2_1_420481 (ix3 b s i)
        ⟨List.idxOf (2 : Fin 3) gather_S4x2048x4096_S4096x1_S4x2048x4096_01_2_n_n_2_1_420481.startIndexMap,
          List.idxOf_lt_length_iff.2 (by decide)⟩ = ix2 i (0 : Fin 1) := by
      funext a'
      refine Fin.ext ?_
      match a' with
      | ⟨0, _⟩ => rfl
      | ⟨1, _⟩ => rfl
    rw [hsi]
    rfl
  match a with
  | ⟨0, _⟩ => exact h0
  | ⟨1, _⟩ => exact h1
  | ⟨2, _⟩ => exact h2

/-- A word is signed-below zero exactly when its signed reading is negative. -/
theorem slt_zero (w : BitVec 32) : IntOp.cmpi .slt w 0#32 = 1#1 ↔ w.toInt < 0 := by
  have h := IntOp.cmpi_slt (x := w) (y := 0#32)
  rwa [show (0#32 : BitVec 32).toInt = 0 from by decide] at h

/-- The specification's column is the clamped signed reading of the wrapped position: both add 4096 to a negative position, both
    clamp into [0, 4095]. -/
theorem col_eq (p : IVec S4096 32) (i : Fin 4096) :
    (⟨min (wrapIdx p (ix2 i (0 : Fin 1))).toInt.toNat 4095, by omega⟩ : Fin 4096) = Cert.Hand.Spec.col p i := by
  refine Fin.ext ?_
  show min (wrapIdx p (ix2 i (0 : Fin 1))).toInt.toNat 4095 = (Cert.Hand.Spec.col p i).val
  rw [wrapIdx_apply]
  show min (wrapWord (p (ix1 i))).toInt.toNat 4095 = (Cert.Hand.Spec.col p i).val
  unfold Cert.Hand.Spec.col wrapWord
  show min _ 4095 = min _ 4095
  congr 2
  by_cases h : (p (ix1 i)).toInt < 0
  · rw [if_pos h, (slt_zero _).2 h, select_one]; rfl
  · rw [if_neg h, eq_zero_of_ne_one (fun e => h ((slt_zero _).1 e)), select_zero]

/-! ## The buffers between the stretches -/

variable (m : (ℓ : Loc nD τ sig) → Buf (Elt Ideal) ℓ)

/-- The result buffer is the unflattening of the product call's result array. -/
theorem W5_v4 (c : Dev nD) :
    (W5 (F := Ideal) m c (Proc.devRef .tc main_v4) : FVec Ideal S4x2048x4096 .f32)
      = shapeCast S4x2048x4096 (W4 (F := Ideal) m c (Proc.devRef .tc main_v3) : FVec Ideal S8192x4096 .f32) Gen.shapeCasts_S8192x4096_S4x2048x4096 := by
  show StableHlo.after hostOps2 _ (Proc.devRef .tc main_v4) = _
  after_results
  rfl

/-- The product call's activations are the flattening of the take's result. -/
theorem W3_v2 (c : Dev nD) :
    (W3 (F := Ideal) m c (Proc.devRef .tc main_v2) : FVec Ideal S8192x4096 .f32)
      = shapeCast S8192x4096 (W2 (F := Ideal) m c (Proc.devRef .tc main_v0) : FVec Ideal S4x2048x4096 .f32) Gen.shapeCasts_S4x2048x4096_S8192x4096 := by
  show StableHlo.after hostOps1 _ (Proc.devRef .tc main_v2) = _
  after_results
  rfl

/-- The flattening writes only its own result. -/
theorem W3_of (c : Dev nD) (r : Ref sig .tc) (h : r ∉ hostOps1_W) :
    W3 (F := Ideal) m c (Proc.devRef .tc r) = W2 (F := Ideal) m c (Proc.devRef .tc r) :=
  StableHlo.after_of_writes_sub hostOps1 _ hostOps1_writes h

/-- The take's stretch leaves every buffer it does not write as launched. -/
theorem W1_of (c : Dev nD) (r : Ref sig .tc) (h : r ∉ hostOps0_W) :
    W1 (F := Ideal) m c (Proc.devRef .tc r) = m ((c.tc : Thread nD τ).loc r) :=
  StableHlo.after_of_writes_sub hostOps0 _ hostOps0_writes h

/-- The product call's result array (its fourth window's) after the call. -/
theorem W4_v3 (c : Dev nD) :
    W4 (F := Ideal) m c (Proc.devRef .tc main_v3) = (dat1 (V3 m) c).arrAt 3 cfg1.N := W4_arr m c 3

/-- The dequantization call's weight array (its fourth window's) after the call. -/
theorem W2_v1 (c : Dev nD) :
    W2 (F := Ideal) m c (Proc.devRef .tc main_v1) = (dat0 (V1 m) c).arrAt 3 cfg0.N := W2_arr m c 3

/-- The dequantization call leaves the take's result alone … -/
theorem W2_v0 (c : Dev nD) :
    W2 (F := Ideal) m c (Proc.devRef .tc main_v0) = W1 (F := Ideal) m c (Proc.devRef .tc main_v0) :=
  W2_of_ne m c main_v0 (by decide)

/-- … and the bias. -/
theorem W2_arg4 (c : Dev nD) :
    W2 (F := Ideal) m c (Proc.devRef .tc main_arg4) = W1 (F := Ideal) m c (Proc.devRef .tc main_arg4) :=
  W2_of_ne m c main_arg4 (by decide)

/-! ## The two reshapes at an index -/

/-- Unflattening: entry (b, s, o) of the result is entry (2048 b + s, o) of the flat array. -/
theorem unflatten_apply {α : Type} (y : S8192x4096.Idx → α) (b : Fin 4) (s : Fin 2048) (o : Fin 4096) :
    shapeCast S4x2048x4096 y Gen.shapeCasts_S8192x4096_S4x2048x4096 (ix3 b s o)
      = y (ix2 (⟨2048 * b.val + s.val, by omega⟩ : Fin 8192) o) :=
  shapeCast_apply y _ (ix3 b s o) (ix2 (⟨2048 * b.val + s.val, by omega⟩ : Fin 8192) o) (by
    rw [Shape.rowMajor_val_two, Shape.rowMajor_val_three]
    show (2048 * b.val + s.val) * 4096 + o.val = (b.val * 2048 + s.val) * 4096 + o.val
    omega)

/-- Flattening: entry (2048 b + s, i) of the flat array is entry (b, s, i) of the operand. -/
theorem flatten_apply {α : Type} (x : S4x2048x4096.Idx → α) (b : Fin 4) (s : Fin 2048) (i : Fin 4096) :
    shapeCast S8192x4096 x Gen.shapeCasts_S4x2048x4096_S8192x4096 (ix2 (⟨2048 * b.val + s.val, by omega⟩ : Fin 8192) i)
      = x (ix3 b s i) :=
  shapeCast_apply x _ (ix2 (⟨2048 * b.val + s.val, by omega⟩ : Fin 8192) i) (ix3 b s i) (by
    rw [Shape.rowMajor_val_two, Shape.rowMajor_val_three]
    show (b.val * 2048 + s.val) * 4096 + i.val = (2048 * b.val + s.val) * 4096 + i.val
    omega)

/-! ## The arrays the matrix product finds -/

/-- The arguments at their literal types. -/
abbrev a0 (c : Dev nD) : FVec Ideal S4x2048x4096 .f32 := m ((c.tc : Thread nD τ).loc main_arg0)
abbrev a1 (c : Dev nD) : IVec S4096x2048 32 := m ((c.tc : Thread nD τ).loc main_arg1)
abbrev a2 (c : Dev nD) : FVec Ideal S4096x32 .f32 := m ((c.tc : Thread nD τ).loc main_arg2)
abbrev a3 (c : Dev nD) : FVec Ideal S4096x32 .f32 := m ((c.tc : Thread nD τ).loc main_arg3)
abbrev a4 (c : Dev nD) : FVec Ideal S4096 .f32 := m ((c.tc : Thread nD τ).loc main_arg4)
abbrev a5 (c : Dev nD) : IVec S4096 32 := m ((c.tc : Thread nD τ).loc main_arg5)

/-- The activations the product finds: the gathered argument, flattened. -/
theorem xarr_eq (c : Dev nD) (hp : ∀ i : S4096.Idx, (-4096 : Int) ≤ (a5 m c i).toInt ∧ (a5 m c i).toInt < 4096) :
    xarr (V3 (F := Ideal) m) c
      = shapeCast S8192x4096 (Host.gather gather_S4x2048x4096_S4096x1_S4x2048x4096_01_2_n_n_2_1_420481 (a0 m c) (wrapIdx (a5 m c)))
          Gen.shapeCasts_S4x2048x4096_S8192x4096 := by
  show W3 (F := Ideal) m c (Proc.devRef .tc main_v2) = _
  rw [W3_v2, W2_v0]
  show shapeCast S8192x4096 (StableHlo.after hostOps0 (W0 m c) (Proc.devRef .tc main_v0) : FVec Ideal S4x2048x4096 .f32) _ = _
  rw [hostOps0_v0]
  exact congrArg (fun z => shapeCast S8192x4096 z Gen.shapeCasts_S4x2048x4096_S8192x4096) (take_eq_gather (a0 m c) (a5 m c) hp)

/-- The weights the product finds: the dequantized weights of the arguments. -/
theorem warr_eq (c : Dev nD) :
    warr (V3 (F := Ideal) m) c
      = fun j : S4096x4096.Idx => Cert.Hand.Spec.wq (a1 m c) (a2 m c) (a3 m c) (j 0) (j 1) := by
  show W3 (F := Ideal) m c (Proc.devRef .tc main_v1) = _
  rw [W3_of m c main_v1 (by decide), W2_v1, deq_arr]
  show (fun j : S4096x4096.Idx => Cert.Hand.Spec.wq (W1 (F := Ideal) m c (Proc.devRef .tc main_arg1))
      (W1 (F := Ideal) m c (Proc.devRef .tc main_arg2)) (W1 (F := Ideal) m c (Proc.devRef .tc main_arg3)) (j 0) (j 1)) = _
  rw [W1_of m c main_arg1 (by decide), W1_of m c main_arg2 (by decide), W1_of m c main_arg3 (by decide)]

/-- The bias the product finds: the argument. -/
theorem barr_eq (c : Dev nD) : barr (V3 (F := Ideal) m) c = a4 m c := by
  show W3 (F := Ideal) m c (Proc.devRef .tc main_arg4) = _
  rw [W3_of m c main_arg4 (by decide), W2_arg4, W1_of m c main_arg4 (by decide)]

/-- With every permutation index in [-4096, 4096), the result buffer ends at the specification's array of the arguments. -/
theorem result_eq (c : Dev nD)
    (hp : ∀ i : S4096.Idx, (-4096 : Int) ≤ (m ((c.tc : Thread nD τ).loc main_arg5) i).toInt ∧ (m ((c.tc : Thread nD τ).loc main_arg5) i).toInt < 4096) :
    W5 (F := Ideal) m c (Proc.devRef .tc main_v4)
      = Cert.Hand.Spec.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext j
  obtain ⟨b, s, o, rfl⟩ : ∃ b s o, j = ix3 b s o := ⟨j 0, j 1, j 2, eq_ix3 j⟩
  refine (congrFun (W5_v4 m c) (ix3 b s o)).trans ?_
  refine (unflatten_apply _ b s o).trans ?_
  rw [W4_v3, mm_arr]
  show (∑ i : Fin 4096, xarr (V3 (F := Ideal) m) c (ix2 (⟨2048 * b.val + s.val, by omega⟩ : Fin 8192) i) * warr (V3 (F := Ideal) m) c (ix2 o i))
      + barr (V3 (F := Ideal) m) c (ix1 o)
    = (∑ i : Fin 4096, a0 m c (ix3 b s (Cert.Hand.Spec.col (a5 m c) i)) * Cert.Hand.Spec.wq (a1 m c) (a2 m c) (a3 m c) o i) + a4 m c (ix1 o)
  rw [xarr_eq m c hp, warr_eq, barr_eq]
  refine congrArg (· + a4 m c (ix1 o)) (Finset.sum_congr rfl fun i _ => ?_)
  rw [flatten_apply, gather_apply, col_eq]

end Cert.KernelIdeal.Hand

end
-- ==== Proof.Ref.Run.lean ====
/-
  The reference's run. @main of the reference is a straight line of host operations once the functions it
  calls are read at their call sites: the floored quotient by 16 (a truncated quotient, corrected by one where the
  signs differ and the remainder is not zero), the floored remainder by 16 (a truncated remainder, shifted by the
  divisor where its sign differs from the divisor's), and the two selects they call. The composed value of the line
  is stated in stages:

    hiNib q        the floored quotient of every packed word by 16
    loNib q        the floored remainder of every packed word by 16
    wDeq q s z     the [4096, 4096] weight: the two nibble planes side by side, as floats, in 32 groups of 128
                   columns per row, group (r, g) mapped to s[r, g] * (n - z[r, g])
    permIdx p      the column permutation with negative entries wrapped by 4096, as a [4096, 1] index table
    xPerm x p      x with its last axis read through that table
    refOut …       xPerm · wDeqᵀ contracted over the last axis of both, plus the bias along the last axis

  and the run theorem says: every weakly fair execution terminates with the result buffer at `refOut` of the six
  arguments' launch contents and the six arguments unchanged.
-/
import proofs.«409815_j9423158247731_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The value, in stages -/

/-- The floored quotient of every packed word by 16: the quotient truncated toward zero, less one where the word's
    sign differs from the divisor's and the truncated remainder is not zero. -/
def hiNib (q : IVec S4096x2048 32) : IVec S4096x2048 32 :=
  select
    (andi
      (cmpi .ne (signi q) (broadcastInDim S4096x2048 ![] bcast_S_S4096x2048 (signi (id (constantI S_ 32 16#32)))))
      (cmpi .ne (Host.remsi q (broadcastInDim S4096x2048 ![] bcast_S_S4096x2048 (id (constantI S_ 32 16#32))))
        (broadcastInDim S4096x2048 ![] bcast_S_S4096x2048 (constantI S_ 32 0#32))))
    (subi (Host.divsi q (broadcastInDim S4096x2048 ![] bcast_S_S4096x2048 (id (constantI S_ 32 16#32))))
      (broadcastInDim S4096x2048 ![] bcast_S_S4096x2048 (constantI S_ 32 1#32)))
    (Host.divsi q (broadcastInDim S4096x2048 ![] bcast_S_S4096x2048 (id (constantI S_ 32 16#32))))

/-- The floored remainder of every packed word by 16: the truncated remainder by the divisor (1 were the divisor
    zero), plus the divisor where the remainder is not zero and its sign differs from the divisor's. -/
def loNib (q : IVec S4096x2048 32) : IVec S4096x2048 32 :=
  select
    (andi
      (cmpi .ne
        (cmpi .slt
          (Host.remsi q (broadcastInDim S4096x2048 ![] bcast_S_S4096x2048
            (select (cmpi .eq (id (constantI S_ 32 16#32)) (constantI S_ 32 0#32)) (constantI S_ 32 1#32)
              (id (constantI S_ 32 16#32)))))
          (broadcastInDim S4096x2048 ![] bcast_S_S4096x2048 (constantI S_ 32 0#32)))
        (broadcastInDim S4096x2048 ![] bcast_S_S4096x2048
          (cmpi .slt
            (select (cmpi .eq (id (constantI S_ 32 16#32)) (constantI S_ 32 0#32)) (constantI S_ 32 1#32)
              (id (constantI S_ 32 16#32)))
            (constantI S_ 32 0#32))))
      (cmpi .ne
        (Host.remsi q (broadcastInDim S4096x2048 ![] bcast_S_S4096x2048
          (select (cmpi .eq (id (constantI S_ 32 16#32)) (constantI S_ 32 0#32)) (constantI S_ 32 1#32)
            (id (constantI S_ 32 16#32)))))
        (broadcastInDim S4096x2048 ![] bcast_S_S4096x2048 (constantI S_ 32 0#32))))
    (addi
      (Host.remsi q (broadcastInDim S4096x2048 ![] bcast_S_S4096x2048
        (select (cmpi .eq (id (constantI S_ 32 16#32)) (constantI S_ 32 0#32)) (constantI S_ 32 1#32)
          (id (constantI S_ 32 16#32)))))
      (broadcastInDim S4096x2048 ![] bcast_S_S4096x2048
        (select (cmpi .eq (id (constantI S_ 32 16#32)) (constantI S_ 32 0#32)) (constantI S_ 32 1#32)
          (id (constantI S_ 32 16#32)))))
    (Host.remsi q (broadcastInDim S4096x2048 ![] bcast_S_S4096x2048
      (select (cmpi .eq (id (constantI S_ 32 16#32)) (constantI S_ 32 0#32)) (constantI S_ 32 1#32)
        (id (constantI S_ 32 16#32)))))

/-- The dequantized weight, [4096, 4096]: row r is the 2048 quotients then the 2048 remainders of row r of the packed
    array, as floats; read in 32 groups of 128, entry (r, g, l) is `scale[r, g] * (n[r, g, l] - zero[r, g])`. -/
def wDeq (q : IVec S4096x2048 32) (scale zero : FVec F S4096x32 .f32) : FVec F S4096x4096 .f32 :=
  shapeCast S4096x4096
    (mulf
      (broadcastInDim S4096x32x128 ![0, 1, 2] bcast_S4096x32x1_S4096x32x128_0_1_2
        (broadcastInDim S4096x32x1 ![0, 1] bcast_S4096x32_S4096x32x1_0_1 scale))
      (subf
        (shapeCast S4096x32x128
          (sitofp .f32
            (concatenate S4096x4096 1 [⟨S4096x2048, hiNib q⟩, ⟨S4096x2048, loNib q⟩]
              concatenates_S4096x2048_S4096x2048_S4096x4096_d1))
          shapeCasts_S4096x4096_S4096x32x128)
        (broadcastInDim S4096x32x128 ![0, 1, 2] bcast_S4096x32x1_S4096x32x128_0_1_2
          (broadcastInDim S4096x32x1 ![0, 1] bcast_S4096x32_S4096x32x1_0_1 zero))))
    shapeCasts_S4096x32x128_S4096x4096

/-- The permutation as the gather's index table, [4096, 1]: a negative entry wrapped by 4096. -/
def permIdx (p : IVec S4096 32) : IVec S4096x1 32 :=
  broadcastInDim S4096x1 ![0] bcast_S4096_S4096x1_0
    (select (cmpi .slt p (broadcastInDim S4096 ![] bcast_S_S4096 (constantI S_ 32 0#32)))
      (addi p (broadcastInDim S4096 ![] bcast_S_S4096 (constantI S_ 32 4096#32)))
      p)

/-- `x` with its last axis read through the wrapped permutation. -/
def xPerm (x : FVec F S4x2048x4096 .f32) (p : IVec S4096 32) : FVec F S4x2048x4096 .f32 :=
  Host.gather gather_S4x2048x4096_S4096x1_S4x2048x4096_01_2_n_n_2_1_420481 x (permIdx p)

/-- The reference's value: the permuted `x` against the dequantized weight, contracted over the last axis of both,
    plus the bias along the last axis. -/
def refOut (x : FVec F S4x2048x4096 .f32) (q : IVec S4096x2048 32) (scale zero : FVec F S4096x32 .f32)
    (bias : FVec F S4096 .f32) (p : IVec S4096 32) : FVec F S4x2048x4096 .f32 :=
  addf
    (Host.dotGeneral dot_S4x2048x4096_S4096x4096_S4x2048x4096_2_1_01_0_n_n none (xPerm x p) (wDeq q scale zero))
    (broadcastInDim S4x2048x4096 ![0, 1, 2] bcast_S1x1x4096_S4x2048x4096_0_1_2
      (broadcastInDim S1x1x4096 ![2] bcast_S4096_S1x1x4096_2 bias))

/-! ## @main as a list of operations

The two calls are read at their call sites: `floor_divide`'s sixteen operations and the select it calls, over the
buffers of record `main_call0`; `remainder`'s twenty and the scalar select it calls, over those of `main_call1`.
The 63 operations are listed in five stretches, one per stage of the value; per stretch: the references it writes,
that it touches TensorCore references only, that every operation determines its result, and that a reference it
does not write keeps its contents through it. -/

/-- The scalar 16 and the floored quotient of %arg1 by it (`floor_divide` and the select it calls, over record
    `main_call0`): 18 operations, the last writes `main_v0`. -/
abbrev opsHi : List (HloOp τ sig (Elt F)) :=
  [ nullary main_c (constantI S_ 32 16#32),
    TRef.unary (.of main_c : TRef sig ⟨S_, .i32⟩) main_call0.v0 id,
    TRef.unary main_call0.v0 main_call0.v1 (broadcastInDim S4096x2048 ![] bcast_S_S4096x2048),
    TRef.binary (.of main_arg1 : TRef sig ⟨S4096x2048, .i32⟩) main_call0.v1 main_call0.v2 Host.divsi,
    TRef.unary (.of main_arg1 : TRef sig ⟨S4096x2048, .i32⟩) main_call0.v3 signi,
    TRef.unary main_call0.v0 main_call0.v4 signi,
    TRef.unary main_call0.v4 main_call0.v5 (broadcastInDim S4096x2048 ![] bcast_S_S4096x2048),
    TRef.binary main_call0.v3 main_call0.v5 main_call0.v6 (cmpi .ne),
    TRef.unary main_call0.v0 main_call0.v7 (broadcastInDim S4096x2048 ![] bcast_S_S4096x2048),
    TRef.binary (.of main_arg1 : TRef sig ⟨S4096x2048, .i32⟩) main_call0.v7 main_call0.v8 Host.remsi,
    TRef.nullary main_call0.c (constantI S_ 32 0#32),
    TRef.unary main_call0.c main_call0.v9 (broadcastInDim S4096x2048 ![] bcast_S_S4096x2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096x2048 ![] bcast_S_S4096x2048),
    TRef.binary main_call0.v2 main_call0.v12 main_call0.v13 subi,
    TRef.ternary main_call0.v11 main_call0.v13 main_call0.v2 main_call0.call0.v0 select ]

abbrev opsHi_W : List (Ref sig .tc) := [main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0]
theorem opsHi_sub : (opsHi : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..⟩
theorem opsHi_fresh : ∀ op ∈ (opsHi : List (HloOp τ sig (Elt F))), op.fresh = ∅ := by
  intro _ h; (repeat (cases h with | head => rfl | tail _ h => ?_)); exact nomatch h
theorem opsHi_writes : (opsHi : List (HloOp τ sig (Elt F))).Forall fun op => op.writes ⊆ (opsHi_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsHi_keep (V : Valuation τ sig (Elt F)) (r : Ref sig .tc) (h : r ∉ opsHi_W) :
    after opsHi V (Proc.devRef .tc r) = V (Proc.devRef .tc r) :=
  after_of_writes_sub opsHi V opsHi_writes h

/-- The scalar 16 again and the floored remainder of %arg1 by it (`remainder` and the scalar select it calls, over
    record `main_call1`): 22 operations, the last writes `main_v1`. -/
abbrev opsLo : List (HloOp τ sig (Elt F)) :=
  [ nullary main_c_0 (constantI S_ 32 16#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S4096x2048 ![] bcast_S_S4096x2048),
    TRef.binary (.of main_arg1 : TRef sig ⟨S4096x2048, .i32⟩) main_call1.v3 main_call1.v4 Host.remsi,
    TRef.nullary main_call1.c_1 (constantI S_ 32 0#32),
    TRef.unary main_call1.c_1 main_call1.v5 (broadcastInDim S4096x2048 ![] bcast_S_S4096x2048),
    TRef.binary main_call1.v4 main_call1.v5 main_call1.v6 (cmpi .ne),
    TRef.nullary main_call1.c_2 (constantI S_ 32 0#32),
    TRef.unary main_call1.c_2 main_call1.v7 (broadcastInDim S4096x2048 ![] bcast_S_S4096x2048),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S4096x2048 ![] bcast_S_S4096x2048),
    TRef.binary main_call1.v8 main_call1.v10 main_call1.v11 (cmpi .ne),
    TRef.binary main_call1.v11 main_call1.v6 main_call1.v12 andi,
    TRef.unary main_call1.call0.v0 main_call1.v13 (broadcastInDim S4096x2048 ![] bcast_S_S4096x2048),
    TRef.binary main_call1.v4 main_call1.v13 main_call1.v14 addi,
    TRef.ternary main_call1.v12 main_call1.v14 main_call1.v4 main_call1.v15 select ]

abbrev opsLo_W : List (Ref sig .tc) := [main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v1]
theorem opsLo_sub : (opsLo : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩
theorem opsLo_fresh : ∀ op ∈ (opsLo : List (HloOp τ sig (Elt F))), op.fresh = ∅ := by
  intro _ h; (repeat (cases h with | head => rfl | tail _ h => ?_)); exact nomatch h
theorem opsLo_writes : (opsLo : List (HloOp τ sig (Elt F))).Forall fun op => op.writes ⊆ (opsLo_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsLo_keep (V : Valuation τ sig (Elt F)) (r : Ref sig .tc) (h : r ∉ opsLo_W) :
    after opsLo V (Proc.devRef .tc r) = V (Proc.devRef .tc r) :=
  after_of_writes_sub opsLo V opsLo_writes h

/-- The weight: the two planes side by side, converted, regrouped, shifted by the zero points and scaled, flattened:
    10 operations, the last writes `main_v11`. -/
abbrev opsW : List (HloOp τ sig (Elt F)) :=
  [ binary main_v0 main_v1 main_v2 ((fun a b => concatenate S4096x4096 1 [⟨S4096x2048, a⟩, ⟨S4096x2048, b⟩] concatenates_S4096x2048_S4096x2048_S4096x4096_d1) : (⟨S4096x2048, .i32⟩ : BufTy).Contents (Elt F) → (⟨S4096x2048, .i32⟩ : BufTy).Contents (Elt F) → (⟨S4096x4096, .i32⟩ : BufTy).Contents (Elt F)),
    unary main_v2 main_v3 (sitofp .f32 : (⟨S4096x4096, .i32⟩ : BufTy).Contents (Elt F) → (⟨S4096x4096, .f32⟩ : BufTy).Contents (Elt F)),
    reshape main_v3 main_v4 rfl shapeCasts_S4096x4096_S4096x32x128,
    unary main_arg2 main_v5 (broadcastInDim S4096x32x1 ![0, 1] bcast_S4096x32_S4096x32x1_0_1 : (⟨S4096x32, .f32⟩ : BufTy).Contents (Elt F) → (⟨S4096x32x1, .f32⟩ : BufTy).Contents (Elt F)),
    unary main_arg3 main_v6 (broadcastInDim S4096x32x1 ![0, 1] bcast_S4096x32_S4096x32x1_0_1 : (⟨S4096x32, .f32⟩ : BufTy).Contents (Elt F) → (⟨S4096x32x1, .f32⟩ : BufTy).Contents (Elt F)),
    unary main_v6 main_v7 (broadcastInDim S4096x32x128 ![0, 1, 2] bcast_S4096x32x1_S4096x32x128_0_1_2 : (⟨S4096x32x1, .f32⟩ : BufTy).Contents (Elt F) → (⟨S4096x32x128, .f32⟩ : BufTy).Contents (Elt F)),
    binary main_v4 main_v7 main_v8 (subf : (⟨S4096x32x128, .f32⟩ : BufTy).Contents (Elt F) → (⟨S4096x32x128, .f32⟩ : BufTy).Contents (Elt F) → (⟨S4096x32x128, .f32⟩ : BufTy).Contents (Elt F)),
    unary main_v5 main_v9 (broadcastInDim S4096x32x128 ![0, 1, 2] bcast_S4096x32x1_S4096x32x128_0_1_2 : (⟨S4096x32x1, .f32⟩ : BufTy).Contents (Elt F) → (⟨S4096x32x128, .f32⟩ : BufTy).Contents (Elt F)),
    binary main_v9 main_v8 main_v10 (mulf : (⟨S4096x32x128, .f32⟩ : BufTy).Contents (Elt F) → (⟨S4096x32x128, .f32⟩ : BufTy).Contents (Elt F) → (⟨S4096x32x128, .f32⟩ : BufTy).Contents (Elt F)),
    reshape main_v10 main_v11 rfl shapeCasts_S4096x32x128_S4096x4096 ]

abbrev opsW_W : List (Ref sig .tc) := [main_v2, main_v3, main_v4, main_v5, main_v6, main_v7, main_v8, main_v9, main_v10, main_v11]
theorem opsW_sub : (opsW : List (HloOp τ sig (Elt F))).Forall fun op => op.bufs ⊆ tcRefs τ sig :=
  ⟨binary_bufs_sub .., unary_bufs_sub .., reshape_bufs_sub .., unary_bufs_sub .., unary_bufs_sub .., unary_bufs_sub ..,
    binary_bufs_sub .., unary_bufs_sub .., binary_bufs_sub .., reshape_bufs_sub ..⟩
theorem opsW_fresh : ∀ op ∈ (opsW : List (HloOp τ sig (Elt F))), op.fresh = ∅ := by
  intro _ h; (repeat (cases h with | head => rfl | tail _ h => ?_)); exact nomatch h
theorem opsW_writes : (opsW : List (HloOp τ sig (Elt F))).Forall fun op => op.writes ⊆ (opsW_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsW_keep (V : Valuation τ sig (Elt F)) (r : Ref sig .tc) (h : r ∉ opsW_W) :
    after opsW V (Proc.devRef .tc r) = V (Proc.devRef .tc r) :=
  after_of_writes_sub opsW V opsW_writes h

/-- The permutation wrapped and `x` read through it: 9 operations, the last writes `main_v18`. -/
abbrev opsP : List (HloOp τ sig (Elt F)) :=
  [ nullary main_c_1 (constantI S_ 32 0#32),
    unary main_c_1 main_v12 (broadcastInDim S4096 ![] bcast_S_S4096 : (⟨S_, .i32⟩ : BufTy).Contents (Elt F) → (⟨S4096, .i32⟩ : BufTy).Contents (Elt F)),
    binary main_arg5 main_v12 main_v13 (cmpi .slt : (⟨S4096, .i32⟩ : BufTy).Contents (Elt F) → (⟨S4096, .i32⟩ : BufTy).Contents (Elt F) → (⟨S4096, .i1⟩ : BufTy).Contents (Elt F)),
    nullary main_c_2 (constantI S_ 32 4096#32),
    unary main_c_2 main_v14 (broadcastInDim S4096 ![] bcast_S_S4096 : (⟨S_, .i32⟩ : BufTy).Contents (Elt F) → (⟨S4096, .i32⟩ : BufTy).Contents (Elt F)),
    binary main_arg5 main_v14 main_v15 (addi : (⟨S4096, .i32⟩ : BufTy).Contents (Elt F) → (⟨S4096, .i32⟩ : BufTy).Contents (Elt F) → (⟨S4096, .i32⟩ : BufTy).Contents (Elt F)),
    ternary main_v13 main_v15 main_arg5 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v16 main_v17 (broadcastInDim S4096x1 ![0] bcast_S4096_S4096x1_0 : (⟨S4096, .i32⟩ : BufTy).Contents (Elt F) → (⟨S4096x1, .i32⟩ : BufTy).Contents (Elt F)),
    binary main_arg0 main_v17 main_v18 ((fun x i => Host.gather gather_S4x2048x4096_S4096x1_S4x2048x4096_01_2_n_n_2_1_420481 x i) : (⟨S4x2048x4096, .f32⟩ : BufTy).Contents (Elt F) → (⟨S4096x1, .i32⟩ : BufTy).Contents (Elt F) → (⟨S4x2048x4096, .f32⟩ : BufTy).Contents (Elt F)) ]

abbrev opsP_W : List (Ref sig .tc) := [main_c_1, main_v12, main_v13, main_c_2, main_v14, main_v15, main_v16, main_v17, main_v18]
theorem opsP_sub : (opsP : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩
theorem opsP_fresh : ∀ op ∈ (opsP : List (HloOp τ sig (Elt F))), op.fresh = ∅ := by
  intro _ h; (repeat (cases h with | head => rfl | tail _ h => ?_)); exact nomatch h
theorem opsP_writes : (opsP : List (HloOp τ sig (Elt F))).Forall fun op => op.writes ⊆ (opsP_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsP_keep (V : Valuation τ sig (Elt F)) (r : Ref sig .tc) (h : r ∉ opsP_W) :
    after opsP V (Proc.devRef .tc r) = V (Proc.devRef .tc r) :=
  after_of_writes_sub opsP V opsP_writes h

/-- The product and the bias: 4 operations, the last writes `main_v22`. -/
abbrev opsO : List (HloOp τ sig (Elt F)) :=
  [ binary main_v18 main_v11 main_v19 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg4 main_v20 (broadcastInDim S1x1x4096 ![2] bcast_S4096_S1x1x4096_2 : (⟨S4096, .f32⟩ : BufTy).Contents (Elt F) → (⟨S1x1x4096, .f32⟩ : BufTy).Contents (Elt F)),
    unary main_v20 main_v21 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v19 main_v21 main_v22 (addf : (⟨S4x2048x4096, .f32⟩ : BufTy).Contents (Elt F) → (⟨S4x2048x4096, .f32⟩ : BufTy).Contents (Elt F) → (⟨S4x2048x4096, .f32⟩ : BufTy).Contents (Elt F)) ]

abbrev opsO_W : List (Ref sig .tc) := [main_v19, main_v20, main_v21, main_v22]
theorem opsO_sub : (opsO : List (HloOp τ sig (Elt F))).Forall fun op => op.bufs ⊆ tcRefs τ sig :=
  ⟨binary_bufs_sub .., unary_bufs_sub .., unary_bufs_sub .., binary_bufs_sub ..⟩
theorem opsO_fresh : ∀ op ∈ (opsO : List (HloOp τ sig (Elt F))), op.fresh = ∅ := by
  intro _ h; (repeat (cases h with | head => rfl | tail _ h => ?_)); exact nomatch h
theorem opsO_writes : (opsO : List (HloOp τ sig (Elt F))).Forall fun op => op.writes ⊆ (opsO_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsO_keep (V : Valuation τ sig (Elt F)) (r : Ref sig .tc) (h : r ∉ opsO_W) :
    after opsO V (Proc.devRef .tc r) = V (Proc.devRef .tc r) :=
  after_of_writes_sub opsO V opsO_writes h

/-- @main's 63 operations, in order. -/
abbrev ops : List (HloOp τ sig (Elt F)) := opsHi ++ (opsLo ++ (opsW ++ (opsP ++ opsO)))

-- sixty-three binds re-associated: the rewrite under the chain recurses once per statement
set_option maxRecDepth 2048 in
/-- @main is that straight line: the called functions' definitions unfolded at their calls and the records at their fields,
    both sides are one chain of steps once sequencing is re-associated. -/
theorem main_eq (c : Dev nD) : main (F := F) c = seq ops := by
  simp only [main, fn_floor_divide.body, fn_where.body, fn_remainder.body, fn_where_0.body, ops, opsHi, opsLo, opsW, opsP,
    opsO, seq_append, seq, bind_assoc, pure_bind]

theorem ops_sub : (ops : List (HloOp τ sig (Elt F))).Forall fun op => op.bufs ⊆ tcRefs τ sig :=
  List.forall_iff_forall_mem.2 fun op h => by
    rcases List.mem_append.1 h with h | h
    · exact List.forall_iff_forall_mem.1 opsHi_sub op h
    rcases List.mem_append.1 h with h | h
    · exact List.forall_iff_forall_mem.1 opsLo_sub op h
    rcases List.mem_append.1 h with h | h
    · exact List.forall_iff_forall_mem.1 opsW_sub op h
    rcases List.mem_append.1 h with h | h
    · exact List.forall_iff_forall_mem.1 opsP_sub op h
    · exact List.forall_iff_forall_mem.1 opsO_sub op h

theorem ops_fresh : ∀ op ∈ (ops : List (HloOp τ sig (Elt F))), op.fresh = ∅ := fun op h => by
  rcases List.mem_append.1 h with h | h
  · exact opsHi_fresh op h
  rcases List.mem_append.1 h with h | h
  · exact opsLo_fresh op h
  rcases List.mem_append.1 h with h | h
  · exact opsW_fresh op h
  rcases List.mem_append.1 h with h | h
  · exact opsP_fresh op h
  · exact opsO_fresh op h

/-- The fold over the whole line is the fold over the five stretches in turn. -/
theorem after_ops (V : Valuation τ sig (Elt F)) :
    after ops V = after opsO (after opsP (after opsW (after opsLo (after opsHi V)))) := by
  simp only [ops, after_append]

/-- A reference none of the stretches writes keeps its contents through the line. -/
theorem ops_keep (V : Valuation τ sig (Elt F)) (r : Ref sig .tc) (h1 : r ∉ opsHi_W) (h2 : r ∉ opsLo_W) (h3 : r ∉ opsW_W)
    (h4 : r ∉ opsP_W) (h5 : r ∉ opsO_W) : after ops V (Proc.devRef .tc r) = V (Proc.devRef .tc r) := by
  rw [after_ops, opsO_keep _ r h5, opsP_keep _ r h4, opsW_keep _ r h3, opsLo_keep _ r h2, opsHi_keep _ r h1]

/-! ## The stretches' values -/

/-- The first stretch leaves the floored quotients in `main_v0`. -/
theorem hi_v0 (V : Valuation τ sig (Elt F)) :
    after opsHi V (Proc.devRef .tc main_v0) = hiNib (V (Proc.devRef .tc main_arg1)) := by
  after_results_simp
  rfl

/-- The second leaves the floored remainders in `main_v1`. -/
theorem lo_v1 (V : Valuation τ sig (Elt F)) :
    after opsLo V (Proc.devRef .tc main_v1) = loNib (V (Proc.devRef .tc main_arg1)) := by
  after_results_simp
  rfl

/-- The third leaves in `main_v11` the weight of the two planes it finds in `main_v0` and `main_v1`. -/
theorem w_v11 (V : Valuation τ sig (Elt F)) :
    after opsW V (Proc.devRef .tc main_v11)
      = (shapeCast S4096x4096
        (mulf
          (broadcastInDim S4096x32x128 ![0, 1, 2] bcast_S4096x32x1_S4096x32x128_0_1_2
            (broadcastInDim S4096x32x1 ![0, 1] bcast_S4096x32_S4096x32x1_0_1 (V (Proc.devRef .tc main_arg2))))
          (subf
            (shapeCast S4096x32x128
              (sitofp .f32
                (concatenate S4096x4096 1 [⟨S4096x2048, V (Proc.devRef .tc main_v0)⟩, ⟨S4096x2048, V (Proc.devRef .tc main_v1)⟩]
                  concatenates_S4096x2048_S4096x2048_S4096x4096_d1))
              shapeCasts_S4096x4096_S4096x32x128)
            (broadcastInDim S4096x32x128 ![0, 1, 2] bcast_S4096x32x1_S4096x32x128_0_1_2
              (broadcastInDim S4096x32x1 ![0, 1] bcast_S4096x32_S4096x32x1_0_1 (V (Proc.devRef .tc main_arg3))))))
        shapeCasts_S4096x32x128_S4096x4096 :
          FVec F S4096x4096 .f32) := by
  after_results
  rfl

/-- The fourth leaves the permuted `x` in `main_v18`. -/
theorem p_v18 (V : Valuation τ sig (Elt F)) :
    after opsP V (Proc.devRef .tc main_v18) = xPerm (V (Proc.devRef .tc main_arg0)) (V (Proc.devRef .tc main_arg5)) := by
  after_results_simp
  rfl

/-- The fifth leaves in `main_v22` the product of what it finds in `main_v18` and `main_v11`, plus the bias. -/
theorem o_v22 (V : Valuation τ sig (Elt F)) :
    after opsO V (Proc.devRef .tc main_v22)
      = (addf
          (Host.dotGeneral dot_S4x2048x4096_S4096x4096_S4x2048x4096_2_1_01_0_n_n none (V (Proc.devRef .tc main_v18))
            (V (Proc.devRef .tc main_v11)))
          (broadcastInDim S4x2048x4096 ![0, 1, 2] bcast_S1x1x4096_S4x2048x4096_0_1_2
            (broadcastInDim S1x1x4096 ![2] bcast_S4096_S1x1x4096_2 (V (Proc.devRef .tc main_arg4)))) :
          FVec F S4x2048x4096 .f32) := by
  after_results_simp

/-! ## The run -/

/-- The fold of the line at the result buffer is `refOut` of the fold's start at the six arguments. -/
theorem out_eq (V : Valuation τ sig (Elt F)) :
    after ops V (Proc.devRef .tc main_v22)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, o_v22, p_v18,
    opsP_keep _ main_v11 (by decide), opsP_keep _ main_arg4 (by decide),
    w_v11, opsW_keep _ main_arg0 (by decide), opsW_keep _ main_arg4 (by decide), opsW_keep _ main_arg5 (by decide),
    lo_v1, opsLo_keep _ main_v0 (by decide), opsLo_keep _ main_arg0 (by decide), opsLo_keep _ main_arg2 (by decide),
    opsLo_keep _ main_arg3 (by decide), opsLo_keep _ main_arg4 (by decide), opsLo_keep _ main_arg5 (by decide),
    hi_v0, opsHi_keep _ main_arg0 (by decide), opsHi_keep _ main_arg1 (by decide), opsHi_keep _ main_arg2 (by decide),
    opsHi_keep _ main_arg3 (by decide), opsHi_keep _ main_arg4 (by decide), opsHi_keep _ main_arg5 (by decide)]
  rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v22).trans (out_eq _),
      (h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide)),
      (h c main_arg4).trans (ops_keep _ main_arg4 (by decide) (by decide) (by decide) (by decide) (by decide)),
      (h c main_arg5).trans (ops_keep _ main_arg5 (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.IntLemmas.lean ====
/-
  Signed 32-bit words and the divisor 16.

  For a word x read as a two's-complement integer X, -2^31 ≤ X < 2^31:
    • the quotient rounded toward minus infinity, ⌊X / 16⌋, is the arithmetic shift of x
      right by four places;
    • the remainder with the sign of the (positive) divisor, X - 16·⌊X / 16⌋ ∈ [0, 16), is the low
      four bits of x, x AND 15.
  The left sides are spelled the way a program computes them from the division that rounds
  toward ZERO (quotient T = X tdiv 16, remainder R = X tmod 16, R of the sign of X):
    floor quotient  = T - 1  when sign X ≠ sign 16 and R ≠ 0,  else T;
    floor remainder = R + 16 when (R < 0) ≠ (16 < 0) and R ≠ 0, else R.
  Everything is first settled on integers (T and R against ⌊X/16⌋ and X mod 16), then carried to
  words through the signed reading, which is injective; no sum or difference met here leaves
  the 32-bit range (|T| ≤ 2^27, |R| < 16), so the wrapping of the word operations never acts.
  The vector statements are the word statements at every index, the constant vectors entering
  only through their value at each index.
-/
import Idealize.ShloMosaic.PureOps

namespace Cert.Hand.Int

open Idealize.ShloMosaic

/-! ## Integers: rounding toward zero against rounding down, divisor 16 -/

/-- T = ⌊X/16⌋ when X ≥ 0 or 16 ∣ X, and ⌊X/16⌋ + 1 otherwise (a negative X with a nonzero
    remainder is rounded up by the division toward zero). -/
theorem tdiv16 (X : Int) : X.tdiv 16 = if 0 ≤ X ∨ X % 16 = 0 then X / 16 else X / 16 + 1 := by
  rw [Int.tdiv_eq_ediv]
  split <;> split <;> simp_all <;> omega

/-- R = X mod 16 when X ≥ 0 or 16 ∣ X, and (X mod 16) - 16 ∈ (-16, 0) otherwise. -/
theorem tmod16 (X : Int) : X.tmod 16 = if 0 ≤ X ∨ X % 16 = 0 then X % 16 else X % 16 - 16 := by
  rw [Int.tmod_eq_emod]
  split <;> split <;> simp_all <;> omega

/-! ## Words: the signed readings of the pieces -/

theorem toInt_16 : (16#32 : BitVec 32).toInt = 16 := by decide
theorem toInt_1 : (1#32 : BitVec 32).toInt = 1 := by decide
theorem toInt_0 : (0#32 : BitVec 32).toInt = 0 := by decide

/-- -2^31 ≤ X < 2^31. -/
theorem toInt_bounds (x : BitVec 32) : -2147483648 ≤ x.toInt ∧ x.toInt < 2147483648 := by
  have h1 := BitVec.le_toInt x
  have h2 := @BitVec.toInt_lt 32 x
  constructor <;> omega

/-- Dividing by 16 meets neither exceptional case of signed division: 16 ≠ 0 and 16 ≠ -1. -/
theorem not_corner16 (x : BitVec 32) : ¬ IntOp.SDivCorner x 16#32 := by
  unfold IntOp.SDivCorner
  intro h
  rcases h with h | ⟨_, h⟩
  · exact absurd h (by decide)
  · exact absurd h (by decide)

theorem host_divsi16 (x : BitVec 32) : IntOp.divsi .host x 16#32 = x.sdiv 16#32 := by
  unfold IntOp.divsi
  rw [if_neg (not_corner16 x)]

theorem host_remsi16 (x : BitVec 32) : IntOp.remsi .host x 16#32 = x.srem 16#32 := by
  unfold IntOp.remsi
  rw [if_neg (not_corner16 x)]

/-- The quotient word reads T (no wrap: the divisor is not -1). -/
theorem toInt_sdiv16 (x : BitVec 32) : (x.sdiv 16#32).toInt = x.toInt.tdiv 16 := by
  rw [BitVec.toInt_sdiv_of_ne_or_ne x 16#32 (Or.inr (by decide)), toInt_16]

/-- The remainder word reads R. -/
theorem toInt_srem16 (x : BitVec 32) : (x.srem 16#32).toInt = x.toInt.tmod 16 := by
  rw [BitVec.toInt_srem, toInt_16]

/-- The arithmetic shift right by four reads ⌊X / 2^4⌋. -/
theorem toInt_shrsi4 (x : BitVec 32) : (IntOp.shrsi .vector x 4#32).toInt = x.toInt / 16 := by
  unfold IntOp.shrsi
  rw [if_pos (by decide), BitVec.toInt_sshiftRight', Int.shiftRight_eq_div_pow]
  rfl

/-- The low four bits read X mod 16: as a natural number x AND (2^4 - 1) is x mod 2^4, below 16 so
    read unchanged as signed, and X differs from that natural number by 0 or 2^32, a multiple of 16. -/
theorem toInt_and15 (x : BitVec 32) : (IntOp.andi x 15#32).toInt = x.toInt % 16 := by
  unfold IntOp.andi
  have hn : (x &&& 15#32).toNat = x.toNat % 16 := by
    rw [BitVec.toNat_and]
    exact Nat.and_two_pow_sub_one_eq_mod x.toNat 4
  have h1 : (x &&& 15#32).toInt = ((x &&& 15#32).toNat : Int) :=
    BitVec.toInt_eq_toNat_of_lt (by rw [hn]; omega)
  rw [h1, hn, BitVec.toInt_eq_toNat_cond x]
  split <;> omega

/-! ## Words: the conditions of the two selections -/

/-- A selection on the conjunction of two one-bit truth values. -/
theorem select_and_ofBool {α : Type} (p q : Bool) (a b : α) :
    Scalar.select (IntOp.andi (BitVec.ofBool p) (BitVec.ofBool q)) a b
      = if (p && q) = true then a else b := by
  cases p <;> cases q <;> simp [Scalar.select, IntOp.andi]

/-- A one-bit truth value differs from the bit 0 exactly when it is true. -/
theorem ofBool_ne_zero (b : Bool) : (BitVec.ofBool b != 0#1) = b := by
  cases b <;> decide

/-- sign x ≠ 1 = sign 16 exactly when X ≤ 0. -/
theorem sign_ne_one_iff (x : BitVec 32) :
    ((if x = 0 then (0 : BitVec 32) else if x.msb then -1 else 1) != 1#32) = decide (x.toInt ≤ 0) := by
  by_cases h0 : x = 0
  · subst h0; decide
  · rw [if_neg h0]
    have hne : x.toInt ≠ 0 := by
      intro h; apply h0; apply BitVec.eq_of_toInt_eq; rw [h]; rfl
    by_cases hm : x.msb = true
    · rw [if_pos hm]
      have := BitVec.toInt_neg_of_msb_true hm
      have hd : decide (x.toInt ≤ 0) = true := by simp; omega
      rw [hd]; decide
    · rw [if_neg hm]
      have hm' : x.msb = false := by simpa using hm
      have h3 := BitVec.toInt_eq_toNat_of_msb hm'
      have hd : decide (x.toInt ≤ 0) = false := by simp; omega
      rw [hd]; decide

/-- The remainder word is not the zero word exactly when R ≠ 0. -/
theorem srem_ne_zero_iff (x : BitVec 32) :
    (x.srem 16#32 != 0#32) = decide (x.toInt.tmod 16 ≠ 0) := by
  have key : x.srem 16#32 = 0#32 ↔ x.toInt.tmod 16 = 0 := by
    rw [← toInt_srem16, ← toInt_0]; exact BitVec.toInt_inj.symm
  by_cases h : x.srem 16#32 = 0#32
  · have h' := key.mp h
    rw [h, h']; decide
  · have h' : ¬ x.toInt.tmod 16 = 0 := fun h' => h (key.mpr h')
    have hb : (x.srem 16#32 != 0#32) = true := by simpa using h
    rw [hb]; simp [h']

/-! ## Words: the two identities -/

/-- ⌊X/16⌋ as a word: T - 1 if X ≤ 0 and R ≠ 0 (then X < 0 and T = ⌊X/16⌋ + 1), else T; it is the
    arithmetic shift by four. -/
theorem floordiv16_word (x : BitVec 32) :
    Scalar.select
      (IntOp.andi (IntOp.cmpi .ne (if x = 0 then (0 : BitVec 32) else if x.msb then -1 else 1) 1#32)
                  (IntOp.cmpi .ne (IntOp.remsi .host x 16#32) 0#32))
      (IntOp.subi (IntOp.divsi .host x 16#32) 1#32) (IntOp.divsi .host x 16#32)
    = IntOp.shrsi .vector x 4#32 := by
  rw [host_divsi16, host_remsi16]
  unfold IntOp.cmpi
  simp only []
  rw [select_and_ofBool, sign_ne_one_iff, srem_ne_zero_iff]
  apply BitVec.eq_of_toInt_eq
  rw [toInt_shrsi4]
  obtain ⟨hlo, hhi⟩ := toInt_bounds x
  have hd := tdiv16 x.toInt
  have hm := tmod16 x.toInt
  split
  · rename_i hc
    simp only [Bool.and_eq_true, decide_eq_true_eq] at hc
    unfold IntOp.subi
    rw [BitVec.toInt_sub, toInt_sdiv16, toInt_1, Int.bmod_def]
    split at hd <;> split at hm <;> omega
  · rename_i hc
    simp only [Bool.and_eq_true, decide_eq_true_eq, not_and, Decidable.not_not] at hc
    rw [toInt_sdiv16]
    split at hd <;> split at hm <;> omega

/-- X mod 16 ∈ [0,16) as a word: R + 16 if R < 0 (then R ≠ 0 too), else R; it is the low four bits. -/
theorem rem16_word (x : BitVec 32) :
    Scalar.select
      (IntOp.andi (IntOp.cmpi .ne (IntOp.cmpi .slt (IntOp.remsi .host x 16#32) 0#32) 0#1)
                  (IntOp.cmpi .ne (IntOp.remsi .host x 16#32) 0#32))
      (IntOp.addi (IntOp.remsi .host x 16#32) 16#32) (IntOp.remsi .host x 16#32)
    = IntOp.andi x 15#32 := by
  rw [host_remsi16]
  unfold IntOp.cmpi
  simp only []
  rw [select_and_ofBool, ofBool_ne_zero, srem_ne_zero_iff, BitVec.slt_eq_decide, toInt_srem16, toInt_0]
  apply BitVec.eq_of_toInt_eq
  rw [toInt_and15]
  obtain ⟨hlo, hhi⟩ := toInt_bounds x
  have hm := tmod16 x.toInt
  split
  · rename_i hc
    simp only [Bool.and_eq_true, decide_eq_true_eq] at hc
    unfold IntOp.addi
    rw [BitVec.toInt_add, toInt_srem16, toInt_16, Int.bmod_def]
    split at hm <;> omega
  · rename_i hc
    simp only [Bool.and_eq_true, decide_eq_true_eq, not_and, Decidable.not_not] at hc
    rw [toInt_srem16]
    split at hm <;> omega

/-! ## Words: what the constant 16 contributes -/

/-- sign 16 = 1. -/
theorem sign_sixteen :
    (if (16#32 : BitVec 32) = 0 then (0 : BitVec 32) else if (16#32 : BitVec 32).msb then -1 else 1) = 1#32 := by
  decide

/-- 16 < 0 is false. -/
theorem slt_sixteen_zero : IntOp.cmpi .slt (16#32 : BitVec 32) 0#32 = 0#1 := by decide

/-- 16 = 0 is false. -/
theorem eq_sixteen_zero : IntOp.cmpi .eq (16#32 : BitVec 32) 0#32 = 0#1 := by decide

/-- The guarded divisor (16 = 0 ? a : 16) is 16, whatever a. -/
theorem divisor_sixteen {α : Type} (a b : α) :
    Scalar.select (IntOp.cmpi .eq (16#32 : BitVec 32) 0#32) a b = b := by
  rw [eq_sixteen_zero]; rfl

/-! ## Vectors: the same at every index -/

section Vectors
variable {S : Shape}

/-- A vector equal to c at every index, broadcast along any axes, is c at every index. -/
theorem broadcastInDim_const {s t : Shape} {α : Type} (dims : Fin s.rank → Fin t.rank)
    (h : s.BroadcastsInDim t dims) (x : s.Idx → α) (c : α) (hx : ∀ i, x i = c) :
    ∀ j, broadcastInDim t dims h x j = c := fun _ => hx _

/-- sign of the constant 16 is the constant 1. -/
theorem signi_sixteen (c16 : IVec S 32) (h16 : ∀ i, c16 i = 16#32) : ∀ i, signi c16 i = 1#32 := by
  intro i
  show (if c16 i = 0 then (0 : BitVec 32) else if (c16 i).msb then -1 else 1) = 1#32
  rw [h16]; exact sign_sixteen

/-- (16 < 0) is the constant bit 0. -/
theorem cmpi_slt_sixteen_zero (c16 c0 : IVec S 32) (h16 : ∀ i, c16 i = 16#32) (h0 : ∀ i, c0 i = 0#32) :
    ∀ i, cmpi .slt c16 c0 i = 0#1 := by
  intro i
  show IntOp.cmpi .slt (c16 i) (c0 i) = 0#1
  rw [h16, h0]; exact slt_sixteen_zero

/-- The guarded divisor (16 = 0 ? a : 16) is the constant 16, whatever the vector a. -/
theorem select_divisor_sixteen (c16 c0 a : IVec S 32) (h16 : ∀ i, c16 i = 16#32) (h0 : ∀ i, c0 i = 0#32) :
    ∀ i, select (cmpi .eq c16 c0) a c16 i = 16#32 := by
  intro i
  show Scalar.select (IntOp.cmpi .eq (c16 i) (c0 i)) (a i) (c16 i) = 16#32
  rw [h16, h0]; exact divisor_sixteen _ _

/-- Floor division by 16 is the arithmetic shift by 4; the two divisor vectors and the constants
    enter by their values only. -/
theorem floordiv16_eq_shr_gen (x c16 c16' s16 c0 c1 c4 : IVec S 32)
    (h16 : ∀ i, c16 i = 16#32) (h16' : ∀ i, c16' i = 16#32) (hs : ∀ i, s16 i = 1#32)
    (h0 : ∀ i, c0 i = 0#32) (h1 : ∀ i, c1 i = 1#32) (h4 : ∀ i, c4 i = 4#32) :
    select (andi (cmpi .ne (signi x) s16) (cmpi .ne (Host.remsi x c16') c0))
        (subi (Host.divsi x c16) c1) (Host.divsi x c16)
      = shrsi x c4 := by
  funext i
  show Scalar.select
      (IntOp.andi (IntOp.cmpi .ne (if x i = 0 then (0 : BitVec 32) else if (x i).msb then -1 else 1) (s16 i))
                  (IntOp.cmpi .ne (IntOp.remsi .host (x i) (c16' i)) (c0 i)))
      (IntOp.subi (IntOp.divsi .host (x i) (c16 i)) (c1 i)) (IntOp.divsi .host (x i) (c16 i))
    = IntOp.shrsi .vector (x i) (c4 i)
  rw [h16, h16', hs, h0, h1, h4]
  exact floordiv16_word (x i)

theorem floordiv16_eq_shr (x c16 s16 c0 c1 c4 : IVec S 32)
    (h16 : ∀ i, c16 i = 16#32) (hs : ∀ i, s16 i = 1#32)
    (h0 : ∀ i, c0 i = 0#32) (h1 : ∀ i, c1 i = 1#32) (h4 : ∀ i, c4 i = 4#32) :
    select (andi (cmpi .ne (signi x) s16) (cmpi .ne (Host.remsi x c16) c0))
        (subi (Host.divsi x c16) c1) (Host.divsi x c16)
      = shrsi x c4 :=
  floordiv16_eq_shr_gen x c16 c16 s16 c0 c1 c4 h16 h16 hs h0 h1 h4

/-- The remainder by 16 of the divisor's sign is the low four bits; the divisor vectors, the zero
    vectors and the constant bit enter by their values only. -/
theorem rem16_eq_and_gen (x c16 c16' c0 c0' c15 : IVec S 32) (blt : IVec S 1)
    (h16 : ∀ i, c16 i = 16#32) (h16' : ∀ i, c16' i = 16#32)
    (h0 : ∀ i, c0 i = 0#32) (h0' : ∀ i, c0' i = 0#32)
    (h15 : ∀ i, c15 i = 15#32) (hb : ∀ i, blt i = 0#1) :
    select (andi (cmpi .ne (cmpi .slt (Host.remsi x c16) c0') blt) (cmpi .ne (Host.remsi x c16) c0))
        (addi (Host.remsi x c16) c16') (Host.remsi x c16)
      = andi x c15 := by
  funext i
  show Scalar.select
      (IntOp.andi (IntOp.cmpi .ne (IntOp.cmpi .slt (IntOp.remsi .host (x i) (c16 i)) (c0' i)) (blt i))
                  (IntOp.cmpi .ne (IntOp.remsi .host (x i) (c16 i)) (c0 i)))
      (IntOp.addi (IntOp.remsi .host (x i) (c16 i)) (c16' i)) (IntOp.remsi .host (x i) (c16 i))
    = IntOp.andi (x i) (c15 i)
  rw [h16, h16', h0, h0', h15, hb]
  exact rem16_word (x i)

theorem rem16_eq_and (x c16 c0 c15 : IVec S 32) (blt : IVec S 1)
    (h16 : ∀ i, c16 i = 16#32) (h0 : ∀ i, c0 i = 0#32)
    (h15 : ∀ i, c15 i = 15#32) (hb : ∀ i, blt i = 0#1) :
    select (andi (cmpi .ne (cmpi .slt (Host.remsi x c16) c0) blt) (cmpi .ne (Host.remsi x c16) c0))
        (addi (Host.remsi x c16) c16) (Host.remsi x c16)
      = andi x c15 :=
  rem16_eq_and_gen x c16 c16 c0 c0 c15 blt h16 h16 h0 h0 h15 hb

end Vectors

end Cert.Hand.Int
-- ==== Proof.Ref.ValNib.lean ====
/-
  The two nibble planes of the reference, word by word.

  The reference takes the packed word's quotient and remainder by 16, both rounded toward minus infinity, each spelled
  from the division that rounds toward zero with a correction where the signs call for one. For a 32-bit word read as a
  two's-complement integer those are the word shifted right by four places with its sign kept, and the word's low four
  bits. Here the constant vectors of the two chains are read at an index (each is a broadcast scalar: 16, its sign 1,
  0, 1, the guarded divisor "16 unless 16 = 0", the bit "16 < 0"), the two word identities are applied over the whole
  plane, and the planes are read at (o, i).
-/
import proofs.«409815_j9423158247731_1_alg».proof.Proof.Ref.Run
import proofs.«409815_j9423158247731_1_alg».proof.Proof.IntLemmas
import Idealize.ShloMosaic.Lib.ValueIdx

noncomputable section

namespace Cert.ReferenceIdeal.Hand

open Cert.ReferenceIdeal Cert.ReferenceIdeal.Gen Idealize.ShloMosaic Idealize.ShloMosaic.ValueIdx

/-- The floored quotient by 16 of every packed word is the word shifted right by four places, sign kept. -/
theorem hiNib_eq_shr (q : IVec S4096x2048 32) : hiNib q = shrsi q (fun _ => 4#32) := by
  unfold hiNib
  exact Cert.Hand.Int.floordiv16_eq_shr q _ _ _ _ _ (fun _ => rfl)
    (Cert.Hand.Int.broadcastInDim_const _ _ _ 1#32 (Cert.Hand.Int.signi_sixteen _ (fun _ => rfl)))
    (fun _ => rfl) (fun _ => rfl) (fun _ => rfl)

/-- The floored remainder by 16 of every packed word is its low four bits. -/
theorem loNib_eq_and (q : IVec S4096x2048 32) : loNib q = andi q (fun _ => 15#32) := by
  unfold loNib
  exact Cert.Hand.Int.rem16_eq_and q _ _ _ _
    (Cert.Hand.Int.broadcastInDim_const _ _ _ 16#32
      (Cert.Hand.Int.select_divisor_sixteen _ _ _ (fun _ => rfl) (fun _ => rfl)))
    (fun _ => rfl) (fun _ => rfl)
    (Cert.Hand.Int.broadcastInDim_const _ _ _ 0#1
      (Cert.Hand.Int.cmpi_slt_sixteen_zero _ _
        (Cert.Hand.Int.select_divisor_sixteen _ _ _ (fun _ => rfl) (fun _ => rfl)) (fun _ => rfl)))

/-- Word (o, i) of the quotient plane. -/
theorem hiNib_apply (q : IVec S4096x2048 32) (o : Fin 4096) (i : Fin 2048) :
    hiNib q (ix2 o i) = (q (ix2 o i)).sshiftRight 4 := by
  rw [hiNib_eq_shr]
  show IntOp.shrsi .vector (q (ix2 o i)) 4#32 = _
  unfold IntOp.shrsi
  rw [if_pos (by decide)]
  rfl

/-- Word (o, i) of the remainder plane. -/
theorem loNib_apply (q : IVec S4096x2048 32) (o : Fin 4096) (i : Fin 2048) :
    loNib q (ix2 o i) = q (ix2 o i) &&& 15#32 := by
  rw [loNib_eq_and]
  rfl

end Cert.ReferenceIdeal.Hand

end
-- ==== Proof.Ref.ValW.lean ====
/-
  The reference's dequantized weight, entry by entry.

  Row o of the weight is the 2048 quotient nibbles of row o of the packed array followed by its 2048 remainder nibbles,
  converted to floats. The row is then cut in 32 groups of 128 columns: column i sits in group i / 128 at place i % 128,
  since (32·o + i / 128)·128 + i % 128 = 4096·o + i. Each group has one scale and one zero point, spread over the
  group's 128 places, and entry (o, i) is scale[o, i / 128] · (nibble[o, i] − zero[o, i / 128]).
-/
import proofs.«409815_j9423158247731_1_alg».proof.Proof.Ref.ValNib
import proofs.«409815_j9423158247731_1_alg».proof.Proof.Spec
import Idealize.ShloMosaic.Lib.Pipeline.Value

noncomputable section

namespace Cert.ReferenceIdeal.Hand

open Cert.ReferenceIdeal Cert.ReferenceIdeal.Gen Idealize.ShloMosaic Idealize.ShloMosaic.ValueIdx

/-- The two nibble planes side by side, read at column i of row o: the quotient plane left of column 2048, the
    remainder plane from there on, which is the specification's nibble. -/
theorem planes_apply (q : IVec S4096x2048 32) (o i : Fin 4096) :
    concatenate S4096x4096 1 [⟨S4096x2048, hiNib q⟩, ⟨S4096x2048, loNib q⟩]
        concatenates_S4096x2048_S4096x2048_S4096x4096_d1 (ix2 o i)
      = Cert.Hand.Spec.nib q o i := by
  unfold Cert.Hand.Spec.nib
  by_cases h : i.val < 2048
  · rw [dif_pos h]
    refine (concatenate_pair_apply_left _ (hiNib q) (loNib q) _ (ix2 o i) rfl (ix2 o ⟨i.val, h⟩) ?_).trans
      (hiNib_apply q o ⟨i.val, h⟩)
    intro b
    match b with
    | ⟨0, _⟩ => rfl
    | ⟨1, _⟩ => rfl
  · rw [dif_neg h]
    have h' : i.val - 2048 < 2048 := by have := i.isLt; omega
    refine (concatenate_pair_apply_right _ (hiNib q) (loNib q) _ (ix2 o i) rfl rfl (ix2 o ⟨i.val - 2048, h'⟩) ?_ ?_).trans
      (loNib_apply q o ⟨i.val - 2048, h'⟩)
    · intro b hb
      match b, hb with
      | ⟨0, _⟩, _ => rfl
      | ⟨1, _⟩, hb => exact absurd (Fin.ext rfl) hb
    · show i.val - 2048 + 2048 = i.val
      omega

/-- A per-group table [4096, 32] spread along a unit axis and then over the 128 columns of each group reads, at
    (o, g, l), its entry (o, g). -/
theorem group_spread_apply {α : Type} (v : S4096x32.Idx → α) (o : Fin 4096) (g : Fin 32) (l : Fin 128) :
    broadcastInDim S4096x32x128 ![0, 1, 2] bcast_S4096x32x1_S4096x32x128_0_1_2
        (broadcastInDim S4096x32x1 ![0, 1] bcast_S4096x32_S4096x32x1_0_1 v) (ix3 o g l)
      = v (ix2 o g) := by
  refine (broadcastInDim_apply _ _ _ (ix3 o g l) (ix3 o g (0 : Fin 1)) ?_).trans
    (broadcastInDim_apply _ _ v (ix3 o g (0 : Fin 1)) (ix2 o g) ?_)
  · intro a
    match a with
    | ⟨0, _⟩ => rfl
    | ⟨1, _⟩ => rfl
    | ⟨2, _⟩ => rfl
  · intro a
    match a with
    | ⟨0, _⟩ => rfl
    | ⟨1, _⟩ => rfl

/-- Column i of a row is entry (i / 128, i % 128) of the row cut in 32 groups of 128. -/
theorem grouped_apply {α : Type} (v : S4096x4096.Idx → α) (o i : Fin 4096) (l : Fin 128) (hl : l.val = i.val % 128) :
    shapeCast S4096x32x128 v shapeCasts_S4096x4096_S4096x32x128 (ix3 o (Cert.Hand.Spec.grp i) l) = v (ix2 o i) :=
  shapeCast_apply v _ _ _ (by
    rw [Shape.rowMajor_val_two, Shape.rowMajor_val_three]
    show o.val * 4096 + i.val = (o.val * 32 + i.val / 128) * 128 + l.val
    omega)

/-- … and back. -/
theorem ungrouped_apply {α : Type} (v : S4096x32x128.Idx → α) (o i : Fin 4096) (l : Fin 128) (hl : l.val = i.val % 128) :
    shapeCast S4096x4096 v shapeCasts_S4096x32x128_S4096x4096 (ix2 o i) = v (ix3 o (Cert.Hand.Spec.grp i) l) :=
  shapeCast_apply v _ _ _ (by
    rw [Shape.rowMajor_val_two, Shape.rowMajor_val_three]
    show (o.val * 32 + i.val / 128) * 128 + l.val = o.val * 4096 + i.val
    omega)

/-- The dequantized weight at (o, i) is the specification's: the scale of the column's group times the nibble, as a
    float, less the group's zero point. -/
theorem wDeq_apply (q : IVec S4096x2048 32) (scale zero : FVec Ideal S4096x32 .f32) (o i : Fin 4096) :
    wDeq (F := Ideal) q scale zero (ix2 o i) = Cert.Hand.Spec.wq q scale zero o i := by
  unfold wDeq Cert.Hand.Spec.wq
  refine (ungrouped_apply _ o i ⟨i.val % 128, Nat.mod_lt _ (by decide)⟩ rfl).trans ?_
  rw [mulf_apply, subf_apply, group_spread_apply, group_spread_apply, grouped_apply _ o i _ rfl, sitofp_apply, planes_apply]

end Cert.ReferenceIdeal.Hand

end
-- ==== Proof.Ref.ValX.lean ====
/-
  The reference's permuted input, entry by entry.

  x[..., perm] reads the last axis of x through an index table: entry i of the permutation, with 4096 added when it is
  negative, stored as row i of a [4096, 1] table. The gather keeps the first two axes of x whole (slices of sizes 4 and
  2048 at offset 0, the result's own first two coordinates) and on the last axis takes a slice of one element starting at
  the table's word for the result's last coordinate, read as a signed integer and clamped into [0, 4095]. So entry
  (b, s, i) of the result is x at (b, s, c) with c = min (max w 0) 4095, w the wrapped word: the specification's column.
-/
import proofs.«409815_j9423158247731_1_alg».proof.Proof.Ref.Run
import proofs.«409815_j9423158247731_1_alg».proof.Proof.Spec
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx

/-- A word read numpy-style against an axis of 4096: a negative word counts from the end. -/
theorem wrap_word (v : BitVec 32) :
    Scalar.select (IntOp.cmpi .slt v 0#32) (IntOp.addi v 4096#32) v = if v.toInt < 0 then v + 4096#32 else v := by
  have hz : (0#32 : BitVec 32).toInt = 0 := by decide
  have hs : v.slt 0#32 = decide (v.toInt < 0) := by rw [BitVec.slt_eq_decide, hz]
  show (if BitVec.ofBool (v.slt 0#32) = 1 then v + 4096#32 else v) = _
  rw [hs]
  by_cases h : v.toInt < 0
  · rw [if_pos h, decide_eq_true h]; rfl
  · rw [if_neg h, decide_eq_false h]; rfl

/-- Row i of the index table is the i-th permutation entry, wrapped. -/
theorem permIdx_apply (p : IVec S4096 32) (i : Fin 4096) :
    permIdx p (ix2 i (0 : Fin 1)) = if (p (ix1 i)).toInt < 0 then p (ix1 i) + 4096#32 else p (ix1 i) := by
  unfold permIdx
  refine (broadcastInDim_apply _ _ _ (ix2 i (0 : Fin 1)) (ix1 i) ?_).trans (wrap_word (p (ix1 i)))
  intro a
  match a with
  | ⟨0, _⟩ => rfl

/-- The gather keeps the first axis: no start index, no batching, the result's own coordinate as offset. -/
theorem take_axis0 (idx : IVec S4096x1 32) (b : Fin 4) (s : Fin 2048) (i : Fin 4096) :
    (gather_S4x2048x4096_S4096x1_S4x2048x4096_01_2_n_n_2_1_420481.operandIdx (ix3 b s i) idx 0).val = b.val := by
  show gather_S4x2048x4096_S4096x1_S4x2048x4096_01_2_n_n_2_1_420481.start (ix3 b s i) idx 0
      + gather_S4x2048x4096_S4096x1_S4x2048x4096_01_2_n_n_2_1_420481.batchCoord (ix3 b s i) 0
      + gather_S4x2048x4096_S4096x1_S4x2048x4096_01_2_n_n_2_1_420481.offCoord (ix3 b s i) 0 = b.val
  rw [GatherDims.batchCoord_eq_zero _ _ _ (by decide)]
  unfold GatherDims.start GatherDims.offCoord
  rw [dif_neg (show ¬(0 : Fin S4x2048x4096.rank) ∈ gather_S4x2048x4096_S4096x1_S4x2048x4096_01_2_n_n_2_1_420481.startIndexMap by decide),
    dif_pos (show (0 : Fin S4x2048x4096.rank) ∈ gather_S4x2048x4096_S4096x1_S4x2048x4096_01_2_n_n_2_1_420481.sKept by decide)]
  rw [Nat.zero_add]
  rfl

/-- … and the second. -/
theorem take_axis1 (idx : IVec S4096x1 32) (b : Fin 4) (s : Fin 2048) (i : Fin 4096) :
    (gather_S4x2048x4096_S4096x1_S4x2048x4096_01_2_n_n_2_1_420481.operandIdx (ix3 b s i) idx 1).val = s.val := by
  show gather_S4x2048x4096_S4096x1_S4x2048x4096_01_2_n_n_2_1_420481.start (ix3 b s i) idx 1
      + gather_S4x2048x4096_S4096x1_S4x2048x4096_01_2_n_n_2_1_420481.batchCoord (ix3 b s i) 1
      + gather_S4x2048x4096_S4096x1_S4x2048x4096_01_2_n_n_2_1_420481.offCoord (ix3 b s i) 1 = s.val
  rw [GatherDims.batchCoord_eq_zero _ _ _ (by decide)]
  unfold GatherDims.start GatherDims.offCoord
  rw [dif_neg (show ¬(1 : Fin S4x2048x4096.rank) ∈ gather_S4x2048x4096_S4096x1_S4x2048x4096_01_2_n_n_2_1_420481.startIndexMap by decide),
    dif_pos (show (1 : Fin S4x2048x4096.rank) ∈ gather_S4x2048x4096_S4096x1_S4x2048x4096_01_2_n_n_2_1_420481.sKept by decide)]
  rw [Nat.zero_add]
  rfl

/-- On the last axis, collapsed to slices of one, the gather reads at the table's row for the result's last coordinate:
    the word there as a signed integer, clamped into the axis. -/
theorem take_axis2 (idx : IVec S4096x1 32) (b : Fin 4) (s : Fin 2048) (i : Fin 4096) :
    (gather_S4x2048x4096_S4096x1_S4x2048x4096_01_2_n_n_2_1_420481.operandIdx (ix3 b s i) idx 2).val
      = min (idx (ix2 i (0 : Fin 1))).toInt.toNat 4095 := by
  show gather_S4x2048x4096_S4096x1_S4x2048x4096_01_2_n_n_2_1_420481.start (ix3 b s i) idx 2
      + gather_S4x2048x4096_S4096x1_S4x2048x4096_01_2_n_n_2_1_420481.batchCoord (ix3 b s i) 2
      + gather_S4x2048x4096_S4096x1_S4x2048x4096_01_2_n_n_2_1_420481.offCoord (ix3 b s i) 2 = _
  rw [GatherDims.batchCoord_eq_zero _ _ _ (by decide), GatherDims.offCoord_eq_zero _ _ _ (by decide)]
  unfold GatherDims.start
  rw [dif_pos (show (2 : Fin S4x2048x4096.rank) ∈ gather_S4x2048x4096_S4096x1_S4x2048x4096_01_2_n_n_2_1_420481.startIndexMap by decide)]
  have hsi : gather_S4x2048x4096_S4096x1_S4x2048x4096_01_2_n_n_2_1_420481.siIdx (ix3 b s i)
      ⟨List.idxOf (2 : Fin S4x2048x4096.rank) gather_S4x2048x4096_S4096x1_S4x2048x4096_01_2_n_n_2_1_420481.startIndexMap,
        List.idxOf_lt_length_iff.2 (by decide)⟩ = ix2 i (0 : Fin 1) := by
    funext c
    refine Fin.ext ?_
    match c with
    | ⟨0, _⟩ => rfl
    | ⟨1, _⟩ => rfl
  rw [hsi]
  rfl

/-- x read through the table: entry (b, s, i) is x at (b, s, the specification's column for position i). -/
theorem xPerm_apply (x : FVec Ideal S4x2048x4096 .f32) (p : IVec S4096 32) (b : Fin 4) (s : Fin 2048) (i : Fin 4096) :
    xPerm (F := Ideal) x p (ix3 b s i) = x (ix3 b s (Cert.Hand.Spec.col p i)) := by
  unfold xPerm Host.gather
  refine congrArg x (funext fun a => Fin.ext ?_)
  match a with
  | ⟨0, _⟩ => exact take_axis0 _ b s i
  | ⟨1, _⟩ => exact take_axis1 _ b s i
  | ⟨2, _⟩ => exact (take_axis2 _ b s i).trans (by rw [permIdx_apply]; rfl)

end Cert.ReferenceIdeal.Hand

end
-- ==== Proof.Ref.Val.lean ====
/-
  The reference's result, entry by entry, is the specification's.

  The product contracts the last axis of the permuted input [4, 2048, 4096] with the last axis of the weight
  [4096, 4096]: its contraction index has one coordinate, i < 4096, and at result index (b, s, o) the left operand is read
  at (b, s, i), the right at (o, i). The bias is set along the last axis. With the weight and the permuted input read
  entry by entry this is  Σ_i x[b, s, col i] · w[o, i] + bias[o].
-/
import proofs.«409815_j9423158247731_1_alg».proof.Proof.Ref.ValW
import proofs.«409815_j9423158247731_1_alg».proof.Proof.Ref.ValX
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-! ## The contraction's operand indices, axis by axis

The left operand [4, 2048, 4096] keeps its first two axes as the result's first two and contracts the third; the right
operand [4096, 4096] gives its first axis to the result's third and contracts its second. -/

theorem lhs_axis0 (j : S4x2048x4096.Idx) (k : dot_S4x2048x4096_S4096x4096_S4x2048x4096_2_1_01_0_n_n.contr.Idx) :
    (dot_S4x2048x4096_S4096x4096_S4x2048x4096_2_1_01_0_n_n.lhsIdx j k 0).val = (j 0).val := by
  unfold DotDims.lhsIdx
  rw [dif_neg (show ¬(0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  rfl

theorem lhs_axis1 (j : S4x2048x4096.Idx) (k : dot_S4x2048x4096_S4096x4096_S4x2048x4096_2_1_01_0_n_n.contr.Idx) :
    (dot_S4x2048x4096_S4096x4096_S4x2048x4096_2_1_01_0_n_n.lhsIdx j k 1).val = (j 1).val := by
  unfold DotDims.lhsIdx
  rw [dif_neg (show ¬(1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  rfl

theorem lhs_axis2 (j : S4x2048x4096.Idx) (k : dot_S4x2048x4096_S4096x4096_S4x2048x4096_2_1_01_0_n_n.contr.Idx) :
    (dot_S4x2048x4096_S4096x4096_S4x2048x4096_2_1_01_0_n_n.lhsIdx j k 2).val = (k ⟨0, by decide⟩).val :=
  dot_S4x2048x4096_S4096x4096_S4x2048x4096_2_1_01_0_n_n.lhsIdx_val_of_single rfl j k

theorem rhs_axis0 (j : S4x2048x4096.Idx) (k : dot_S4x2048x4096_S4096x4096_S4x2048x4096_2_1_01_0_n_n.contr.Idx) :
    (dot_S4x2048x4096_S4096x4096_S4x2048x4096_2_1_01_0_n_n.rhsIdx j k 0).val = (j 2).val := by
  unfold DotDims.rhsIdx
  rw [dif_neg (show ¬(0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  rfl

theorem rhs_axis1 (j : S4x2048x4096.Idx) (k : dot_S4x2048x4096_S4096x4096_S4x2048x4096_2_1_01_0_n_n.contr.Idx) :
    (dot_S4x2048x4096_S4096x4096_S4x2048x4096_2_1_01_0_n_n.rhsIdx j k 1).val = (k ⟨0, by decide⟩).val :=
  dot_S4x2048x4096_S4096x4096_S4x2048x4096_2_1_01_0_n_n.rhsIdx_val_of_single rfl j k

/-- The product at (b, s, o): the sum over the shared axis of left (b, s, i) times right (o, i). -/
theorem product_apply (l : FVec Ideal S4x2048x4096 .f32) (r : FVec Ideal S4096x4096 .f32)
    (b : Fin 4) (s : Fin 2048) (o : Fin 4096) :
    Host.dotGeneral (F := Ideal) dot_S4x2048x4096_S4096x4096_S4x2048x4096_2_1_01_0_n_n none l r (ix3 b s o)
      = ∑ i : Fin 4096, l (ix3 b s i) * r (ix2 o i) := by
  simp only [Host.dotGeneral]
  rw [Ideal.dotGeneral_apply,
    ← Equiv.sum_comp (contrEquiv1 dot_S4x2048x4096_S4096x4096_S4x2048x4096_2_1_01_0_n_n 4096 rfl rfl).symm]
  refine Finset.sum_congr rfl fun i _ => ?_
  have hi := contrEquiv1_symm_val dot_S4x2048x4096_S4096x4096_S4x2048x4096_2_1_01_0_n_n 4096 rfl rfl i
  have el : dot_S4x2048x4096_S4096x4096_S4x2048x4096_2_1_01_0_n_n.lhsIdx (ix3 b s o)
      ((contrEquiv1 dot_S4x2048x4096_S4096x4096_S4x2048x4096_2_1_01_0_n_n 4096 rfl rfl).symm i) = ix3 b s i :=
    funext fun a => Fin.ext (by
      match a with
      | ⟨0, _⟩ => exact lhs_axis0 _ _
      | ⟨1, _⟩ => exact lhs_axis1 _ _
      | ⟨2, _⟩ => exact (lhs_axis2 _ _).trans hi)
  have er : dot_S4x2048x4096_S4096x4096_S4x2048x4096_2_1_01_0_n_n.rhsIdx (ix3 b s o)
      ((contrEquiv1 dot_S4x2048x4096_S4096x4096_S4x2048x4096_2_1_01_0_n_n 4096 rfl rfl).symm i) = ix2 o i :=
    funext fun a => Fin.ext (by
      match a with
      | ⟨0, _⟩ => exact rhs_axis0 _ _
      | ⟨1, _⟩ => exact (rhs_axis1 _ _).trans hi)
  rw [el, er]

/-- The bias [4096] set on the last axis of [1, 1, 4096] and spread over [4, 2048, 4096] reads, at (b, s, o), its
    entry o. -/
theorem bias_spread_apply {α : Type} (v : S4096.Idx → α) (b : Fin 4) (s : Fin 2048) (o : Fin 4096) :
    broadcastInDim S4x2048x4096 ![0, 1, 2] bcast_S1x1x4096_S4x2048x4096_0_1_2
        (broadcastInDim S1x1x4096 ![2] bcast_S4096_S1x1x4096_2 v) (ix3 b s o)
      = v (ix1 o) := by
  refine (broadcastInDim_apply _ _ _ (ix3 b s o) (ix3 (0 : Fin 1) (0 : Fin 1) o) ?_).trans
    (broadcastInDim_apply _ _ v (ix3 (0 : Fin 1) (0 : Fin 1) o) (ix1 o) ?_)
  · intro a
    match a with
    | ⟨0, _⟩ => rfl
    | ⟨1, _⟩ => rfl
    | ⟨2, _⟩ => rfl
  · intro a
    match a with
    | ⟨0, _⟩ => rfl

/-- The reference's value at (b, s, o) is the specification's. -/
theorem refOut_apply (x : FVec Ideal S4x2048x4096 .f32) (q : IVec S4096x2048 32) (scale zero : FVec Ideal S4096x32 .f32)
    (bias : FVec Ideal S4096 .f32) (p : IVec S4096 32) (b : Fin 4) (s : Fin 2048) (o : Fin 4096) :
    refOut (F := Ideal) x q scale zero bias p (ix3 b s o) = Cert.Hand.Spec.out x q scale zero bias p b s o := by
  unfold refOut Cert.Hand.Spec.out
  rw [addf_apply, product_apply, bias_spread_apply]
  refine congrArg (· + bias (ix1 o)) (Finset.sum_congr rfl fun i _ => ?_)
  rw [xPerm_apply, wDeq_apply]

/-- The reference's result is the specification's array. -/
theorem refOut_eq (x : FVec Ideal S4x2048x4096 .f32) (q : IVec S4096x2048 32) (scale zero : FVec Ideal S4096x32 .f32)
    (bias : FVec Ideal S4096 .f32) (p : IVec S4096 32) :
    refOut (F := Ideal) x q scale zero bias p = Cert.Hand.Spec.outArr x q scale zero bias p := by
  funext j
  obtain ⟨b, s, o, rfl⟩ : ∃ (b : Fin 4) (s : Fin 2048) (o : Fin 4096), j = ix3 b s o := ⟨j 0, j 1, j 2, eq_ix3 j⟩
  exact refOut_apply x q scale zero bias p b s o

end Cert.ReferenceIdeal.Hand

end
-- ==== Proof.lean ====
/-
  Int4-packed linear layer: the kernel program against its reference, on the extended reals.

  Both programs read the packed words as two signed nibbles (an arithmetic shift by four and a mask with fifteen in the kernel; a
  floored quotient and a floored remainder by sixteen in the reference: the same words for every 32-bit integer), dequantize them
  group by group as scale · (nibble − zero), read the activations through the permutation (an index in [-4096, 4096), numpy-style;
  there the kernel's range mask keeps every gathered value), and multiply: the kernel block by block into an accumulator that
  starts at zero, the reference in one product.  A sum over 4096 columns is the sum of its four blocks, so both end at the same
  array, sum over i of x[b, s, perm i] · w[o, i] plus bias[o].  Each program's run also leaves its arguments as launched, which is
  the three frame claims; the idealization rewrote nothing.
-/
import proofs.«409815_j9423158247731_1_alg».proof.Defs
import proofs.«409815_j9423158247731_1_alg».proof.Proof.Gen.Kernel
import proofs.«409815_j9423158247731_1_alg».proof.Proof.Gen.KernelIdeal
import proofs.«409815_j9423158247731_1_alg».proof.Proof.Gen.ReferenceIdeal
import proofs.«409815_j9423158247731_1_alg».proof.Proof.Gen.Pre_finite_inputs
import proofs.«409815_j9423158247731_1_alg».proof.Proof.K.Run
import proofs.«409815_j9423158247731_1_alg».proof.Proof.KI.KVal
import proofs.«409815_j9423158247731_1_alg».proof.Proof.Ref.Val
import proofs.«409815_j9423158247731_1_alg».proof.Proof.PreDecode

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_result (F := Bits) m ρ)

/-- So does the idealized program. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_result (F := Ideal) m ρ)

/-- So does the reference. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Hand.run (F := Ideal) m ρ)

/-- From memories agreeing on the arguments both programs end at the specification's array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Hand.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_eq m c
          (Cert.KernelIdeal.Hand.perm_range _ _ _ _ _ _ (hpre c))), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2]
    exact Cert.ReferenceIdeal.Hand.refOut_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
